-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S1x128 .f32) (main_arg12 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S1x128 .f32 := Host.absf main_arg11
  let main_cst_16 : FVec F S_ .f32 := constant S_ .f32 0x7F800000#32
  let main_v45 : FVec F S1x128 .f32 := broadcastInDim S1x128 ![] bcast_S_S1x128 main_cst_16
  let main_v46 : IVec S1x128 1 := cmpf .olt main_v44 main_v45
  let main_c_17 : IVec S_ 1 := constantI S_ 1 1#1
  let main_v47 : IVec S_ 1 := (fun x v => Host.reduce IntOp.andi x v reducesTo_S1x128_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S1x128 .f32) (main_arg12 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x600000 32) (main_arg2 : IVec S50000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S1x128 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x600000 : Shape := ⟨2, ![1, 600000]⟩
abbrev S600000 : Shape := ⟨1, ![600000]⟩
abbrev S50000x1 : Shape := ⟨2, ![50000, 1]⟩
abbrev S_ : Shape := ⟨0, ![]⟩
abbrev S600000x1 : Shape := ⟨2, ![600000, 1]⟩
abbrev S600000x128 : Shape := ⟨2, ![600000, 128]⟩
abbrev S256x128 : Shape := ⟨2, ![256, 128]⟩
abbrev S5000x128 : Shape := ⟨2, ![5000, 128]⟩
abbrev S5000x1 : Shape := ⟨2, ![5000, 1]⟩
abbrev S5000x256 : Shape := ⟨2, ![5000, 256]⟩
abbrev S128x1 : Shape := ⟨2, ![128, 1]⟩
abbrev S64 : Shape := ⟨1, ![64]⟩
abbrev S64x128 : Shape := ⟨2, ![64, 128]⟩
abbrev S64x1 : Shape := ⟨2, ![64, 1]⟩
abbrev S5000x64 : Shape := ⟨2, ![5000, 64]⟩
abbrev S1x1 : Shape := ⟨2, ![1, 1]⟩

abbrev nBuf : Space → Nat
  | .hbm => 61
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S1x128, .f32⟩
  | .hbm, ⟨12, _⟩ => ⟨S1, .f32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S50000x1, .i32⟩
  | .hbm, ⟨18, _⟩ => ⟨S_, .f32⟩
  | .hbm, ⟨19, _⟩ => ⟨S600000, .f32⟩
  | .hbm, ⟨20, _⟩ => ⟨S_, .f32⟩
  | .hbm, ⟨21, _⟩ => ⟨S50000, .f32⟩
  | .hbm, ⟨22, _⟩ => ⟨S600000x1, .i32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .f32⟩
  | .hbm, ⟨34, _⟩ => ⟨S_, .f32⟩
  | .hbm, ⟨35, _⟩ => ⟨S50000x128, .f32⟩
  | .hbm, ⟨36, _⟩ => ⟨S600000x1, .i32⟩
  | .hbm, ⟨37, _⟩ => ⟨S50000x128, .f32⟩
  | .hbm, ⟨38, _⟩ => ⟨S128x128, .f32⟩
  | .hbm, ⟨39, _⟩ => ⟨S128x128, .f32⟩
  | .hbm, ⟨40, _⟩ => ⟨S256x128, .f32⟩
  | .hbm, ⟨41, _⟩ => ⟨S50000x128, .f32⟩
  | .hbm, ⟨42, _⟩ => ⟨S_, .i32⟩
  | .hbm, ⟨43, _⟩ => ⟨S600000, .i32⟩
  | .hbm, ⟨44, _⟩ => ⟨S600000, .i1⟩
  | .hbm, ⟨45, _⟩ => ⟨S_, .i32⟩
  | .hbm, ⟨46, _⟩ => ⟨S600000, .i32⟩
  | .hbm, ⟨47, _⟩ => ⟨S600000, .i32⟩
  | .hbm, ⟨48, _⟩ => ⟨S600000, .i32⟩
  | .hbm, ⟨49, _⟩ => ⟨S600000x1, .i32⟩
  | .hbm, ⟨50, _⟩ => ⟨S600000x128, .f32⟩
  | .hbm, ⟨51, _⟩ => ⟨S_, .f32⟩
  | .hbm, ⟨52, _⟩ => ⟨S50000x128, .f32⟩
  | .hbm, ⟨53, _⟩ => ⟨S600000x1, .i32⟩
  | .hbm, ⟨54, _⟩ => ⟨S50000x128, .f32⟩
  | .hbm, ⟨55, _⟩ => ⟨S128x128, .f32⟩
  | .hbm, ⟨56, _⟩ => ⟨S128x128, .f32⟩
  | .hbm, ⟨57, _⟩ => ⟨S256x128, .f32⟩
  | .hbm, ⟨58, _⟩ => ⟨S128x128, .f32⟩
  | .hbm, ⟨59, _⟩ => ⟨S128x1, .f32⟩
  | .hbm, ⟨60, _⟩ => ⟨S64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S256x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x1, .f32⟩
  | .local _ .vmem, ⟨13, _⟩ => ⟨S5000x1, .f32⟩
  | .local _ .vmem, ⟨14, _⟩ => ⟨S5000x128, .f32⟩
  | .local _ .vmem, ⟨15, _⟩ => ⟨S5000x128, .f32⟩
  | .local _ .vmem, ⟨16, _⟩ => ⟨S256x128, .f32⟩
  | .local _ .vmem, ⟨17, _⟩ => ⟨S128, .f32⟩
  | .local _ .vmem, ⟨18, _⟩ => ⟨S5000x1, .i32⟩
  | .local _ .vmem, ⟨19, _⟩ => ⟨S5000x1, .i32⟩
  | .local _ .vmem, ⟨20, _⟩ => ⟨S128x128, .f32⟩
  | .local _ .vmem, ⟨21, _⟩ => ⟨S128, .f32⟩
  | .local _ .vmem, ⟨22, _⟩ => ⟨S128x1, .f32⟩
  | .local _ .vmem, ⟨23, _⟩ => ⟨S1, .f32⟩
  | .local _ .vmem, ⟨24, _⟩ => ⟨S64, .f32⟩
  | .local _ .vmem, ⟨25, _⟩ => ⟨S64x128, .f32⟩
  | .local _ .vmem, ⟨26, _⟩ => ⟨S64x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_v10 : Ref sig .tc := ⟨.hbm, 26, rfl⟩
abbrev main_v11 : Ref sig .tc := ⟨.hbm, 27, rfl⟩
abbrev main_c_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_3 : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_scratch0 : Ref sig .tc := ⟨.vmem, 25, rfl⟩
abbrev cc1_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v43 : BitVec 1 := Scalar.cmpi .eq arg0 c9_i32
  let v44 : BitVec 32 := Scalar.extui v43
  let c0_i32_24 : BitVec 32 := 0#32
  let v45 : BitVec 1 := Scalar.cmpi .ne v44 c0_i32_24
  v45

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x1 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S50000_S50000x1 : S50000.ShapeCasts S50000x1
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  transposes_S128x128_S128x128_1_0 : S128x128.Transposes [1, 0] S128x128
  concatenates_S128x128_S128x128_S256x128_d0 : Shape.Concatenates [S128x128, S128x128] S256x128 0
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  concatenates_S5000x128_S5000x128_S5000x256_d1 : Shape.Concatenates [S5000x128, S5000x128] S5000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  transposes_S1x128_S128x1_1_0 : S1x128.Transposes [1, 0] S128x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S5000x64_d1_w32 : S5000x64.Iotas .tc 32 [1]
  broadcasts_S5000x1_S5000x64 : S5000x1.Broadcasts S5000x64
  natLt_1_32 : 1 < 32
  broadcasts_S64x1_S64x128 : S64x1.Broadcasts S64x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S64x128 : S1x128.Broadcasts S64x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1_S1_0 : ∀ a, (![0] : Fin 1 → Nat) a + S1.size a ≤ S1.size a
  h_S1 : 0 < S1.numel
  shapeCasts_S1_S1x1 : S1.ShapeCasts S1x1
  broadcasts_S1x1_S64x1 : S1x1.Broadcasts S64x1
  shapeCasts_S64x1_S64 : S64x1.ShapeCasts S64
  inb_S64_S64_0 : ∀ a, (![0] : Fin 1 → Nat) a + S64.size a ≤ S64.size a
  h_S64 : 0 < S64.numel
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x256_S256x128_S5000x128_1_0_0_1_n_n_wf : DotDims.WF S5000x256 S256x128 S5000x128 [1] [0] [0] [1] [] []
  dot_S5000x64_S5000x128_S64x128_0_0_1_1_n_n_wf : DotDims.WF S5000x64 S5000x128 S64x128 [0] [0] [1] [1] [] []
  dot_S5000x64_S5000x1_S64x1_0_0_1_1_n_n_wf : DotDims.WF S5000x64 S5000x1 S64x1 [0] [0] [1] [1] [] []
  dot_S64x128_S128x128_S64x128_1_0_0_1_n_n_wf : DotDims.WF S64x128 S128x128 S64x128 [1] [0] [0] [1] [] []
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x1.size a ≤ S50000x1.size a
  hwx1_5 : ∀ i : grid1.Coords, EltTy.bits .i32 = 32 ∨ (Rect.block (s := S50000x1) S5000x1.size (cc1_transform_5 i) (hinb1_5 i)).WholeWords (EltTy.packing .i32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x1.size a ≤ S128x1.size a
  hwx1_8 : ∀ i : grid1.Coords, EltTy.bits .f32 = 32 ∨ (Rect.block (s := S128x1) S128x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1.size a ≤ S1.size a
  hwx1_9 : ∀ i : grid1.Coords, EltTy.bits .f32 = 32 ∨ (Rect.block (s := S1) S1.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64.size a ≤ S64.size a
  hwx1_10 : ∀ i : grid1.Coords, EltTy.bits .f32 = 32 ∨ (Rect.block (s := S64) S64.size (cc1_transform_10 i) (hinb1_10 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S5000x64_S5000x1_S64x1_0_0_1_1_n_n : DotDims S5000x64 S5000x1 S64x1 where
  lhsContracting := [0]
  rhsContracting := [0]
  lhsNonContracting := [1]
  rhsNonContracting := [1]
  lhsBatch := []
  rhsBatch := []
  wf := dot_S5000x64_S5000x1_S64x1_0_0_1_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_v19) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S5000x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v37) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v38) S128x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg12) S1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v39) S64.size cc1_transform_10 reads1_10 true true 1 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev idle1 : Fin 11 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k1_cond2 i == 1#1) | ⟨_ + 11, h⟩ => absurd h (Nat.not_lt.2 (Nat.le_add_left _ _))

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S64x128 : Shape := ⟨2, ![64, 128]⟩
abbrev S64 : Shape := ⟨1, ![64]⟩
abbrev S64x1 : Shape := ⟨2, ![64, 1]⟩
abbrev S128x1 : Shape := ⟨2, ![128, 1]⟩
abbrev S1x1 : Shape := ⟨2, ![1, 1]⟩

abbrev nBuf : Space → Nat
  | .hbm => 123
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S1x128, .f32⟩
  | .hbm, ⟨12, _⟩ => ⟨S1, .f32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S_, .i32⟩
  | .hbm, ⟨18, _⟩ => ⟨S600000, .i32⟩
  | .hbm, ⟨19, _⟩ => ⟨S600000, .i1⟩
  | .hbm, ⟨20, _⟩ => ⟨S_, .i32⟩
  | .hbm, ⟨21, _⟩ => ⟨S600000, .i32⟩
  | .hbm, ⟨22, _⟩ => ⟨S600000, .i32⟩
  | .hbm, ⟨23, _⟩ => ⟨S600000, .i32⟩
  | .hbm, ⟨24, _⟩ => ⟨S600000x1, .i32⟩
  | .hbm, ⟨25, _⟩ => ⟨S600000x128, .f32⟩
  | .hbm, ⟨26, _⟩ => ⟨S_, .f32⟩
  | .hbm, ⟨27, _⟩ => ⟨S50000x128, .f32⟩
  | .hbm, ⟨28, _⟩ => ⟨S600000x1, .i32⟩
  | .hbm, ⟨29, _⟩ => ⟨S50000x128, .f32⟩
  | .hbm, ⟨30, _⟩ => ⟨S_, .f32⟩
  | .hbm, ⟨31, _⟩ => ⟨S600000, .f32⟩
  | .hbm, ⟨32, _⟩ => ⟨S_, .f32⟩
  | .hbm, ⟨33, _⟩ => ⟨S50000, .f32⟩
  | .hbm, ⟨34, _⟩ => ⟨S600000x1, .i32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S128x128, .f32⟩
  | .hbm, ⟨43, _⟩ => ⟨S50000x128, .f32⟩
  | .hbm, ⟨44, _⟩ => ⟨S1x128, .f32⟩
  | .hbm, ⟨45, _⟩ => ⟨S50000x128, .f32⟩
  | .hbm, ⟨46, _⟩ => ⟨S50000x128, .f32⟩
  | .hbm, ⟨47, _⟩ => ⟨S128x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000x128, .f32⟩
  | .hbm, ⟨52, _⟩ => ⟨S50000x128, .f32⟩
  | .hbm, ⟨53, _⟩ => ⟨S1x600000, .i32⟩
  | .hbm, ⟨54, _⟩ => ⟨S600000, .i32⟩
  | .hbm, ⟨55, _⟩ => ⟨S1x600000, .i32⟩
  | .hbm, ⟨56, _⟩ => ⟨S600000, .i32⟩
  | .hbm, ⟨57, _⟩ => ⟨S_, .i32⟩
  | .hbm, ⟨58, _⟩ => ⟨S600000, .i32⟩
  | .hbm, ⟨59, _⟩ => ⟨S600000, .i1⟩
  | .hbm, ⟨60, _⟩ => ⟨S_, .i32⟩
  | .hbm, ⟨61, _⟩ => ⟨S600000, .i32⟩
  | .hbm, ⟨62, _⟩ => ⟨S600000, .i32⟩
  | .hbm, ⟨63, _⟩ => ⟨S600000, .i32⟩
  | .hbm, ⟨64, _⟩ => ⟨S600000x1, .i32⟩
  | .hbm, ⟨65, _⟩ => ⟨S600000x128, .f32⟩
  | .hbm, ⟨66, _⟩ => ⟨S_, .f32⟩
  | .hbm, ⟨67, _⟩ => ⟨S50000x128, .f32⟩
  | .hbm, ⟨68, _⟩ => ⟨S600000x1, .i32⟩
  | .hbm, ⟨69, _⟩ => ⟨S50000x128, .f32⟩
  | .hbm, ⟨70, _⟩ => ⟨S_, .f32⟩
  | .hbm, ⟨71, _⟩ => ⟨S600000, .f32⟩
  | .hbm, ⟨72, _⟩ => ⟨S_, .f32⟩
  | .hbm, ⟨73, _⟩ => ⟨S50000, .f32⟩
  | .hbm, ⟨74, _⟩ => ⟨S600000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .f32⟩
  | .hbm, ⟨79, _⟩ => ⟨S50000x1, .f32⟩
  | .hbm, ⟨80, _⟩ => ⟨S50000x128, .f32⟩
  | .hbm, ⟨81, _⟩ => ⟨S50000x128, .f32⟩
  | .hbm, ⟨82, _⟩ => ⟨S128x128, .f32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S128x128, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S50000x128, .f32⟩
  | .hbm, ⟨92, _⟩ => ⟨S50000x128, .f32⟩
  | .hbm, ⟨93, _⟩ => ⟨S_, .f32⟩
  | .hbm, ⟨94, _⟩ => ⟨S64x128, .f32⟩
  | .hbm, ⟨95, _⟩ => ⟨S50000x1, .i32⟩
  | .hbm, ⟨96, _⟩ => ⟨S64x128, .f32⟩
  | .hbm, ⟨97, _⟩ => ⟨S_, .f32⟩
  | .hbm, ⟨98, _⟩ => ⟨S50000, .f32⟩
  | .hbm, ⟨99, _⟩ => ⟨S_, .f32⟩
  | .hbm, ⟨100, _⟩ => ⟨S64, .f32⟩
  | .hbm, ⟨101, _⟩ => ⟨S50000x1, .i32⟩
  | .hbm, ⟨102, _⟩ => ⟨S64, .f32⟩
  | .hbm, ⟨103, _⟩ => ⟨S_, .f32⟩
  | .hbm, ⟨104, _⟩ => ⟨S64, .f32⟩
  | .hbm, ⟨105, _⟩ => ⟨S64, .f32⟩
  | .hbm, ⟨106, _⟩ => ⟨S64x1, .f32⟩
  | .hbm, ⟨107, _⟩ => ⟨S64x128, .f32⟩
  | .hbm, ⟨108, _⟩ => ⟨S64x128, .f32⟩
  | .hbm, ⟨109, _⟩ => ⟨S128x128, .f32⟩
  | .hbm, ⟨110, _⟩ => ⟨S64x128, .f32⟩
  | .hbm, ⟨111, _⟩ => ⟨S1x128, .f32⟩
  | .hbm, ⟨112, _⟩ => ⟨S64x128, .f32⟩
  | .hbm, ⟨113, _⟩ => ⟨S64x128, .f32⟩
  | .hbm, ⟨114, _⟩ => ⟨S_, .f32⟩
  | .hbm, ⟨115, _⟩ => ⟨S64x128, .f32⟩
  | .hbm, ⟨116, _⟩ => ⟨S64x128, .f32⟩
  | .hbm, ⟨117, _⟩ => ⟨S128x1, .f32⟩
  | .hbm, ⟨118, _⟩ => ⟨S64x1, .f32⟩
  | .hbm, ⟨119, _⟩ => ⟨S1x1, .f32⟩
  | .hbm, ⟨120, _⟩ => ⟨S64x1, .f32⟩
  | .hbm, ⟨121, _⟩ => ⟨S64x1, .f32⟩
  | .hbm, ⟨122, _⟩ => ⟨S64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call0_cst : Ref sig .tc := ⟨.hbm, 50, rfl⟩
abbrev main_call0_v0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_4 : Ref sig .tc := ⟨.hbm, 57, rfl⟩
abbrev main_v36 : Ref sig .tc := ⟨.hbm, 58, rfl⟩
abbrev main_v37 : Ref sig .tc := ⟨.hbm, 59, rfl⟩
abbrev main_c_5 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_cst_8 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_9 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_call1_cst : Ref sig .tc := ⟨.hbm, 90, rfl⟩
abbrev main_call1_v0 : Ref sig .tc := ⟨.hbm, 91, rfl⟩
abbrev main_v63 : Ref sig .tc := ⟨.hbm, 92, rfl⟩
abbrev main_cst_10 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_11 : Ref sig .tc := ⟨.hbm, 97, rfl⟩
abbrev main_v67 : Ref sig .tc := ⟨.hbm, 98, rfl⟩
abbrev main_cst_12 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_13 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_call2_cst : Ref sig .tc := ⟨.hbm, 114, rfl⟩
abbrev main_call2_v0 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  transposes_S1x128_S128x1_1_0 : S1x128.Transposes [1, 0] S128x1
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x128_S64x128_1_0_0_1_n_n_wf : DotDims.WF S64x128 S128x128 S64x128 [1] [0] [0] [1] [] []
  dot_S64x128_S128x1_S64x1_1_0_0_1_n_n_wf : DotDims.WF S64x128 S128x1 S64x1 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.SageLayerBodyBits.lean ====
/-
  The first layer's kernel region, point by point: at each of the ten grid points the body loads the tile of
  neighbour sums, the tile of degrees, the tile of node features, the stacked weights and the bias, and stores one
  tile of the layer's output, a pure function of what it loaded. So after point `t` the output window's buffer holds
  that function of the five input blocks at `t`, each input buffer still holds its block, and nothing else of the core
  is touched: the region's invariant is the untouched rest.
-/
import proofs.«409417_j75368086110725_2_alg».proof.Proof.Gen.Kernel.Launch
import proofs.«409417_j75368086110725_2_alg».proof.Proof.Gen.Kernel.Skeleton
import proofs.«409417_j75368086110725_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole tile of 5000 × 128, of 5000 × 1, of 256 × 128 and of 128: the rectangles the body loads and stores through. -/
abbrev rT : Rect S5000x128 := Rect.unit (s := S5000x128) ![0, 0] S5000x128.size inb_S5000x128_S5000x128_0_0
abbrev rD : Rect S5000x1 := Rect.unit (s := S5000x1) ![0, 0] S5000x1.size inb_S5000x1_S5000x1_0_0
abbrev rW : Rect S256x128 := Rect.unit (s := S256x128) ![0, 0] S256x128.size inb_S256x128_S256x128_0_0
abbrev rB : Rect S128 := Rect.unit (s := S128) ![0] S128.size inb_S128_S128_0

/-- The output tile after the body, from the five input blocks: its one store, of the layer's arithmetic on what the
    body loaded. -/
def out0_5 (x0 : Vec F S5000x128 .f32) (x1 : Vec F S5000x1 .f32) (x2 : Vec F S5000x128 .f32) (x3 : Vec F S256x128 .f32) (x4 : Vec F S128 .f32) : Vec F S5000x128 .f32 :=
  View.canon [⟨rT, k0_pay1 (View.ld x0 rT) (View.ld x1 rD) (View.ld x2 rT) (View.ld x3 rW) (View.ld x4 rB)⟩]

/-- The proof data of the first region on core `c`: the arrays as the region finds them; after the body at point `t`
    each input's buffer at its block and the output's at `out0_5` of the input blocks; the invariant the untouched
    rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) :
    (dat0 V c).after 5 t = out0_5 (iblk0 V c 0 t) (iblk0 V c 1 t) (iblk0 V c 2 t) (iblk0 V c 3 t) (iblk0 V c 4 t) := by
  dsimp only [dat0]

/-- Input window 0 (the neighbour sums): for any proof data whose array is the entry contents and whose body leaves the block
    in place, the current buffer holds the block of point `t`, whether the point fetches it or the index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the degrees): for any proof data whose array is the entry contents and whose body leaves the block
    in place, the current buffer holds the block of point `t`, whether the point fetches it or the index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the node features): for any proof data whose array is the entry contents and whose body leaves the block
    in place, the current buffer holds the block of point `t`, whether the point fetches it or the index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the stacked weights): for any proof data whose array is the entry contents and whose body leaves the block
    in place, the current buffer holds the block of point `t`, whether the point fetches it or the index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 (the bias): for any proof data whose array is the entry contents and whose body leaves the block
    in place, the current buffer holds the block of point `t`, whether the point fetches it or the index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The output tile is covered by the one rectangle the body stores through. -/
theorem cover0_5 (p0 : Vec F S5000x128 .f32) (y : S5000x128.Idx) :
    ∃ pc ∈ ([⟨rT, p0⟩] : List (View.Piece (Elt F) S5000x128 .f32)), y ∈ pc.1.set :=
  View.cover_of_tiled [⟨rT, p0⟩] S5000x128.size (by rfl) y

set_option maxHeartbeats 1000000 in
/-- The body's triple: owning the five input buffers whole at contents `x0 … x4` and the output buffer whole at
    anything, the body runs to the five inputs unchanged and the output at `out0_5 x0 … x4`; the grid coordinates
    are not read. -/
theorem sound_kernel0 (c : Dev nD) (E : Set ℕ) (i : grid0.Coords)
    (arg1 : Memref sig .tc .vmem S5000x128 .f32) (harg1 : arg1.IsWhole)
    (arg2 : Memref sig .tc .vmem S5000x1 .f32) (harg2 : arg2.IsWhole)
    (arg3 : Memref sig .tc .vmem S5000x128 .f32) (harg3 : arg3.IsWhole)
    (arg4 : Memref sig .tc .vmem S256x128 .f32) (harg4 : arg4.IsWhole)
    (arg5 : Memref sig .tc .vmem S128 .f32) (harg5 : arg5.IsWhole)
    (arg6 : Memref sig .tc .vmem S5000x128 .f32) (harg6 : arg6.IsWhole)
    (x0 : Vec F S5000x128 .f32) (x1 : Vec F S5000x1 .f32) (x2 : Vec F S5000x128 .f32) (x3 : Vec F S256x128 .f32) (x4 : Vec F S128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__sage1_kernel i arg1 harg1 arg2 harg2 arg3 harg3 arg4 harg4 arg5 harg5 arg6 harg6) K := by
  simp only [cc0__sage1_kernel_eq_skeleton]; unfold cc0__sage1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- What the body leaves in each input window's buffer: its block, untouched. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]

/-- Each input window's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`: the invariant, what the core owes, and the six windows' current
    buffers, the inputs at their blocks and the output at whatever the pipeline left there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it returns: the same invariant and debt, and every window's buffer at its contents after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the five input buffers hold their blocks, so the body's triple applies to them and to the
    output buffer; the invariant and the debt are the same at `t` and after it and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the first region, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.PoolSharedBits.lean ====
/-
  The second kernel region (the second layer fused with the pool and the head), what its ten points share: each
  window's block at a point; the two branch conditions of the body as functions of the point, decided over the grid
  (the accumulators are reset at the first point only, the head runs and the output is stored at the last point
  only); where the output window is idle; the region's invariant with the two accumulators named.
-/
import proofs.«409417_j75368086110725_2_alg».proof.Proof.Gen.Kernel.Launch
import proofs.«409417_j75368086110725_2_alg».proof.Proof.Gen.Kernel.Skeleton
import proofs.«409417_j75368086110725_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## Every input window's buffer holds its block at every point, fetched there or not -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, over the grid -/

/-- The accumulators are reset: the condition of the body's first branch, from the grid coordinate. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 10 = 0 :=
  (by decide +kernel : ∀ t : Fin grid1.N, cond1_0 (grid1.coords t) ↔ t.val % 10 = 0)

/-- The head runs and the output is stored: the condition of the body's second branch. -/
abbrev cond1_1 (i : grid1.Coords) : Prop := k1_cond2 i = 1#1
/-- It holds at the last point only. -/
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem liveAt1_8 : ∀ t : Fin cfg1.N, cfg1.idle 8 (grid1.coords t) = false := by decide +kernel
theorem liveAt1_9 : ∀ t : Fin cfg1.N, cfg1.idle 9 (grid1.coords t) = false := by decide +kernel
/-- Before the last point the output window is idle (nothing is stored into it) and is not written back. -/
theorem idleAt1_10 : ∀ t : Fin cfg1.N, ¬cond1_1 (grid1.coords t) → cfg1.idle 10 (grid1.coords t) = true := by decide +kernel
theorem noFlush1_10 : ∀ t : Fin cfg1.N, ¬cond1_1 (grid1.coords t) → (cfg1.win 10).flush t = false := by decide +kernel
/-- At the last point it is live. -/
theorem liveAt1_10 : ∀ t : Fin cfg1.N, cond1_1 (grid1.coords t) → cfg1.idle 10 (grid1.coords t) = false := by decide +kernel

/-! ## The memrefs the body is called with -/

abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S5000x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S5000x1 .i32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S128x1 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S64 .f32 := win1_10.stage (cfg1.slots t 10)
abbrev hs1_10 (t : Fin cfg1.N) : (ms1_10 t).IsWhole := hstage1_10 ((cfg1.slots t 10).cast nbuf1_10)
/-- The two accumulators: whole scoped buffers of the kernel's own. -/
abbrev scM1_0 : Memref sig .tc .vmem S64x128 .f32 := Memref.whole cc1_scratch0
abbrev scM1_1 : Memref sig .tc .vmem S64x1 .f32 := Memref.whole cc1_scratch1
/-- The views through which their contents, and the output buffer's, are stated. -/
abbrev VS1_0 : View sig .tc .vmem S64x128 .f32 := scM1_0.view
abbrev VS1_1 : View sig .tc .vmem S64x1 .f32 := scM1_1.view
abbrev VO1_10 : View sig .tc .vmem S64 .f32 := (Memref.whole cc1_stg10_0 : Memref sig .tc .vmem S64 .f32).view

/-! ## The region's invariant with the accumulators named -/

/-- What of the core's scoped state the body never touches: the first region's staging buffers, each at some
    contents, and the generator register at some state. -/
def restG (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ r, prngReg c r))

/-- The invariant with the two accumulators at `S0`, `S1`. -/
def PhiWith (c : Dev nD) (S0 S1 : sProp 𝕄) : sProp 𝕄 := iprop(S0 ∗ S1 ∗ restG c)

/-- The untouched-rest invariant hands the accumulators over at some contents, -/
theorem PhiA1_elim (c : Dev nD) :
    (Pipeline.ΦA spec1 c : sProp 𝕄) ⊢ PhiWith c iprop(∃ d, owns (c : Thread nD τ) scM1_0 fullShare d) iprop(∃ d, owns (c : Thread nD τ) scM1_1 fullShare d) := by
  unfold Pipeline.ΦA PhiWith restG; rw [scopedRest1_eq]; simp only [scM1_0, scM1_1, owns_whole]
  iintro ⟨⟨H0, H1, H2, H3, H4, H5, H6, H7, H8, H9, HS0, HS1⟩, Hg⟩
  isplitl [HS0]; · iexact HS0
  isplitl [HS1]; · iexact HS1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact Hg

/-- and takes them back at any. -/
theorem PhiA1_intro (c : Dev nD) :
    PhiWith c iprop(∃ d, owns (c : Thread nD τ) scM1_0 fullShare d) iprop(∃ d, owns (c : Thread nD τ) scM1_1 fullShare d) ⊢ (Pipeline.ΦA spec1 c : sProp 𝕄) := by
  unfold Pipeline.ΦA PhiWith restG; rw [scopedRest1_eq]; simp only [scM1_0, scM1_1, owns_whole]
  iintro ⟨HS0, HS1, H0, H1, H2, H3, H4, H5, H6, H7, H8, H9, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    iexact HS1
  iexact Hg

end Cert.Kernel.Frame

end
-- ==== Proof.PoolRunABits.lean ====
/-
  The second kernel's body run whole at the FIRST point (the accumulators are reset, then added to; the output is not stored): on whole memrefs, the inputs at their contents,
  it runs to the continuation with the inputs as they were and each buffer it stores into at its stores, listed
  last first. The lists are found by running the body: they are read off when the buffers are handed to the continuation.
-/
import proofs.«409417_j75368086110725_2_alg».proof.Proof.PoolSharedBits

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- The stores the body makes into the two accumulators at the FIRST point (the accumulators are reset, then added to; the output is not stored), with the body's triple. -/
noncomputable def kernelRun1_A (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x1 .i32) (harg6 : arg6.IsWhole) (arg7 : Memref sig .tc .vmem S128x128 .f32) (harg7 : arg7.IsWhole) (arg8 : Memref sig .tc .vmem S128 .f32) (harg8 : arg8.IsWhole) (arg9 : Memref sig .tc .vmem S128x1 .f32) (harg9 : arg9.IsWhole) (arg10 : Memref sig .tc .vmem S1 .f32) (harg10 : arg10.IsWhole) (arg11 : Memref sig .tc .vmem S64 .f32) (harg11 : arg11.IsWhole) (arg12 : Memref sig .tc .vmem S64x128 .f32) (harg12 : arg12.IsWhole) (arg13 : Memref sig .tc .vmem S64x1 .f32) (harg13 : arg13.IsWhole) (hc0 : cond1_0 i) (hc1 : ¬cond1_1 i)
    (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) :
    Σ' (LS0 : List (View.Piece (Elt F) S64x128 .f32)), { LS1 : List (View.Piece (Elt F) S64x1 .f32) //
      ∀ (xi10 : Vec F S64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1__sage2_pool_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun xi10 E K => ?run⟩
  case run =>
    simp only [cc1__sage2_pool_kernel_eq_skeleton]; unfold cc1__sage2_pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    iexists _; iexact HS1

end Cert.Kernel.Frame

end
-- ==== Proof.PoolRunBBits.lean ====
/-
  The second kernel's body run whole at a MIDDLE point (the accumulators, at what the point before left, are added to; the output is not stored): on whole memrefs, the inputs at their contents,
  it runs to the continuation with the inputs as they were and each buffer it stores into at its stores, listed
  last first. The lists are found by running the body: they are read off when the buffers are handed to the continuation.
-/
import proofs.«409417_j75368086110725_2_alg».proof.Proof.PoolRunABits

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- The stores the body makes into the two accumulators at a MIDDLE point (the accumulators, at what the point before left, are added to; the output is not stored), with the body's triple. -/
noncomputable def kernelRun1_B (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x1 .i32) (harg6 : arg6.IsWhole) (arg7 : Memref sig .tc .vmem S128x128 .f32) (harg7 : arg7.IsWhole) (arg8 : Memref sig .tc .vmem S128 .f32) (harg8 : arg8.IsWhole) (arg9 : Memref sig .tc .vmem S128x1 .f32) (harg9 : arg9.IsWhole) (arg10 : Memref sig .tc .vmem S1 .f32) (harg10 : arg10.IsWhole) (arg11 : Memref sig .tc .vmem S64 .f32) (harg11 : arg11.IsWhole) (arg12 : Memref sig .tc .vmem S64x128 .f32) (harg12 : arg12.IsWhole) (arg13 : Memref sig .tc .vmem S64x1 .f32) (harg13 : arg13.IsWhole) (hc0 : ¬cond1_0 i) (hc1 : ¬cond1_1 i)
    (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) (xs0 : Vec F S64x128 .f32) (xs1 : Vec F S64x1 .f32) :
    Σ' (LS0 : List (View.Piece (Elt F) S64x128 .f32)), { LS1 : List (View.Piece (Elt F) S64x1 .f32) //
      ∀ (xi10 : Vec F S64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1__sage2_pool_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun xi10 E K => ?run⟩
  case run =>
    simp only [cc1__sage2_pool_kernel_eq_skeleton]; unfold cc1__sage2_pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hfs0; obtain rfl := harg13.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    iexists _; iexact HS1

end Cert.Kernel.Frame

end
-- ==== Proof.PoolRunCBits.lean ====
/-
  The second kernel's body run whole at the LAST point (the accumulators are added to, then the head is computed from them and stored into the output): on whole memrefs, the inputs at their contents,
  it runs to the continuation with the inputs as they were and each buffer it stores into at its stores, listed
  last first. The lists are found by running the body: they are read off when the buffers are handed to the continuation.
-/
import proofs.«409417_j75368086110725_2_alg».proof.Proof.PoolRunBBits

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- The stores the body makes into the output buffer and the two accumulators at the LAST point (the accumulators are added to, then the head is computed from them and stored into the output), with the body's triple. -/
noncomputable def kernelRun1_C (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x1 .i32) (harg6 : arg6.IsWhole) (arg7 : Memref sig .tc .vmem S128x128 .f32) (harg7 : arg7.IsWhole) (arg8 : Memref sig .tc .vmem S128 .f32) (harg8 : arg8.IsWhole) (arg9 : Memref sig .tc .vmem S128x1 .f32) (harg9 : arg9.IsWhole) (arg10 : Memref sig .tc .vmem S1 .f32) (harg10 : arg10.IsWhole) (arg11 : Memref sig .tc .vmem S64 .f32) (harg11 : arg11.IsWhole) (arg12 : Memref sig .tc .vmem S64x128 .f32) (harg12 : arg12.IsWhole) (arg13 : Memref sig .tc .vmem S64x1 .f32) (harg13 : arg13.IsWhole) (hc0 : ¬cond1_0 i) (hc1 : cond1_1 i)
    (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) (xs0 : Vec F S64x128 .f32) (xs1 : Vec F S64x1 .f32) :
    Σ' (L10 : List (View.Piece (Elt F) S64 .f32)) (LS0 : List (View.Piece (Elt F) S64x128 .f32)), { LS1 : List (View.Piece (Elt F) S64x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1__sage2_pool_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc1__sage2_pool_kernel_eq_skeleton]; unfold cc1__sage2_pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hfs0; obtain rfl := harg13.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [HS0]; · iexists _; iexact HS0
    iexists _; iexact HS1

end Cert.Kernel.Frame

end
-- ==== Proof.PoolBodyBits.lean ====
/-
  The second kernel region, point by point. The two accumulators (the pooled sums and the graph sizes) are carried
  from point to point: `outsAt1` says what they hold after each point, by recursion on the point — at the first point
  what the reset-then-add run leaves, afterwards what the add run leaves over what the point before left. The region's
  invariant holds them at those contents; the output window is idle until the last point, where the head's result is
  stored and written back. The body obligation follows by cases on the point: first, middle, last.
-/
import proofs.«409417_j75368086110725_2_alg».proof.Proof.PoolRunCBits

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## Which case a point is in -/

theorem lt10 (t : Fin cfg1.N) : t.val < 10 := lt_of_lt_of_eq t.isLt (show cfg1.N = 10 from N_1)
theorem isFirst (t : Fin cfg1.N) (h : t.val = 0) : cond1_0 (grid1.coords t) := (hcond1_0 t).mpr (by rw [h])
theorem notFirst (t : Fin cfg1.N) (h : t.val ≠ 0) : ¬cond1_0 (grid1.coords t) :=
  fun hc => h (by have := (hcond1_0 t).mp hc; have := lt10 t; omega)
theorem isLast (t : Fin cfg1.N) (h : t.val = 9) : cond1_1 (grid1.coords t) := (hcond1_1 t).mpr (by rw [h])
theorem notLast (t : Fin cfg1.N) (h : t.val ≠ 9) : ¬cond1_1 (grid1.coords t) :=
  fun hc => h (by have := (hcond1_1 t).mp hc; have := lt10 t; omega)

/-! ## What each case's run leaves -/

/-- The body's run at point `t`, on the memrefs the pipeline calls it with there. -/
abbrev runA (c : Dev nD) (t : Fin cfg1.N) (hc0 : cond1_0 (grid1.coords t)) (hc1 : ¬cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) hc0 hc1 x0 x1 x2 x3 x4 x5 x6 x7 x8 x9

/-- Its stores into the first accumulator cover it. -/
theorem scover1_A_0 (c : Dev nD) (t : Fin cfg1.N) (hc0 : cond1_0 (grid1.coords t)) (hc1 : ¬cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) (y : S64x128.Idx) :
    ∃ pc ∈ (runA c t hc0 hc1 x0 x1 x2 x3 x4 x5 x6 x7 x8 x9).1, y ∈ pc.1.set :=
  View.cover_of_tiledL (runA c t hc0 hc1 x0 x1 x2 x3 x4 x5 x6 x7 x8 x9).1 S64x128.size (by sl_kernel_rfl) y
/-- What the run leaves in the first accumulator: its stores read back. -/
def sout1_A_0 (c : Dev nD) (t : Fin cfg1.N) (hc0 : cond1_0 (grid1.coords t)) (hc1 : ¬cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) : Vec F S64x128 .f32 :=
  VS1_0.read (Elt F) (VS1_0.writes (Elt F) VS1_0.junk (runA c t hc0 hc1 x0 x1 x2 x3 x4 x5 x6 x7 x8 x9).1)
/-- Its stores into the second accumulator cover it. -/
theorem scover1_A_1 (c : Dev nD) (t : Fin cfg1.N) (hc0 : cond1_0 (grid1.coords t)) (hc1 : ¬cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) (y : S64x1.Idx) :
    ∃ pc ∈ (runA c t hc0 hc1 x0 x1 x2 x3 x4 x5 x6 x7 x8 x9).2.1, y ∈ pc.1.set :=
  View.cover_of_tiledL (runA c t hc0 hc1 x0 x1 x2 x3 x4 x5 x6 x7 x8 x9).2.1 S64x1.size (by sl_kernel_rfl) y
/-- What the run leaves in the second accumulator. -/
def sout1_A_1 (c : Dev nD) (t : Fin cfg1.N) (hc0 : cond1_0 (grid1.coords t)) (hc1 : ¬cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) : Vec F S64x1 .f32 :=
  VS1_1.read (Elt F) (VS1_1.writes (Elt F) VS1_1.junk (runA c t hc0 hc1 x0 x1 x2 x3 x4 x5 x6 x7 x8 x9).2.1)

/-- The body's run at point `t`, on the memrefs the pipeline calls it with there. -/
abbrev runB (c : Dev nD) (t : Fin cfg1.N) (hc0 : ¬cond1_0 (grid1.coords t)) (hc1 : ¬cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) (xs0 : Vec F S64x128 .f32) (xs1 : Vec F S64x1 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) hc0 hc1 x0 x1 x2 x3 x4 x5 x6 x7 x8 x9 xs0 xs1

/-- Its stores into the first accumulator cover it. -/
theorem scover1_B_0 (c : Dev nD) (t : Fin cfg1.N) (hc0 : ¬cond1_0 (grid1.coords t)) (hc1 : ¬cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) (xs0 : Vec F S64x128 .f32) (xs1 : Vec F S64x1 .f32) (y : S64x128.Idx) :
    ∃ pc ∈ (runB c t hc0 hc1 x0 x1 x2 x3 x4 x5 x6 x7 x8 x9 xs0 xs1).1, y ∈ pc.1.set :=
  View.cover_of_tiledL (runB c t hc0 hc1 x0 x1 x2 x3 x4 x5 x6 x7 x8 x9 xs0 xs1).1 S64x128.size (by sl_kernel_rfl) y
/-- What the run leaves in the first accumulator: its stores read back. -/
def sout1_B_0 (c : Dev nD) (t : Fin cfg1.N) (hc0 : ¬cond1_0 (grid1.coords t)) (hc1 : ¬cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) (xs0 : Vec F S64x128 .f32) (xs1 : Vec F S64x1 .f32) : Vec F S64x128 .f32 :=
  VS1_0.read (Elt F) (VS1_0.writes (Elt F) VS1_0.junk (runB c t hc0 hc1 x0 x1 x2 x3 x4 x5 x6 x7 x8 x9 xs0 xs1).1)
/-- Its stores into the second accumulator cover it. -/
theorem scover1_B_1 (c : Dev nD) (t : Fin cfg1.N) (hc0 : ¬cond1_0 (grid1.coords t)) (hc1 : ¬cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) (xs0 : Vec F S64x128 .f32) (xs1 : Vec F S64x1 .f32) (y : S64x1.Idx) :
    ∃ pc ∈ (runB c t hc0 hc1 x0 x1 x2 x3 x4 x5 x6 x7 x8 x9 xs0 xs1).2.1, y ∈ pc.1.set :=
  View.cover_of_tiledL (runB c t hc0 hc1 x0 x1 x2 x3 x4 x5 x6 x7 x8 x9 xs0 xs1).2.1 S64x1.size (by sl_kernel_rfl) y
/-- What the run leaves in the second accumulator. -/
def sout1_B_1 (c : Dev nD) (t : Fin cfg1.N) (hc0 : ¬cond1_0 (grid1.coords t)) (hc1 : ¬cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) (xs0 : Vec F S64x128 .f32) (xs1 : Vec F S64x1 .f32) : Vec F S64x1 .f32 :=
  VS1_1.read (Elt F) (VS1_1.writes (Elt F) VS1_1.junk (runB c t hc0 hc1 x0 x1 x2 x3 x4 x5 x6 x7 x8 x9 xs0 xs1).2.1)

/-- The body's run at point `t`, on the memrefs the pipeline calls it with there. -/
abbrev runC (c : Dev nD) (t : Fin cfg1.N) (hc0 : ¬cond1_0 (grid1.coords t)) (hc1 : cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) (xs0 : Vec F S64x128 .f32) (xs1 : Vec F S64x1 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) hc0 hc1 x0 x1 x2 x3 x4 x5 x6 x7 x8 x9 xs0 xs1

/-- Its stores into the first accumulator cover it. -/
theorem scover1_C_0 (c : Dev nD) (t : Fin cfg1.N) (hc0 : ¬cond1_0 (grid1.coords t)) (hc1 : cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) (xs0 : Vec F S64x128 .f32) (xs1 : Vec F S64x1 .f32) (y : S64x128.Idx) :
    ∃ pc ∈ (runC c t hc0 hc1 x0 x1 x2 x3 x4 x5 x6 x7 x8 x9 xs0 xs1).2.1, y ∈ pc.1.set :=
  View.cover_of_tiledL (runC c t hc0 hc1 x0 x1 x2 x3 x4 x5 x6 x7 x8 x9 xs0 xs1).2.1 S64x128.size (by sl_kernel_rfl) y
/-- What the run leaves in the first accumulator: its stores read back. -/
def sout1_C_0 (c : Dev nD) (t : Fin cfg1.N) (hc0 : ¬cond1_0 (grid1.coords t)) (hc1 : cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) (xs0 : Vec F S64x128 .f32) (xs1 : Vec F S64x1 .f32) : Vec F S64x128 .f32 :=
  VS1_0.read (Elt F) (VS1_0.writes (Elt F) VS1_0.junk (runC c t hc0 hc1 x0 x1 x2 x3 x4 x5 x6 x7 x8 x9 xs0 xs1).2.1)
/-- Its stores into the second accumulator cover it. -/
theorem scover1_C_1 (c : Dev nD) (t : Fin cfg1.N) (hc0 : ¬cond1_0 (grid1.coords t)) (hc1 : cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) (xs0 : Vec F S64x128 .f32) (xs1 : Vec F S64x1 .f32) (y : S64x1.Idx) :
    ∃ pc ∈ (runC c t hc0 hc1 x0 x1 x2 x3 x4 x5 x6 x7 x8 x9 xs0 xs1).2.2.1, y ∈ pc.1.set :=
  View.cover_of_tiledL (runC c t hc0 hc1 x0 x1 x2 x3 x4 x5 x6 x7 x8 x9 xs0 xs1).2.2.1 S64x1.size (by sl_kernel_rfl) y
/-- What the run leaves in the second accumulator. -/
def sout1_C_1 (c : Dev nD) (t : Fin cfg1.N) (hc0 : ¬cond1_0 (grid1.coords t)) (hc1 : cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) (xs0 : Vec F S64x128 .f32) (xs1 : Vec F S64x1 .f32) : Vec F S64x1 .f32 :=
  VS1_1.read (Elt F) (VS1_1.writes (Elt F) VS1_1.junk (runC c t hc0 hc1 x0 x1 x2 x3 x4 x5 x6 x7 x8 x9 xs0 xs1).2.2.1)
/-- Its one store into the output buffer covers it. -/
theorem cover1_C_10 (c : Dev nD) (t : Fin cfg1.N) (hc0 : ¬cond1_0 (grid1.coords t)) (hc1 : cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) (xs0 : Vec F S64x128 .f32) (xs1 : Vec F S64x1 .f32) (y : S64.Idx) :
    ∃ pc ∈ (runC c t hc0 hc1 x0 x1 x2 x3 x4 x5 x6 x7 x8 x9 xs0 xs1).1, y ∈ pc.1.set :=
  View.cover_of_tiledL (runC c t hc0 hc1 x0 x1 x2 x3 x4 x5 x6 x7 x8 x9 xs0 xs1).1 S64.size (by sl_kernel_rfl) y
/-- What the last point leaves in the output buffer. -/
def out1_C_10 (c : Dev nD) (t : Fin cfg1.N) (hc0 : ¬cond1_0 (grid1.coords t)) (hc1 : cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) (xs0 : Vec F S64x128 .f32) (xs1 : Vec F S64x1 .f32) : Vec F S64 .f32 :=
  VO1_10.read (Elt F) (VO1_10.writes (Elt F) VO1_10.junk (runC c t hc0 hc1 x0 x1 x2 x3 x4 x5 x6 x7 x8 x9 xs0 xs1).1)

variable (V : (c : Dev nD) → (b : Ref sig .tc) → Buf (Elt F) ((c : Thread nD τ).loc b))

/-! ## The accumulators after each point -/

/-- What the two accumulators hold after the body at position `n`: at the first point what the reset-then-add run
    leaves; afterwards what the add run leaves over what the point before left. -/
def outsAt1 (c : Dev nD) : (n : ℕ) → n < cfg1.N → Vec F S64x128 .f32 × Vec F S64x1 .f32
  | 0, hn => (sout1_A_0 c ⟨0, hn⟩ (isFirst _ rfl) (notLast _ (by decide : (0 : ℕ) ≠ 9)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩),
      sout1_A_1 c ⟨0, hn⟩ (isFirst _ rfl) (notLast _ (by decide : (0 : ℕ) ≠ 9)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩))
  | n + 1, hn =>
    if h9 : n + 1 = 9 then
      (sout1_C_0 c ⟨n + 1, hn⟩ (notFirst _ (Nat.succ_ne_zero n)) (isLast _ h9) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).1 (outsAt1 c n (Nat.lt_of_succ_lt hn)).2,
        sout1_C_1 c ⟨n + 1, hn⟩ (notFirst _ (Nat.succ_ne_zero n)) (isLast _ h9) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).1 (outsAt1 c n (Nat.lt_of_succ_lt hn)).2)
    else
      (sout1_B_0 c ⟨n + 1, hn⟩ (notFirst _ (Nat.succ_ne_zero n)) (notLast _ h9) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).1 (outsAt1 c n (Nat.lt_of_succ_lt hn)).2,
        sout1_B_1 c ⟨n + 1, hn⟩ (notFirst _ (Nat.succ_ne_zero n)) (notLast _ h9) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).1 (outsAt1 c n (Nat.lt_of_succ_lt hn)).2)

theorem outsAt1_A (c : Dev nD) (t : Fin cfg1.N) (h0 : t.val = 0) (h9 : t.val ≠ 9) :
    outsAt1 V c t.val t.isLt = (sout1_A_0 c t (isFirst t h0) (notLast t h9) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t),
      sout1_A_1 c t (isFirst t h0) (notLast t h9) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)) := by
  obtain ⟨n, hn⟩ := t
  cases n with
  | zero => rfl
  | succ n => exact absurd h0 (Nat.succ_ne_zero n)

theorem outsAt1_B (c : Dev nD) (t : Fin cfg1.N) (h0 : t.val ≠ 0) (h9 : t.val ≠ 9) :
    outsAt1 V c t.val t.isLt = (sout1_B_0 c t (notFirst t h0) (notLast t h9) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2,
      sout1_B_1 c t (notFirst t h0) (notLast t h9) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact absurd rfl h0
  | succ n => exact (dif_neg h9).trans rfl

theorem outsAt1_C (c : Dev nD) (t : Fin cfg1.N) (h0 : t.val ≠ 0) (h9 : t.val = 9) :
    outsAt1 V c t.val t.isLt = (sout1_C_0 c t (notFirst t h0) (isLast t h9) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2,
      sout1_C_1 c t (notFirst t h0) (isLast t h9) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact absurd rfl h0
  | succ n => exact (dif_pos h9).trans rfl

/-- The last point. -/
def t9 : Fin cfg1.N := ⟨9, by rw [show cfg1.N = 10 from N_1]; decide⟩

/-- What the output buffer holds after the last point: the head's result from the accumulators as the last point's
    add leaves them, over what the point before left. -/
def outFinal (c : Dev nD) : Vec F S64 .f32 :=
  out1_C_10 c t9 (notFirst t9 (by decide)) (isLast t9 rfl) (iblk1 V c 0 t9) (iblk1 V c 1 t9) (iblk1 V c 2 t9) (iblk1 V c 3 t9) (iblk1 V c 4 t9) (iblk1 V c 5 t9) (iblk1 V c 6 t9) (iblk1 V c 7 t9) (iblk1 V c 8 t9) (iblk1 V c 9 t9)
    (outsAt1 V c 8 (by rw [show cfg1.N = 10 from N_1]; decide)).1 (outsAt1 V c 8 (by rw [show cfg1.N = 10 from N_1]; decide)).2

/-- The region's invariant before position `n`: before the first point the untouched rest (the accumulators at
    anything); afterwards the two accumulators at what the point before left. -/
def PhiS1 (c : Dev nD) : (n : ℕ) → n ≤ cfg1.N → sProp 𝕄
  | 0, _ => Pipeline.ΦA spec1 c
  | n + 1, hn => PhiWith c (owns (c : Thread nD τ) scM1_0 fullShare (outsAt1 V c n hn).1) (owns (c : Thread nD τ) scM1_1 fullShare (outsAt1 V c n hn).2)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = PhiWith c (owns (c : Thread nD τ) scM1_0 fullShare (outsAt1 V c n hn).1) (owns (c : Thread nD τ) scM1_1 fullShare (outsAt1 V c n hn).2) := rfl
theorem PhiS1_pos (c : Dev nD) (n : ℕ) (h : n ≤ cfg1.N) (hz : n ≠ 0) :
    PhiS1 V c n h = PhiWith c (owns (c : Thread nD τ) scM1_0 fullShare (outsAt1 V c (n - 1) (by omega)).1) (owns (c : Thread nD τ) scM1_1 fullShare (outsAt1 V c (n - 1) (by omega)).2) := by
  cases n with
  | zero => exact absurd rfl hz
  | succ n => rfl

/-! ## The proof data -/

/-- The proof data of the second region on core `c`: the arrays as the region finds them; after the body each
    input's buffer at its block, the output's at the head's result (stored at the last point only: at the others the
    window is idle and this is not consulted); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => outFinal V c
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = outFinal V c := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t)

set_option maxHeartbeats 8000000 in
/-- The body at any point: every input buffer holds its block; the point is the first, a middle one or the last; the
    invariant hands the run the accumulators at what the point before left (at anything at the first point) and takes
    them back at this point's contents; before the last point the output buffer is handed back untouched, at the last
    it is left at the head's result. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).owesAt () t.succ = (dat1 V c).owesAt () t.castSucc from rfl]
  rw [show (dat1 V c).Φ t.succ = PhiS1 V c (t.val + 1) t.isLt from rfl, PhiS1_succ]
  have hN : t.val < 10 := lt10 t
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [show (dat1 V c).leavesExact 8 t = owns (c : Thread nD τ) (ms1_8 t) fullShare ((dat1 V c).after 8 t) from by
    unfold Dat.leavesExact; rw [liveAt1_8 t], after1_8]
  rw [show (dat1 V c).leavesExact 9 t = owns (c : Thread nD τ) (ms1_9 t) fullShare ((dat1 V c).after 9 t) from by
    unfold Dat.leavesExact; rw [liveAt1_9 t], after1_9]
  by_cases h0 : t.val = 0
  · have h9 : t.val ≠ 9 := by omega
    rw [Dat.leavesExact_idle (dat1 V c) 10 t (idleAt1_10 t (notLast t h9)) (noFlush1_10 t (notLast t h9))]
    rw [outsAt1_A V c t h0 h9]
    unfold sout1_A_0 sout1_A_1; (try dsimp only)
    rw [PhiS1_castSucc V c t, PhiS1_zero V c _ _ h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    ihave HΦ' := (PhiA1_elim c) $$ HΦ
    unfold PhiWith
    icases HΦ' with ⟨HS0, HS1, Hrest⟩
    iapply ((runA c t (isFirst t h0) (notLast t h9) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    iintro ⟨H0, H1, H2, H3, H4, H5, H6, H7, H8, H9, H10, ⟨%es0, HS0⟩, ⟨%es1, HS1⟩⟩
    isplitl [HS0 HS1 Hrest]
    · (try unfold PhiWith)
      isplitl [HS0]
      · unfold owns; iexists _; isplitr
        swap; · iexact HS0
        ipureintro; exact View.read_writes_of_cover _ _ _ _ _ (scover1_A_0 c t _ _ _ _ _ _ _ _ _ _ _ _)
      isplitl [HS1]
      · unfold owns; iexists _; isplitr
        swap; · iexact HS1
        ipureintro; exact View.read_writes_of_cover _ _ _ _ _ (scover1_A_1 c t _ _ _ _ _ _ _ _ _ _ _ _)
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · by_cases h9 : t.val = 9
    · rw [show (dat1 V c).leavesExact 10 t = owns (c : Thread nD τ) (ms1_10 t) fullShare ((dat1 V c).after 10 t) from by
        unfold Dat.leavesExact; rw [liveAt1_10 t (isLast t h9)], after1_10]
      obtain rfl : t = t9 := Fin.ext h9
      rw [outsAt1_C V c t9 h0 h9]
      unfold outFinal out1_C_10 sout1_C_0 sout1_C_1; (try dsimp only)
      rw [PhiS1_castSucc V c t9, PhiS1_pos V c _ _ h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      unfold PhiWith
      icases HΦ with ⟨HS0, HS1, Hrest⟩
      iapply ((runC c t9 (notFirst t9 h0) (isLast t9 h9) (iblk1 V c 0 t9) (iblk1 V c 1 t9) (iblk1 V c 2 t9) (iblk1 V c 3 t9) (iblk1 V c 4 t9) (iblk1 V c 5 t9) (iblk1 V c 6 t9) (iblk1 V c 7 t9) (iblk1 V c 8 t9) (iblk1 V c 9 t9) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      iintro ⟨H0, H1, H2, H3, H4, H5, H6, H7, H8, H9, ⟨%e10, H10⟩, ⟨%es0, HS0⟩, ⟨%es1, HS1⟩⟩
      isplitl [HS0 HS1 Hrest]
      · (try unfold PhiWith)
        isplitl [HS0]
        · unfold owns; iexists _; isplitr
          swap; · iexact HS0
          ipureintro; exact View.read_writes_of_cover _ _ _ _ _ (scover1_C_0 c t9 _ _ _ _ _ _ _ _ _ _ _ _ _ _)
        isplitl [HS1]
        · unfold owns; iexists _; isplitr
          swap; · iexact HS1
          ipureintro; exact View.read_writes_of_cover _ _ _ _ _ (scover1_C_1 c t9 _ _ _ _ _ _ _ _ _ _ _ _ _ _)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover1_C_10 c t9 _ _ _ _ _ _ _ _ _ _ _ _ _ _)
    · rw [Dat.leavesExact_idle (dat1 V c) 10 t (idleAt1_10 t (notLast t h9)) (noFlush1_10 t (notLast t h9))]
      rw [outsAt1_B V c t h0 h9]
      unfold sout1_B_0 sout1_B_1; (try dsimp only)
      rw [PhiS1_castSucc V c t, PhiS1_pos V c _ _ h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      unfold PhiWith
      icases HΦ with ⟨HS0, HS1, Hrest⟩
      iapply ((runB c t (notFirst t h0) (notLast t h9) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      iintro ⟨H0, H1, H2, H3, H4, H5, H6, H7, H8, H9, H10, ⟨%es0, HS0⟩, ⟨%es1, HS1⟩⟩
      isplitl [HS0 HS1 Hrest]
      · (try unfold PhiWith)
        isplitl [HS0]
        · unfold owns; iexists _; isplitr
          swap; · iexact HS0
          ipureintro; exact View.read_writes_of_cover _ _ _ _ _ (scover1_B_0 c t _ _ _ _ _ _ _ _ _ _ _ _ _ _)
        isplitl [HS1]
        · unfold owns; iexists _; isplitr
          swap; · iexact HS1
          ipureintro; exact View.read_writes_of_cover _ _ _ _ _ (scover1_B_1 c t _ _ _ _ _ _ _ _ _ _ _ _ _ _)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

/-- The body obligation of the second region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the untouched rest back: the accumulators' contents are forgotten. -/
theorem PhiWith_forget (c : Dev nD) (s : Vec F S64x128 .f32) (k : Vec F S64x1 .f32) :
    PhiWith c (owns (c : Thread nD τ) scM1_0 fullShare s) (owns (c : Thread nD τ) scM1_1 fullShare k)
      ⊢ PhiWith c iprop(∃ d, owns (c : Thread nD τ) scM1_0 fullShare d) iprop(∃ d, owns (c : Thread nD τ) scM1_1 fullShare d) := by
  unfold PhiWith
  iintro ⟨HS0, HS1, Hrest⟩
  isplitl [HS0]; · iexists _; iexact HS0
  isplitl [HS1]; · iexists _; iexact HS1
  iexact Hrest

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 10 := N_1; omega)]
  exact (PhiWith_forget c _ _).trans (PhiA1_intro c)

end Cert.Kernel.Frame

end
-- ==== Proof.RunBits.lean ====
/-
  The whole program's run: host operations, the first layer's region, host operations, the second region. Between
  two of these the core holds every unscoped buffer at contents named here by folding through @main from the launch
  memory: a host stretch changes them as its operations say; a region leaves its windows' arrays at what its
  write-backs make of the proof data and every other buffer as it found it. Each region is entered from, and left at,
  "every unscoped buffer at the boundary's contents, the generator register at some state, nothing owed". The
  launch theorem for a list of segments then gives: every execution terminates, and every unscoped buffer ends at
  the last boundary's contents (`run_all`) — in particular every argument as launched, and the result buffer at what the
  second region's proof data compute.
-/
import proofs.«409417_j75368086110725_2_alg».proof.Proof.SageLayerBodyBits
import proofs.«409417_j75368086110725_2_alg».proof.Proof.PoolBodyBits
import proofs.«409417_j75368086110725_2_alg».proof.Proof.Gen.Kernel.Regions

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Core `c`'s buffers at launch. -/
abbrev W0 : Dev nD → Valuation τ sig (Elt F) := fun c b => m (c, b)
/-- After the first host stretch (the first region's entry). -/
abbrev W1 : Dev nD → Valuation τ sig (Elt F) := fun c => StableHlo.after hostOps0 (W0 m c)
/-- The same read at the TensorCore's references. -/
abbrev E1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev X2 : (c : Dev nD) → (b : Ref sig .tc) → Buf (Elt F) ((c : Thread nD τ).loc b) := fun c b => W2 m c b
theorem hF0 (c : Dev nD) (w : Fin cfg0.W) : (dat0 (E1 m) c).arrAt w cfg0.N = X2 m c (Pipeline.arrRef spec0 w) :=
  (W2_arr m c w).symm
theorem hrest0 (c : Dev nD) : ∀ b, b ∉ Finset.univ.image (Pipeline.arrRef spec0) → X2 m c b = E1 m c b :=
  fun b hb => W2_of_ne m c b fun w e => hb (Finset.mem_image.mpr ⟨w, Finset.mem_univ _, e⟩)

/-- After the second host stretch (the second region's entry). -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev X4 : (c : Dev nD) → (b : Ref sig .tc) → Buf (Elt F) ((c : Thread nD τ).loc b) := fun c b => W4 m c b
theorem hF1 (c : Dev nD) (w : Fin cfg1.W) : (dat1 (E3 m) c).arrAt w cfg1.N = X4 m c (Pipeline.arrRef spec1 w) :=
  (W4_arr m c w).symm
theorem hrest1 (c : Dev nD) : ∀ b, b ∉ Finset.univ.image (Pipeline.arrRef spec1) → X4 m c b = E3 m c b :=
  fun b hb => W4_of_ne m c b fun w e => hb (Finset.mem_image.mpr ⟨w, Finset.mem_univ _, e⟩)

/-! ### The arguments end as launched: no host operation and no region writes one -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (show main_arg0 ∉ hostOps1_W by decide)
    _ = W1 m c (Proc.devRef .tc main_arg0) := (W2_arr m c 2).trans (((dat0 (E1 m) c).arrAt_in 2 rfl _).trans (A_eq0 (E1 m) c 2))
    _ = W0 m c (Proc.devRef .tc main_arg0) := StableHlo.after_of_writes_sub hostOps0 _ hostOps0_writes (show main_arg0 ∉ hostOps0_W by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (show main_arg1 ∉ hostOps1_W by decide)
    _ = W1 m c (Proc.devRef .tc main_arg1) := W2_of_ne m c main_arg1 (by decide)
    _ = W0 m c (Proc.devRef .tc main_arg1) := StableHlo.after_of_writes_sub hostOps0 _ hostOps0_writes (show main_arg1 ∉ hostOps0_W by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (show main_arg2 ∉ hostOps1_W by decide)
    _ = W1 m c (Proc.devRef .tc main_arg2) := W2_of_ne m c main_arg2 (by decide)
    _ = W0 m c (Proc.devRef .tc main_arg2) := StableHlo.after_of_writes_sub hostOps0 _ hostOps0_writes (show main_arg2 ∉ hostOps0_W by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (show main_arg3 ∉ hostOps1_W by decide)
    _ = W1 m c (Proc.devRef .tc main_arg3) := W2_of_ne m c main_arg3 (by decide)
    _ = W0 m c (Proc.devRef .tc main_arg3) := StableHlo.after_of_writes_sub hostOps0 _ hostOps0_writes (show main_arg3 ∉ hostOps0_W by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (show main_arg4 ∉ hostOps1_W by decide)
    _ = W1 m c (Proc.devRef .tc main_arg4) := (W2_arr m c 4).trans (((dat0 (E1 m) c).arrAt_in 4 rfl _).trans (A_eq0 (E1 m) c 4))
    _ = W0 m c (Proc.devRef .tc main_arg4) := StableHlo.after_of_writes_sub hostOps0 _ hostOps0_writes (show main_arg4 ∉ hostOps0_W by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (show main_arg5 ∉ hostOps1_W by decide)
    _ = W1 m c (Proc.devRef .tc main_arg5) := W2_of_ne m c main_arg5 (by decide)
    _ = W0 m c (Proc.devRef .tc main_arg5) := StableHlo.after_of_writes_sub hostOps0 _ hostOps0_writes (show main_arg5 ∉ hostOps0_W by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (show main_arg6 ∉ hostOps1_W by decide)
    _ = W1 m c (Proc.devRef .tc main_arg6) := W2_of_ne m c main_arg6 (by decide)
    _ = W0 m c (Proc.devRef .tc main_arg6) := StableHlo.after_of_writes_sub hostOps0 _ hostOps0_writes (show main_arg6 ∉ hostOps0_W by decide)
    _ = m ((c : Thread nD τ).loc main_arg6) := rfl
theorem W4_main_arg7 (c : Dev nD) : W4 m c (Proc.devRef .tc main_arg7) = m ((c : Thread nD τ).loc main_arg7) :=
  calc W4 m c (Proc.devRef .tc main_arg7)
    _ = W3 m c (Proc.devRef .tc main_arg7) := (W4_arr m c 4).trans (((dat1 (E3 m) c).arrAt_in 4 rfl _).trans (A_eq1 (E3 m) c 4))
    _ = W2 m c (Proc.devRef .tc main_arg7) := StableHlo.after_of_writes_sub hostOps1 _ hostOps1_writes (show main_arg7 ∉ hostOps1_W by decide)
    _ = W1 m c (Proc.devRef .tc main_arg7) := W2_of_ne m c main_arg7 (by decide)
    _ = W0 m c (Proc.devRef .tc main_arg7) := StableHlo.after_of_writes_sub hostOps0 _ hostOps0_writes (show main_arg7 ∉ hostOps0_W by decide)
    _ = m ((c : Thread nD τ).loc main_arg7) := rfl
theorem W4_main_arg8 (c : Dev nD) : W4 m c (Proc.devRef .tc main_arg8) = m ((c : Thread nD τ).loc main_arg8) :=
  calc W4 m c (Proc.devRef .tc main_arg8)
    _ = W3 m c (Proc.devRef .tc main_arg8) := W4_of_ne m c main_arg8 (by decide)
    _ = W2 m c (Proc.devRef .tc main_arg8) := StableHlo.after_of_writes_sub hostOps1 _ hostOps1_writes (show main_arg8 ∉ hostOps1_W by decide)
    _ = W1 m c (Proc.devRef .tc main_arg8) := W2_of_ne m c main_arg8 (by decide)
    _ = W0 m c (Proc.devRef .tc main_arg8) := StableHlo.after_of_writes_sub hostOps0 _ hostOps0_writes (show main_arg8 ∉ hostOps0_W by decide)
    _ = m ((c : Thread nD τ).loc main_arg8) := rfl
theorem W4_main_arg9 (c : Dev nD) : W4 m c (Proc.devRef .tc main_arg9) = m ((c : Thread nD τ).loc main_arg9) :=
  calc W4 m c (Proc.devRef .tc main_arg9)
    _ = W3 m c (Proc.devRef .tc main_arg9) := W4_of_ne m c main_arg9 (by decide)
    _ = W2 m c (Proc.devRef .tc main_arg9) := StableHlo.after_of_writes_sub hostOps1 _ hostOps1_writes (show main_arg9 ∉ hostOps1_W by decide)
    _ = W1 m c (Proc.devRef .tc main_arg9) := W2_of_ne m c main_arg9 (by decide)
    _ = W0 m c (Proc.devRef .tc main_arg9) := StableHlo.after_of_writes_sub hostOps0 _ hostOps0_writes (show main_arg9 ∉ hostOps0_W by decide)
    _ = m ((c : Thread nD τ).loc main_arg9) := rfl
theorem W4_main_arg10 (c : Dev nD) : W4 m c (Proc.devRef .tc main_arg10) = m ((c : Thread nD τ).loc main_arg10) :=
  calc W4 m c (Proc.devRef .tc main_arg10)
    _ = W3 m c (Proc.devRef .tc main_arg10) := (W4_arr m c 7).trans (((dat1 (E3 m) c).arrAt_in 7 rfl _).trans (A_eq1 (E3 m) c 7))
    _ = W2 m c (Proc.devRef .tc main_arg10) := StableHlo.after_of_writes_sub hostOps1 _ hostOps1_writes (show main_arg10 ∉ hostOps1_W by decide)
    _ = W1 m c (Proc.devRef .tc main_arg10) := W2_of_ne m c main_arg10 (by decide)
    _ = W0 m c (Proc.devRef .tc main_arg10) := StableHlo.after_of_writes_sub hostOps0 _ hostOps0_writes (show main_arg10 ∉ hostOps0_W by decide)
    _ = m ((c : Thread nD τ).loc main_arg10) := rfl
theorem W4_main_arg11 (c : Dev nD) : W4 m c (Proc.devRef .tc main_arg11) = m ((c : Thread nD τ).loc main_arg11) :=
  calc W4 m c (Proc.devRef .tc main_arg11)
    _ = W3 m c (Proc.devRef .tc main_arg11) := W4_of_ne m c main_arg11 (by decide)
    _ = W2 m c (Proc.devRef .tc main_arg11) := StableHlo.after_of_writes_sub hostOps1 _ hostOps1_writes (show main_arg11 ∉ hostOps1_W by decide)
    _ = W1 m c (Proc.devRef .tc main_arg11) := W2_of_ne m c main_arg11 (by decide)
    _ = W0 m c (Proc.devRef .tc main_arg11) := StableHlo.after_of_writes_sub hostOps0 _ hostOps0_writes (show main_arg11 ∉ hostOps0_W by decide)
    _ = m ((c : Thread nD τ).loc main_arg11) := rfl
theorem W4_main_arg12 (c : Dev nD) : W4 m c (Proc.devRef .tc main_arg12) = m ((c : Thread nD τ).loc main_arg12) :=
  calc W4 m c (Proc.devRef .tc main_arg12)
    _ = W3 m c (Proc.devRef .tc main_arg12) := (W4_arr m c 9).trans (((dat1 (E3 m) c).arrAt_in 9 rfl _).trans (A_eq1 (E3 m) c 9))
    _ = W2 m c (Proc.devRef .tc main_arg12) := StableHlo.after_of_writes_sub hostOps1 _ hostOps1_writes (show main_arg12 ∉ hostOps1_W by decide)
    _ = W1 m c (Proc.devRef .tc main_arg12) := W2_of_ne m c main_arg12 (by decide)
    _ = W0 m c (Proc.devRef .tc main_arg12) := StableHlo.after_of_writes_sub hostOps0 _ hostOps0_writes (show main_arg12 ∉ hostOps0_W by decide)
    _ = m ((c : Thread nD τ).loc main_arg12) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- REGION 0 over the thread state: entered from every unscoped buffer at `W1`, left at `W2`. Its arrays are
    split out of the unscoped buffers and put back at the exit contents; the generator register and the scoped rest go
    into the region's invariant and come back; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (X2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are
    split out of the unscoped buffers and put back at the exit contents; the generator register and the scoped rest go
    into the region's invariant and come back; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E3 m) c).Φ 0 from rfl]
    iintro ⟨Hp, -, Hr⟩
    iapply (hin1 (E3 m) c)
    unfold Pipeline.ΦA
    isplitl [Hr]; · iexact Hr
    iexact Hp
  hout c := by
    rw [Pipeline.ownSems0_none, show (pdats m 1 c).Φ (Fin.last _) = (dat1 (E3 m) c).Φ (Fin.last cfg1.N) from rfl]
    iintro H
    ihave H' := (hout1 (E3 m) c) $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (X4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev mainSegs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (mainSegs m) := (main_chain c).trans (by chain_rfl)

set_option backward.isDefEq.respectTransparency.types false in
/-- THE RUN: from any memory with zero counters, every weakly fair execution of @main terminates, nothing faulting,
    and every final state has every unscoped buffer of every core at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: every argument ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c),
    (h c _ (mem_uc main_arg9 (by decide))).trans (W4_main_arg9 m c),
    (h c _ (mem_uc main_arg10 (by decide))).trans (W4_main_arg10 m c),
    (h c _ (mem_uc main_arg11 (by decide))).trans (W4_main_arg11 m c),
    (h c _ (mem_uc main_arg12 (by decide))).trans (W4_main_arg12 m c)⟩) (run_all m ρ)

/-- The value: beside the arguments, the result buffer ends at what the second region's proof data compute. -/
theorem run_value (ρ : Dev nD → PrngReg) : θ_run defs (onTc (τ := τ) (main (F := F))) ⟨m, fun _ => 0, ρ⟩ (fun r => ∀ c : Dev nD,
      r.2.mem ((c.tc : Thread nD τ).loc main_v39) = (dat1 (E3 m) c).arrAt 10 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_v39 (by decide))).trans (W4_arr m c 10),
    (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c),
    (h c _ (mem_uc main_arg9 (by decide))).trans (W4_main_arg9 m c),
    (h c _ (mem_uc main_arg10 (by decide))).trans (W4_main_arg10 m c),
    (h c _ (mem_uc main_arg11 (by decide))).trans (W4_main_arg11 m c),
    (h c _ (mem_uc main_arg12 (by decide))).trans (W4_main_arg12 m c)⟩) (run_all m ρ)

end Cert.Kernel.Frame

end
-- ==== Proof.SageLayerBody.lean ====
/-
  The first layer's kernel region, point by point: at each of the ten grid points the body loads the tile of
  neighbour sums, the tile of degrees, the tile of node features, the stacked weights and the bias, and stores one
  tile of the layer's output, a pure function of what it loaded. So after point `t` the output window's buffer holds
  that function of the five input blocks at `t`, each input buffer still holds its block, and nothing else of the core
  is touched: the region's invariant is the untouched rest.
-/
import proofs.«409417_j75368086110725_2_alg».proof.Proof.Gen.KernelIdeal.Launch
import proofs.«409417_j75368086110725_2_alg».proof.Proof.Gen.KernelIdeal.Skeleton
import proofs.«409417_j75368086110725_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole tile of 5000 × 128, of 5000 × 1, of 256 × 128 and of 128: the rectangles the body loads and stores through. -/
abbrev rT : Rect S5000x128 := Rect.unit (s := S5000x128) ![0, 0] S5000x128.size inb_S5000x128_S5000x128_0_0
abbrev rD : Rect S5000x1 := Rect.unit (s := S5000x1) ![0, 0] S5000x1.size inb_S5000x1_S5000x1_0_0
abbrev rW : Rect S256x128 := Rect.unit (s := S256x128) ![0, 0] S256x128.size inb_S256x128_S256x128_0_0
abbrev rB : Rect S128 := Rect.unit (s := S128) ![0] S128.size inb_S128_S128_0

/-- The output tile after the body, from the five input blocks: its one store, of the layer's arithmetic on what the
    body loaded. -/
def out0_5 (x0 : Vec F S5000x128 .f32) (x1 : Vec F S5000x1 .f32) (x2 : Vec F S5000x128 .f32) (x3 : Vec F S256x128 .f32) (x4 : Vec F S128 .f32) : Vec F S5000x128 .f32 :=
  View.canon [⟨rT, k0_pay1 (View.ld x0 rT) (View.ld x1 rD) (View.ld x2 rT) (View.ld x3 rW) (View.ld x4 rB)⟩]

/-- The proof data of the first region on core `c`: the arrays as the region finds them; after the body at point `t`
    each input's buffer at its block and the output's at `out0_5` of the input blocks; the invariant the untouched
    rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) :
    (dat0 V c).after 5 t = out0_5 (iblk0 V c 0 t) (iblk0 V c 1 t) (iblk0 V c 2 t) (iblk0 V c 3 t) (iblk0 V c 4 t) := by
  dsimp only [dat0]

/-- Input window 0 (the neighbour sums): for any proof data whose array is the entry contents and whose body leaves the block
    in place, the current buffer holds the block of point `t`, whether the point fetches it or the index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the degrees): for any proof data whose array is the entry contents and whose body leaves the block
    in place, the current buffer holds the block of point `t`, whether the point fetches it or the index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the node features): for any proof data whose array is the entry contents and whose body leaves the block
    in place, the current buffer holds the block of point `t`, whether the point fetches it or the index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the stacked weights): for any proof data whose array is the entry contents and whose body leaves the block
    in place, the current buffer holds the block of point `t`, whether the point fetches it or the index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 (the bias): for any proof data whose array is the entry contents and whose body leaves the block
    in place, the current buffer holds the block of point `t`, whether the point fetches it or the index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The output tile is covered by the one rectangle the body stores through. -/
theorem cover0_5 (p0 : Vec F S5000x128 .f32) (y : S5000x128.Idx) :
    ∃ pc ∈ ([⟨rT, p0⟩] : List (View.Piece (Elt F) S5000x128 .f32)), y ∈ pc.1.set :=
  View.cover_of_tiled [⟨rT, p0⟩] S5000x128.size (by rfl) y

set_option maxHeartbeats 1000000 in
/-- The body's triple: owning the five input buffers whole at contents `x0 … x4` and the output buffer whole at
    anything, the body runs to the five inputs unchanged and the output at `out0_5 x0 … x4`; the grid coordinates
    are not read. -/
theorem sound_kernel0 (c : Dev nD) (E : Set ℕ) (i : grid0.Coords)
    (arg1 : Memref sig .tc .vmem S5000x128 .f32) (harg1 : arg1.IsWhole)
    (arg2 : Memref sig .tc .vmem S5000x1 .f32) (harg2 : arg2.IsWhole)
    (arg3 : Memref sig .tc .vmem S5000x128 .f32) (harg3 : arg3.IsWhole)
    (arg4 : Memref sig .tc .vmem S256x128 .f32) (harg4 : arg4.IsWhole)
    (arg5 : Memref sig .tc .vmem S128 .f32) (harg5 : arg5.IsWhole)
    (arg6 : Memref sig .tc .vmem S5000x128 .f32) (harg6 : arg6.IsWhole)
    (x0 : Vec F S5000x128 .f32) (x1 : Vec F S5000x1 .f32) (x2 : Vec F S5000x128 .f32) (x3 : Vec F S256x128 .f32) (x4 : Vec F S128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__sage1_kernel i arg1 harg1 arg2 harg2 arg3 harg3 arg4 harg4 arg5 harg5 arg6 harg6) K := by
  simp only [cc0__sage1_kernel_eq_skeleton]; unfold cc0__sage1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- What the body leaves in each input window's buffer: its block, untouched. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]

/-- Each input window's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`: the invariant, what the core owes, and the six windows' current
    buffers, the inputs at their blocks and the output at whatever the pipeline left there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it returns: the same invariant and debt, and every window's buffer at its contents after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the five input buffers hold their blocks, so the body's triple applies to them and to the
    output buffer; the invariant and the debt are the same at `t` and after it and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the first region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.PoolShared.lean ====
/-
  The second kernel region (the second layer fused with the pool and the head), what its ten points share: each
  window's block at a point; the two branch conditions of the body as functions of the point, decided over the grid
  (the accumulators are reset at the first point only, the head runs and the output is stored at the last point
  only); where the output window is idle; the region's invariant with the two accumulators named.
-/
import proofs.«409417_j75368086110725_2_alg».proof.Proof.Gen.KernelIdeal.Launch
import proofs.«409417_j75368086110725_2_alg».proof.Proof.Gen.KernelIdeal.Skeleton
import proofs.«409417_j75368086110725_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## Every input window's buffer holds its block at every point, fetched there or not -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, over the grid -/

/-- The accumulators are reset: the condition of the body's first branch, from the grid coordinate. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 10 = 0 :=
  (by decide +kernel : ∀ t : Fin grid1.N, cond1_0 (grid1.coords t) ↔ t.val % 10 = 0)

/-- The head runs and the output is stored: the condition of the body's second branch. -/
abbrev cond1_1 (i : grid1.Coords) : Prop := k1_cond2 i = 1#1
/-- It holds at the last point only. -/
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem liveAt1_8 : ∀ t : Fin cfg1.N, cfg1.idle 8 (grid1.coords t) = false := by decide +kernel
theorem liveAt1_9 : ∀ t : Fin cfg1.N, cfg1.idle 9 (grid1.coords t) = false := by decide +kernel
/-- Before the last point the output window is idle (nothing is stored into it) and is not written back. -/
theorem idleAt1_10 : ∀ t : Fin cfg1.N, ¬cond1_1 (grid1.coords t) → cfg1.idle 10 (grid1.coords t) = true := by decide +kernel
theorem noFlush1_10 : ∀ t : Fin cfg1.N, ¬cond1_1 (grid1.coords t) → (cfg1.win 10).flush t = false := by decide +kernel
/-- At the last point it is live. -/
theorem liveAt1_10 : ∀ t : Fin cfg1.N, cond1_1 (grid1.coords t) → cfg1.idle 10 (grid1.coords t) = false := by decide +kernel

/-! ## The memrefs the body is called with -/

abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S5000x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S5000x1 .i32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S128x1 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S64 .f32 := win1_10.stage (cfg1.slots t 10)
abbrev hs1_10 (t : Fin cfg1.N) : (ms1_10 t).IsWhole := hstage1_10 ((cfg1.slots t 10).cast nbuf1_10)
/-- The two accumulators: whole scoped buffers of the kernel's own. -/
abbrev scM1_0 : Memref sig .tc .vmem S64x128 .f32 := Memref.whole cc1_scratch0
abbrev scM1_1 : Memref sig .tc .vmem S64x1 .f32 := Memref.whole cc1_scratch1
/-- The views through which their contents, and the output buffer's, are stated. -/
abbrev VS1_0 : View sig .tc .vmem S64x128 .f32 := scM1_0.view
abbrev VS1_1 : View sig .tc .vmem S64x1 .f32 := scM1_1.view
abbrev VO1_10 : View sig .tc .vmem S64 .f32 := (Memref.whole cc1_stg10_0 : Memref sig .tc .vmem S64 .f32).view

/-! ## The region's invariant with the accumulators named -/

/-- What of the core's scoped state the body never touches: the first region's staging buffers, each at some
    contents, and the generator register at some state. -/
def restG (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ r, prngReg c r))

/-- The invariant with the two accumulators at `S0`, `S1`. -/
def PhiWith (c : Dev nD) (S0 S1 : sProp 𝕄) : sProp 𝕄 := iprop(S0 ∗ S1 ∗ restG c)

/-- The untouched-rest invariant hands the accumulators over at some contents, -/
theorem PhiA1_elim (c : Dev nD) :
    (Pipeline.ΦA spec1 c : sProp 𝕄) ⊢ PhiWith c iprop(∃ d, owns (c : Thread nD τ) scM1_0 fullShare d) iprop(∃ d, owns (c : Thread nD τ) scM1_1 fullShare d) := by
  unfold Pipeline.ΦA PhiWith restG; rw [scopedRest1_eq]; simp only [scM1_0, scM1_1, owns_whole]
  iintro ⟨⟨H0, H1, H2, H3, H4, H5, H6, H7, H8, H9, HS0, HS1⟩, Hg⟩
  isplitl [HS0]; · iexact HS0
  isplitl [HS1]; · iexact HS1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact Hg

/-- and takes them back at any. -/
theorem PhiA1_intro (c : Dev nD) :
    PhiWith c iprop(∃ d, owns (c : Thread nD τ) scM1_0 fullShare d) iprop(∃ d, owns (c : Thread nD τ) scM1_1 fullShare d) ⊢ (Pipeline.ΦA spec1 c : sProp 𝕄) := by
  unfold Pipeline.ΦA PhiWith restG; rw [scopedRest1_eq]; simp only [scM1_0, scM1_1, owns_whole]
  iintro ⟨HS0, HS1, H0, H1, H2, H3, H4, H5, H6, H7, H8, H9, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    iexact HS1
  iexact Hg

end Cert.KernelIdeal.Frame

end
-- ==== Proof.PoolRunA.lean ====
/-
  The second kernel's body run whole at the FIRST point (the accumulators are reset, then added to; the output is not stored): on whole memrefs, the inputs at their contents,
  it runs to the continuation with the inputs as they were and each buffer it stores into at its stores, listed
  last first. The lists are found by running the body: they are read off when the buffers are handed to the continuation.
-/
import proofs.«409417_j75368086110725_2_alg».proof.Proof.PoolShared

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- The stores the body makes into the two accumulators at the FIRST point (the accumulators are reset, then added to; the output is not stored), with the body's triple. -/
noncomputable def kernelRun1_A (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x1 .i32) (harg6 : arg6.IsWhole) (arg7 : Memref sig .tc .vmem S128x128 .f32) (harg7 : arg7.IsWhole) (arg8 : Memref sig .tc .vmem S128 .f32) (harg8 : arg8.IsWhole) (arg9 : Memref sig .tc .vmem S128x1 .f32) (harg9 : arg9.IsWhole) (arg10 : Memref sig .tc .vmem S1 .f32) (harg10 : arg10.IsWhole) (arg11 : Memref sig .tc .vmem S64 .f32) (harg11 : arg11.IsWhole) (arg12 : Memref sig .tc .vmem S64x128 .f32) (harg12 : arg12.IsWhole) (arg13 : Memref sig .tc .vmem S64x1 .f32) (harg13 : arg13.IsWhole) (hc0 : cond1_0 i) (hc1 : ¬cond1_1 i)
    (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) :
    Σ' (LS0 : List (View.Piece (Elt F) S64x128 .f32)), { LS1 : List (View.Piece (Elt F) S64x1 .f32) //
      ∀ (xi10 : Vec F S64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1__sage2_pool_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun xi10 E K => ?run⟩
  case run =>
    simp only [cc1__sage2_pool_kernel_eq_skeleton]; unfold cc1__sage2_pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    iexists _; iexact HS1

end Cert.KernelIdeal.Frame

end
-- ==== Proof.PoolRunB.lean ====
/-
  The second kernel's body run whole at a MIDDLE point (the accumulators, at what the point before left, are added to; the output is not stored): on whole memrefs, the inputs at their contents,
  it runs to the continuation with the inputs as they were and each buffer it stores into at its stores, listed
  last first. The lists are found by running the body: they are read off when the buffers are handed to the continuation.
-/
import proofs.«409417_j75368086110725_2_alg».proof.Proof.PoolRunA

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- The stores the body makes into the two accumulators at a MIDDLE point (the accumulators, at what the point before left, are added to; the output is not stored), with the body's triple. -/
noncomputable def kernelRun1_B (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x1 .i32) (harg6 : arg6.IsWhole) (arg7 : Memref sig .tc .vmem S128x128 .f32) (harg7 : arg7.IsWhole) (arg8 : Memref sig .tc .vmem S128 .f32) (harg8 : arg8.IsWhole) (arg9 : Memref sig .tc .vmem S128x1 .f32) (harg9 : arg9.IsWhole) (arg10 : Memref sig .tc .vmem S1 .f32) (harg10 : arg10.IsWhole) (arg11 : Memref sig .tc .vmem S64 .f32) (harg11 : arg11.IsWhole) (arg12 : Memref sig .tc .vmem S64x128 .f32) (harg12 : arg12.IsWhole) (arg13 : Memref sig .tc .vmem S64x1 .f32) (harg13 : arg13.IsWhole) (hc0 : ¬cond1_0 i) (hc1 : ¬cond1_1 i)
    (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) (xs0 : Vec F S64x128 .f32) (xs1 : Vec F S64x1 .f32) :
    Σ' (LS0 : List (View.Piece (Elt F) S64x128 .f32)), { LS1 : List (View.Piece (Elt F) S64x1 .f32) //
      ∀ (xi10 : Vec F S64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1__sage2_pool_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun xi10 E K => ?run⟩
  case run =>
    simp only [cc1__sage2_pool_kernel_eq_skeleton]; unfold cc1__sage2_pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hfs0; obtain rfl := harg13.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    iexists _; iexact HS1

end Cert.KernelIdeal.Frame

end
-- ==== Proof.PoolRunC.lean ====
/-
  The second kernel's body run whole at the LAST point (the accumulators are added to, then the head is computed from them and stored into the output): on whole memrefs, the inputs at their contents,
  it runs to the continuation with the inputs as they were and each buffer it stores into at its stores, listed
  last first. The lists are found by running the body: they are read off when the buffers are handed to the continuation.
-/
import proofs.«409417_j75368086110725_2_alg».proof.Proof.PoolRunB

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- The stores the body makes into the output buffer and the two accumulators at the LAST point (the accumulators are added to, then the head is computed from them and stored into the output), with the body's triple. -/
noncomputable def kernelRun1_C (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x1 .i32) (harg6 : arg6.IsWhole) (arg7 : Memref sig .tc .vmem S128x128 .f32) (harg7 : arg7.IsWhole) (arg8 : Memref sig .tc .vmem S128 .f32) (harg8 : arg8.IsWhole) (arg9 : Memref sig .tc .vmem S128x1 .f32) (harg9 : arg9.IsWhole) (arg10 : Memref sig .tc .vmem S1 .f32) (harg10 : arg10.IsWhole) (arg11 : Memref sig .tc .vmem S64 .f32) (harg11 : arg11.IsWhole) (arg12 : Memref sig .tc .vmem S64x128 .f32) (harg12 : arg12.IsWhole) (arg13 : Memref sig .tc .vmem S64x1 .f32) (harg13 : arg13.IsWhole) (hc0 : ¬cond1_0 i) (hc1 : cond1_1 i)
    (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) (xs0 : Vec F S64x128 .f32) (xs1 : Vec F S64x1 .f32) :
    Σ' (L10 : List (View.Piece (Elt F) S64 .f32)) (LS0 : List (View.Piece (Elt F) S64x128 .f32)), { LS1 : List (View.Piece (Elt F) S64x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1__sage2_pool_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc1__sage2_pool_kernel_eq_skeleton]; unfold cc1__sage2_pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hfs0; obtain rfl := harg13.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [HS0]; · iexists _; iexact HS0
    iexists _; iexact HS1

end Cert.KernelIdeal.Frame

end
-- ==== Proof.PoolBody.lean ====
/-
  The second kernel region, point by point. The two accumulators (the pooled sums and the graph sizes) are carried
  from point to point: `outsAt1` says what they hold after each point, by recursion on the point — at the first point
  what the reset-then-add run leaves, afterwards what the add run leaves over what the point before left. The region's
  invariant holds them at those contents; the output window is idle until the last point, where the head's result is
  stored and written back. The body obligation follows by cases on the point: first, middle, last.
-/
import proofs.«409417_j75368086110725_2_alg».proof.Proof.PoolRunC

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## Which case a point is in -/

theorem lt10 (t : Fin cfg1.N) : t.val < 10 := lt_of_lt_of_eq t.isLt (show cfg1.N = 10 from N_1)
theorem isFirst (t : Fin cfg1.N) (h : t.val = 0) : cond1_0 (grid1.coords t) := (hcond1_0 t).mpr (by rw [h])
theorem notFirst (t : Fin cfg1.N) (h : t.val ≠ 0) : ¬cond1_0 (grid1.coords t) :=
  fun hc => h (by have := (hcond1_0 t).mp hc; have := lt10 t; omega)
theorem isLast (t : Fin cfg1.N) (h : t.val = 9) : cond1_1 (grid1.coords t) := (hcond1_1 t).mpr (by rw [h])
theorem notLast (t : Fin cfg1.N) (h : t.val ≠ 9) : ¬cond1_1 (grid1.coords t) :=
  fun hc => h (by have := (hcond1_1 t).mp hc; have := lt10 t; omega)

/-! ## What each case's run leaves -/

/-- The body's run at point `t`, on the memrefs the pipeline calls it with there. -/
abbrev runA (c : Dev nD) (t : Fin cfg1.N) (hc0 : cond1_0 (grid1.coords t)) (hc1 : ¬cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) hc0 hc1 x0 x1 x2 x3 x4 x5 x6 x7 x8 x9

/-- Its stores into the first accumulator cover it. -/
theorem scover1_A_0 (c : Dev nD) (t : Fin cfg1.N) (hc0 : cond1_0 (grid1.coords t)) (hc1 : ¬cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) (y : S64x128.Idx) :
    ∃ pc ∈ (runA c t hc0 hc1 x0 x1 x2 x3 x4 x5 x6 x7 x8 x9).1, y ∈ pc.1.set :=
  View.cover_of_tiledL (runA c t hc0 hc1 x0 x1 x2 x3 x4 x5 x6 x7 x8 x9).1 S64x128.size (by sl_kernel_rfl) y
/-- What the run leaves in the first accumulator: its stores read back. -/
def sout1_A_0 (c : Dev nD) (t : Fin cfg1.N) (hc0 : cond1_0 (grid1.coords t)) (hc1 : ¬cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) : Vec F S64x128 .f32 :=
  VS1_0.read (Elt F) (VS1_0.writes (Elt F) VS1_0.junk (runA c t hc0 hc1 x0 x1 x2 x3 x4 x5 x6 x7 x8 x9).1)
/-- Its stores into the second accumulator cover it. -/
theorem scover1_A_1 (c : Dev nD) (t : Fin cfg1.N) (hc0 : cond1_0 (grid1.coords t)) (hc1 : ¬cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) (y : S64x1.Idx) :
    ∃ pc ∈ (runA c t hc0 hc1 x0 x1 x2 x3 x4 x5 x6 x7 x8 x9).2.1, y ∈ pc.1.set :=
  View.cover_of_tiledL (runA c t hc0 hc1 x0 x1 x2 x3 x4 x5 x6 x7 x8 x9).2.1 S64x1.size (by sl_kernel_rfl) y
/-- What the run leaves in the second accumulator. -/
def sout1_A_1 (c : Dev nD) (t : Fin cfg1.N) (hc0 : cond1_0 (grid1.coords t)) (hc1 : ¬cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) : Vec F S64x1 .f32 :=
  VS1_1.read (Elt F) (VS1_1.writes (Elt F) VS1_1.junk (runA c t hc0 hc1 x0 x1 x2 x3 x4 x5 x6 x7 x8 x9).2.1)

/-- The body's run at point `t`, on the memrefs the pipeline calls it with there. -/
abbrev runB (c : Dev nD) (t : Fin cfg1.N) (hc0 : ¬cond1_0 (grid1.coords t)) (hc1 : ¬cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) (xs0 : Vec F S64x128 .f32) (xs1 : Vec F S64x1 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) hc0 hc1 x0 x1 x2 x3 x4 x5 x6 x7 x8 x9 xs0 xs1

/-- Its stores into the first accumulator cover it. -/
theorem scover1_B_0 (c : Dev nD) (t : Fin cfg1.N) (hc0 : ¬cond1_0 (grid1.coords t)) (hc1 : ¬cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) (xs0 : Vec F S64x128 .f32) (xs1 : Vec F S64x1 .f32) (y : S64x128.Idx) :
    ∃ pc ∈ (runB c t hc0 hc1 x0 x1 x2 x3 x4 x5 x6 x7 x8 x9 xs0 xs1).1, y ∈ pc.1.set :=
  View.cover_of_tiledL (runB c t hc0 hc1 x0 x1 x2 x3 x4 x5 x6 x7 x8 x9 xs0 xs1).1 S64x128.size (by sl_kernel_rfl) y
/-- What the run leaves in the first accumulator: its stores read back. -/
def sout1_B_0 (c : Dev nD) (t : Fin cfg1.N) (hc0 : ¬cond1_0 (grid1.coords t)) (hc1 : ¬cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) (xs0 : Vec F S64x128 .f32) (xs1 : Vec F S64x1 .f32) : Vec F S64x128 .f32 :=
  VS1_0.read (Elt F) (VS1_0.writes (Elt F) VS1_0.junk (runB c t hc0 hc1 x0 x1 x2 x3 x4 x5 x6 x7 x8 x9 xs0 xs1).1)
/-- Its stores into the second accumulator cover it. -/
theorem scover1_B_1 (c : Dev nD) (t : Fin cfg1.N) (hc0 : ¬cond1_0 (grid1.coords t)) (hc1 : ¬cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) (xs0 : Vec F S64x128 .f32) (xs1 : Vec F S64x1 .f32) (y : S64x1.Idx) :
    ∃ pc ∈ (runB c t hc0 hc1 x0 x1 x2 x3 x4 x5 x6 x7 x8 x9 xs0 xs1).2.1, y ∈ pc.1.set :=
  View.cover_of_tiledL (runB c t hc0 hc1 x0 x1 x2 x3 x4 x5 x6 x7 x8 x9 xs0 xs1).2.1 S64x1.size (by sl_kernel_rfl) y
/-- What the run leaves in the second accumulator. -/
def sout1_B_1 (c : Dev nD) (t : Fin cfg1.N) (hc0 : ¬cond1_0 (grid1.coords t)) (hc1 : ¬cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) (xs0 : Vec F S64x128 .f32) (xs1 : Vec F S64x1 .f32) : Vec F S64x1 .f32 :=
  VS1_1.read (Elt F) (VS1_1.writes (Elt F) VS1_1.junk (runB c t hc0 hc1 x0 x1 x2 x3 x4 x5 x6 x7 x8 x9 xs0 xs1).2.1)

/-- The body's run at point `t`, on the memrefs the pipeline calls it with there. -/
abbrev runC (c : Dev nD) (t : Fin cfg1.N) (hc0 : ¬cond1_0 (grid1.coords t)) (hc1 : cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) (xs0 : Vec F S64x128 .f32) (xs1 : Vec F S64x1 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) hc0 hc1 x0 x1 x2 x3 x4 x5 x6 x7 x8 x9 xs0 xs1

/-- Its stores into the first accumulator cover it. -/
theorem scover1_C_0 (c : Dev nD) (t : Fin cfg1.N) (hc0 : ¬cond1_0 (grid1.coords t)) (hc1 : cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) (xs0 : Vec F S64x128 .f32) (xs1 : Vec F S64x1 .f32) (y : S64x128.Idx) :
    ∃ pc ∈ (runC c t hc0 hc1 x0 x1 x2 x3 x4 x5 x6 x7 x8 x9 xs0 xs1).2.1, y ∈ pc.1.set :=
  View.cover_of_tiledL (runC c t hc0 hc1 x0 x1 x2 x3 x4 x5 x6 x7 x8 x9 xs0 xs1).2.1 S64x128.size (by sl_kernel_rfl) y
/-- What the run leaves in the first accumulator: its stores read back. -/
def sout1_C_0 (c : Dev nD) (t : Fin cfg1.N) (hc0 : ¬cond1_0 (grid1.coords t)) (hc1 : cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) (xs0 : Vec F S64x128 .f32) (xs1 : Vec F S64x1 .f32) : Vec F S64x128 .f32 :=
  VS1_0.read (Elt F) (VS1_0.writes (Elt F) VS1_0.junk (runC c t hc0 hc1 x0 x1 x2 x3 x4 x5 x6 x7 x8 x9 xs0 xs1).2.1)
/-- Its stores into the second accumulator cover it. -/
theorem scover1_C_1 (c : Dev nD) (t : Fin cfg1.N) (hc0 : ¬cond1_0 (grid1.coords t)) (hc1 : cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) (xs0 : Vec F S64x128 .f32) (xs1 : Vec F S64x1 .f32) (y : S64x1.Idx) :
    ∃ pc ∈ (runC c t hc0 hc1 x0 x1 x2 x3 x4 x5 x6 x7 x8 x9 xs0 xs1).2.2.1, y ∈ pc.1.set :=
  View.cover_of_tiledL (runC c t hc0 hc1 x0 x1 x2 x3 x4 x5 x6 x7 x8 x9 xs0 xs1).2.2.1 S64x1.size (by sl_kernel_rfl) y
/-- What the run leaves in the second accumulator. -/
def sout1_C_1 (c : Dev nD) (t : Fin cfg1.N) (hc0 : ¬cond1_0 (grid1.coords t)) (hc1 : cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) (xs0 : Vec F S64x128 .f32) (xs1 : Vec F S64x1 .f32) : Vec F S64x1 .f32 :=
  VS1_1.read (Elt F) (VS1_1.writes (Elt F) VS1_1.junk (runC c t hc0 hc1 x0 x1 x2 x3 x4 x5 x6 x7 x8 x9 xs0 xs1).2.2.1)
/-- Its one store into the output buffer covers it. -/
theorem cover1_C_10 (c : Dev nD) (t : Fin cfg1.N) (hc0 : ¬cond1_0 (grid1.coords t)) (hc1 : cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) (xs0 : Vec F S64x128 .f32) (xs1 : Vec F S64x1 .f32) (y : S64.Idx) :
    ∃ pc ∈ (runC c t hc0 hc1 x0 x1 x2 x3 x4 x5 x6 x7 x8 x9 xs0 xs1).1, y ∈ pc.1.set :=
  View.cover_of_tiledL (runC c t hc0 hc1 x0 x1 x2 x3 x4 x5 x6 x7 x8 x9 xs0 xs1).1 S64.size (by sl_kernel_rfl) y
/-- What the last point leaves in the output buffer. -/
def out1_C_10 (c : Dev nD) (t : Fin cfg1.N) (hc0 : ¬cond1_0 (grid1.coords t)) (hc1 : cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) (xs0 : Vec F S64x128 .f32) (xs1 : Vec F S64x1 .f32) : Vec F S64 .f32 :=
  VO1_10.read (Elt F) (VO1_10.writes (Elt F) VO1_10.junk (runC c t hc0 hc1 x0 x1 x2 x3 x4 x5 x6 x7 x8 x9 xs0 xs1).1)

variable (V : (c : Dev nD) → (b : Ref sig .tc) → Buf (Elt F) ((c : Thread nD τ).loc b))

/-! ## The accumulators after each point -/

/-- What the two accumulators hold after the body at position `n`: at the first point what the reset-then-add run
    leaves; afterwards what the add run leaves over what the point before left. -/
def outsAt1 (c : Dev nD) : (n : ℕ) → n < cfg1.N → Vec F S64x128 .f32 × Vec F S64x1 .f32
  | 0, hn => (sout1_A_0 c ⟨0, hn⟩ (isFirst _ rfl) (notLast _ (by decide : (0 : ℕ) ≠ 9)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩),
      sout1_A_1 c ⟨0, hn⟩ (isFirst _ rfl) (notLast _ (by decide : (0 : ℕ) ≠ 9)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩))
  | n + 1, hn =>
    if h9 : n + 1 = 9 then
      (sout1_C_0 c ⟨n + 1, hn⟩ (notFirst _ (Nat.succ_ne_zero n)) (isLast _ h9) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).1 (outsAt1 c n (Nat.lt_of_succ_lt hn)).2,
        sout1_C_1 c ⟨n + 1, hn⟩ (notFirst _ (Nat.succ_ne_zero n)) (isLast _ h9) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).1 (outsAt1 c n (Nat.lt_of_succ_lt hn)).2)
    else
      (sout1_B_0 c ⟨n + 1, hn⟩ (notFirst _ (Nat.succ_ne_zero n)) (notLast _ h9) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).1 (outsAt1 c n (Nat.lt_of_succ_lt hn)).2,
        sout1_B_1 c ⟨n + 1, hn⟩ (notFirst _ (Nat.succ_ne_zero n)) (notLast _ h9) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).1 (outsAt1 c n (Nat.lt_of_succ_lt hn)).2)

theorem outsAt1_A (c : Dev nD) (t : Fin cfg1.N) (h0 : t.val = 0) (h9 : t.val ≠ 9) :
    outsAt1 V c t.val t.isLt = (sout1_A_0 c t (isFirst t h0) (notLast t h9) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t),
      sout1_A_1 c t (isFirst t h0) (notLast t h9) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)) := by
  obtain ⟨n, hn⟩ := t
  cases n with
  | zero => rfl
  | succ n => exact absurd h0 (Nat.succ_ne_zero n)

theorem outsAt1_B (c : Dev nD) (t : Fin cfg1.N) (h0 : t.val ≠ 0) (h9 : t.val ≠ 9) :
    outsAt1 V c t.val t.isLt = (sout1_B_0 c t (notFirst t h0) (notLast t h9) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2,
      sout1_B_1 c t (notFirst t h0) (notLast t h9) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact absurd rfl h0
  | succ n => exact (dif_neg h9).trans rfl

theorem outsAt1_C (c : Dev nD) (t : Fin cfg1.N) (h0 : t.val ≠ 0) (h9 : t.val = 9) :
    outsAt1 V c t.val t.isLt = (sout1_C_0 c t (notFirst t h0) (isLast t h9) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2,
      sout1_C_1 c t (notFirst t h0) (isLast t h9) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact absurd rfl h0
  | succ n => exact (dif_pos h9).trans rfl

/-- The last point. -/
def t9 : Fin cfg1.N := ⟨9, by rw [show cfg1.N = 10 from N_1]; decide⟩

/-- What the output buffer holds after the last point: the head's result from the accumulators as the last point's
    add leaves them, over what the point before left. -/
def outFinal (c : Dev nD) : Vec F S64 .f32 :=
  out1_C_10 c t9 (notFirst t9 (by decide)) (isLast t9 rfl) (iblk1 V c 0 t9) (iblk1 V c 1 t9) (iblk1 V c 2 t9) (iblk1 V c 3 t9) (iblk1 V c 4 t9) (iblk1 V c 5 t9) (iblk1 V c 6 t9) (iblk1 V c 7 t9) (iblk1 V c 8 t9) (iblk1 V c 9 t9)
    (outsAt1 V c 8 (by rw [show cfg1.N = 10 from N_1]; decide)).1 (outsAt1 V c 8 (by rw [show cfg1.N = 10 from N_1]; decide)).2

/-- The region's invariant before position `n`: before the first point the untouched rest (the accumulators at
    anything); afterwards the two accumulators at what the point before left. -/
def PhiS1 (c : Dev nD) : (n : ℕ) → n ≤ cfg1.N → sProp 𝕄
  | 0, _ => Pipeline.ΦA spec1 c
  | n + 1, hn => PhiWith c (owns (c : Thread nD τ) scM1_0 fullShare (outsAt1 V c n hn).1) (owns (c : Thread nD τ) scM1_1 fullShare (outsAt1 V c n hn).2)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = PhiWith c (owns (c : Thread nD τ) scM1_0 fullShare (outsAt1 V c n hn).1) (owns (c : Thread nD τ) scM1_1 fullShare (outsAt1 V c n hn).2) := rfl
theorem PhiS1_pos (c : Dev nD) (n : ℕ) (h : n ≤ cfg1.N) (hz : n ≠ 0) :
    PhiS1 V c n h = PhiWith c (owns (c : Thread nD τ) scM1_0 fullShare (outsAt1 V c (n - 1) (by omega)).1) (owns (c : Thread nD τ) scM1_1 fullShare (outsAt1 V c (n - 1) (by omega)).2) := by
  cases n with
  | zero => exact absurd rfl hz
  | succ n => rfl

/-! ## The proof data -/

/-- The proof data of the second region on core `c`: the arrays as the region finds them; after the body each
    input's buffer at its block, the output's at the head's result (stored at the last point only: at the others the
    window is idle and this is not consulted); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => outFinal V c
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = outFinal V c := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t)

set_option maxHeartbeats 8000000 in
/-- The body at any point: every input buffer holds its block; the point is the first, a middle one or the last; the
    invariant hands the run the accumulators at what the point before left (at anything at the first point) and takes
    them back at this point's contents; before the last point the output buffer is handed back untouched, at the last
    it is left at the head's result. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).owesAt () t.succ = (dat1 V c).owesAt () t.castSucc from rfl]
  rw [show (dat1 V c).Φ t.succ = PhiS1 V c (t.val + 1) t.isLt from rfl, PhiS1_succ]
  have hN : t.val < 10 := lt10 t
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [show (dat1 V c).leavesExact 8 t = owns (c : Thread nD τ) (ms1_8 t) fullShare ((dat1 V c).after 8 t) from by
    unfold Dat.leavesExact; rw [liveAt1_8 t], after1_8]
  rw [show (dat1 V c).leavesExact 9 t = owns (c : Thread nD τ) (ms1_9 t) fullShare ((dat1 V c).after 9 t) from by
    unfold Dat.leavesExact; rw [liveAt1_9 t], after1_9]
  by_cases h0 : t.val = 0
  · have h9 : t.val ≠ 9 := by omega
    rw [Dat.leavesExact_idle (dat1 V c) 10 t (idleAt1_10 t (notLast t h9)) (noFlush1_10 t (notLast t h9))]
    rw [outsAt1_A V c t h0 h9]
    unfold sout1_A_0 sout1_A_1; (try dsimp only)
    rw [PhiS1_castSucc V c t, PhiS1_zero V c _ _ h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    ihave HΦ' := (PhiA1_elim c) $$ HΦ
    unfold PhiWith
    icases HΦ' with ⟨HS0, HS1, Hrest⟩
    iapply ((runA c t (isFirst t h0) (notLast t h9) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    iintro ⟨H0, H1, H2, H3, H4, H5, H6, H7, H8, H9, H10, ⟨%es0, HS0⟩, ⟨%es1, HS1⟩⟩
    isplitl [HS0 HS1 Hrest]
    · (try unfold PhiWith)
      isplitl [HS0]
      · unfold owns; iexists _; isplitr
        swap; · iexact HS0
        ipureintro; exact View.read_writes_of_cover _ _ _ _ _ (scover1_A_0 c t _ _ _ _ _ _ _ _ _ _ _ _)
      isplitl [HS1]
      · unfold owns; iexists _; isplitr
        swap; · iexact HS1
        ipureintro; exact View.read_writes_of_cover _ _ _ _ _ (scover1_A_1 c t _ _ _ _ _ _ _ _ _ _ _ _)
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · by_cases h9 : t.val = 9
    · rw [show (dat1 V c).leavesExact 10 t = owns (c : Thread nD τ) (ms1_10 t) fullShare ((dat1 V c).after 10 t) from by
        unfold Dat.leavesExact; rw [liveAt1_10 t (isLast t h9)], after1_10]
      obtain rfl : t = t9 := Fin.ext h9
      rw [outsAt1_C V c t9 h0 h9]
      unfold outFinal out1_C_10 sout1_C_0 sout1_C_1; (try dsimp only)
      rw [PhiS1_castSucc V c t9, PhiS1_pos V c _ _ h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      unfold PhiWith
      icases HΦ with ⟨HS0, HS1, Hrest⟩
      iapply ((runC c t9 (notFirst t9 h0) (isLast t9 h9) (iblk1 V c 0 t9) (iblk1 V c 1 t9) (iblk1 V c 2 t9) (iblk1 V c 3 t9) (iblk1 V c 4 t9) (iblk1 V c 5 t9) (iblk1 V c 6 t9) (iblk1 V c 7 t9) (iblk1 V c 8 t9) (iblk1 V c 9 t9) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      iintro ⟨H0, H1, H2, H3, H4, H5, H6, H7, H8, H9, ⟨%e10, H10⟩, ⟨%es0, HS0⟩, ⟨%es1, HS1⟩⟩
      isplitl [HS0 HS1 Hrest]
      · (try unfold PhiWith)
        isplitl [HS0]
        · unfold owns; iexists _; isplitr
          swap; · iexact HS0
          ipureintro; exact View.read_writes_of_cover _ _ _ _ _ (scover1_C_0 c t9 _ _ _ _ _ _ _ _ _ _ _ _ _ _)
        isplitl [HS1]
        · unfold owns; iexists _; isplitr
          swap; · iexact HS1
          ipureintro; exact View.read_writes_of_cover _ _ _ _ _ (scover1_C_1 c t9 _ _ _ _ _ _ _ _ _ _ _ _ _ _)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover1_C_10 c t9 _ _ _ _ _ _ _ _ _ _ _ _ _ _)
    · rw [Dat.leavesExact_idle (dat1 V c) 10 t (idleAt1_10 t (notLast t h9)) (noFlush1_10 t (notLast t h9))]
      rw [outsAt1_B V c t h0 h9]
      unfold sout1_B_0 sout1_B_1; (try dsimp only)
      rw [PhiS1_castSucc V c t, PhiS1_pos V c _ _ h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      unfold PhiWith
      icases HΦ with ⟨HS0, HS1, Hrest⟩
      iapply ((runB c t (notFirst t h0) (notLast t h9) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      iintro ⟨H0, H1, H2, H3, H4, H5, H6, H7, H8, H9, H10, ⟨%es0, HS0⟩, ⟨%es1, HS1⟩⟩
      isplitl [HS0 HS1 Hrest]
      · (try unfold PhiWith)
        isplitl [HS0]
        · unfold owns; iexists _; isplitr
          swap; · iexact HS0
          ipureintro; exact View.read_writes_of_cover _ _ _ _ _ (scover1_B_0 c t _ _ _ _ _ _ _ _ _ _ _ _ _ _)
        isplitl [HS1]
        · unfold owns; iexists _; isplitr
          swap; · iexact HS1
          ipureintro; exact View.read_writes_of_cover _ _ _ _ _ (scover1_B_1 c t _ _ _ _ _ _ _ _ _ _ _ _ _ _)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

/-- The body obligation of the second region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the untouched rest back: the accumulators' contents are forgotten. -/
theorem PhiWith_forget (c : Dev nD) (s : Vec F S64x128 .f32) (k : Vec F S64x1 .f32) :
    PhiWith c (owns (c : Thread nD τ) scM1_0 fullShare s) (owns (c : Thread nD τ) scM1_1 fullShare k)
      ⊢ PhiWith c iprop(∃ d, owns (c : Thread nD τ) scM1_0 fullShare d) iprop(∃ d, owns (c : Thread nD τ) scM1_1 fullShare d) := by
  unfold PhiWith
  iintro ⟨HS0, HS1, Hrest⟩
  isplitl [HS0]; · iexists _; iexact HS0
  isplitl [HS1]; · iexists _; iexact HS1
  iexact Hrest

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 10 := N_1; omega)]
  exact (PhiWith_forget c _ _).trans (PhiA1_intro c)

end Cert.KernelIdeal.Frame

end
-- ==== Proof.Run.lean ====
/-
  The whole program's run: host operations, the first layer's region, host operations, the second region. Between
  two of these the core holds every unscoped buffer at contents named here by folding through @main from the launch
  memory: a host stretch changes them as its operations say; a region leaves its windows' arrays at what its
  write-backs make of the proof data and every other buffer as it found it. Each region is entered from, and left at,
  "every unscoped buffer at the boundary's contents, the generator register at some state, nothing owed". The
  launch theorem for a list of segments then gives: every execution terminates, and every unscoped buffer ends at
  the last boundary's contents (`run_all`) — in particular every argument as launched, and the result buffer at what the
  second region's proof data compute.
-/
import proofs.«409417_j75368086110725_2_alg».proof.Proof.SageLayerBody
import proofs.«409417_j75368086110725_2_alg».proof.Proof.PoolBody
import proofs.«409417_j75368086110725_2_alg».proof.Proof.Gen.KernelIdeal.Regions

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Core `c`'s buffers at launch. -/
abbrev W0 : Dev nD → Valuation τ sig (Elt F) := fun c b => m (c, b)
/-- After the first host stretch (the first region's entry). -/
abbrev W1 : Dev nD → Valuation τ sig (Elt F) := fun c => StableHlo.after hostOps0 (W0 m c)
/-- The same read at the TensorCore's references. -/
abbrev E1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev X2 : (c : Dev nD) → (b : Ref sig .tc) → Buf (Elt F) ((c : Thread nD τ).loc b) := fun c b => W2 m c b
theorem hF0 (c : Dev nD) (w : Fin cfg0.W) : (dat0 (E1 m) c).arrAt w cfg0.N = X2 m c (Pipeline.arrRef spec0 w) :=
  (W2_arr m c w).symm
theorem hrest0 (c : Dev nD) : ∀ b, b ∉ Finset.univ.image (Pipeline.arrRef spec0) → X2 m c b = E1 m c b :=
  fun b hb => W2_of_ne m c b fun w e => hb (Finset.mem_image.mpr ⟨w, Finset.mem_univ _, e⟩)

/-- After the second host stretch (the second region's entry). -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev X4 : (c : Dev nD) → (b : Ref sig .tc) → Buf (Elt F) ((c : Thread nD τ).loc b) := fun c b => W4 m c b
theorem hF1 (c : Dev nD) (w : Fin cfg1.W) : (dat1 (E3 m) c).arrAt w cfg1.N = X4 m c (Pipeline.arrRef spec1 w) :=
  (W4_arr m c w).symm
theorem hrest1 (c : Dev nD) : ∀ b, b ∉ Finset.univ.image (Pipeline.arrRef spec1) → X4 m c b = E3 m c b :=
  fun b hb => W4_of_ne m c b fun w e => hb (Finset.mem_image.mpr ⟨w, Finset.mem_univ _, e⟩)

/-! ### The arguments end as launched: no host operation and no region writes one -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (show main_arg0 ∉ hostOps1_W by decide)
    _ = W1 m c (Proc.devRef .tc main_arg0) := (W2_arr m c 2).trans (((dat0 (E1 m) c).arrAt_in 2 rfl _).trans (A_eq0 (E1 m) c 2))
    _ = W0 m c (Proc.devRef .tc main_arg0) := StableHlo.after_of_writes_sub hostOps0 _ hostOps0_writes (show main_arg0 ∉ hostOps0_W by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (show main_arg1 ∉ hostOps1_W by decide)
    _ = W1 m c (Proc.devRef .tc main_arg1) := W2_of_ne m c main_arg1 (by decide)
    _ = W0 m c (Proc.devRef .tc main_arg1) := StableHlo.after_of_writes_sub hostOps0 _ hostOps0_writes (show main_arg1 ∉ hostOps0_W by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (show main_arg2 ∉ hostOps1_W by decide)
    _ = W1 m c (Proc.devRef .tc main_arg2) := W2_of_ne m c main_arg2 (by decide)
    _ = W0 m c (Proc.devRef .tc main_arg2) := StableHlo.after_of_writes_sub hostOps0 _ hostOps0_writes (show main_arg2 ∉ hostOps0_W by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (show main_arg3 ∉ hostOps1_W by decide)
    _ = W1 m c (Proc.devRef .tc main_arg3) := W2_of_ne m c main_arg3 (by decide)
    _ = W0 m c (Proc.devRef .tc main_arg3) := StableHlo.after_of_writes_sub hostOps0 _ hostOps0_writes (show main_arg3 ∉ hostOps0_W by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (show main_arg4 ∉ hostOps1_W by decide)
    _ = W1 m c (Proc.devRef .tc main_arg4) := (W2_arr m c 4).trans (((dat0 (E1 m) c).arrAt_in 4 rfl _).trans (A_eq0 (E1 m) c 4))
    _ = W0 m c (Proc.devRef .tc main_arg4) := StableHlo.after_of_writes_sub hostOps0 _ hostOps0_writes (show main_arg4 ∉ hostOps0_W by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (show main_arg5 ∉ hostOps1_W by decide)
    _ = W1 m c (Proc.devRef .tc main_arg5) := W2_of_ne m c main_arg5 (by decide)
    _ = W0 m c (Proc.devRef .tc main_arg5) := StableHlo.after_of_writes_sub hostOps0 _ hostOps0_writes (show main_arg5 ∉ hostOps0_W by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (show main_arg6 ∉ hostOps1_W by decide)
    _ = W1 m c (Proc.devRef .tc main_arg6) := W2_of_ne m c main_arg6 (by decide)
    _ = W0 m c (Proc.devRef .tc main_arg6) := StableHlo.after_of_writes_sub hostOps0 _ hostOps0_writes (show main_arg6 ∉ hostOps0_W by decide)
    _ = m ((c : Thread nD τ).loc main_arg6) := rfl
theorem W4_main_arg7 (c : Dev nD) : W4 m c (Proc.devRef .tc main_arg7) = m ((c : Thread nD τ).loc main_arg7) :=
  calc W4 m c (Proc.devRef .tc main_arg7)
    _ = W3 m c (Proc.devRef .tc main_arg7) := (W4_arr m c 4).trans (((dat1 (E3 m) c).arrAt_in 4 rfl _).trans (A_eq1 (E3 m) c 4))
    _ = W2 m c (Proc.devRef .tc main_arg7) := StableHlo.after_of_writes_sub hostOps1 _ hostOps1_writes (show main_arg7 ∉ hostOps1_W by decide)
    _ = W1 m c (Proc.devRef .tc main_arg7) := W2_of_ne m c main_arg7 (by decide)
    _ = W0 m c (Proc.devRef .tc main_arg7) := StableHlo.after_of_writes_sub hostOps0 _ hostOps0_writes (show main_arg7 ∉ hostOps0_W by decide)
    _ = m ((c : Thread nD τ).loc main_arg7) := rfl
theorem W4_main_arg8 (c : Dev nD) : W4 m c (Proc.devRef .tc main_arg8) = m ((c : Thread nD τ).loc main_arg8) :=
  calc W4 m c (Proc.devRef .tc main_arg8)
    _ = W3 m c (Proc.devRef .tc main_arg8) := W4_of_ne m c main_arg8 (by decide)
    _ = W2 m c (Proc.devRef .tc main_arg8) := StableHlo.after_of_writes_sub hostOps1 _ hostOps1_writes (show main_arg8 ∉ hostOps1_W by decide)
    _ = W1 m c (Proc.devRef .tc main_arg8) := W2_of_ne m c main_arg8 (by decide)
    _ = W0 m c (Proc.devRef .tc main_arg8) := StableHlo.after_of_writes_sub hostOps0 _ hostOps0_writes (show main_arg8 ∉ hostOps0_W by decide)
    _ = m ((c : Thread nD τ).loc main_arg8) := rfl
theorem W4_main_arg9 (c : Dev nD) : W4 m c (Proc.devRef .tc main_arg9) = m ((c : Thread nD τ).loc main_arg9) :=
  calc W4 m c (Proc.devRef .tc main_arg9)
    _ = W3 m c (Proc.devRef .tc main_arg9) := W4_of_ne m c main_arg9 (by decide)
    _ = W2 m c (Proc.devRef .tc main_arg9) := StableHlo.after_of_writes_sub hostOps1 _ hostOps1_writes (show main_arg9 ∉ hostOps1_W by decide)
    _ = W1 m c (Proc.devRef .tc main_arg9) := W2_of_ne m c main_arg9 (by decide)
    _ = W0 m c (Proc.devRef .tc main_arg9) := StableHlo.after_of_writes_sub hostOps0 _ hostOps0_writes (show main_arg9 ∉ hostOps0_W by decide)
    _ = m ((c : Thread nD τ).loc main_arg9) := rfl
theorem W4_main_arg10 (c : Dev nD) : W4 m c (Proc.devRef .tc main_arg10) = m ((c : Thread nD τ).loc main_arg10) :=
  calc W4 m c (Proc.devRef .tc main_arg10)
    _ = W3 m c (Proc.devRef .tc main_arg10) := (W4_arr m c 7).trans (((dat1 (E3 m) c).arrAt_in 7 rfl _).trans (A_eq1 (E3 m) c 7))
    _ = W2 m c (Proc.devRef .tc main_arg10) := StableHlo.after_of_writes_sub hostOps1 _ hostOps1_writes (show main_arg10 ∉ hostOps1_W by decide)
    _ = W1 m c (Proc.devRef .tc main_arg10) := W2_of_ne m c main_arg10 (by decide)
    _ = W0 m c (Proc.devRef .tc main_arg10) := StableHlo.after_of_writes_sub hostOps0 _ hostOps0_writes (show main_arg10 ∉ hostOps0_W by decide)
    _ = m ((c : Thread nD τ).loc main_arg10) := rfl
theorem W4_main_arg11 (c : Dev nD) : W4 m c (Proc.devRef .tc main_arg11) = m ((c : Thread nD τ).loc main_arg11) :=
  calc W4 m c (Proc.devRef .tc main_arg11)
    _ = W3 m c (Proc.devRef .tc main_arg11) := W4_of_ne m c main_arg11 (by decide)
    _ = W2 m c (Proc.devRef .tc main_arg11) := StableHlo.after_of_writes_sub hostOps1 _ hostOps1_writes (show main_arg11 ∉ hostOps1_W by decide)
    _ = W1 m c (Proc.devRef .tc main_arg11) := W2_of_ne m c main_arg11 (by decide)
    _ = W0 m c (Proc.devRef .tc main_arg11) := StableHlo.after_of_writes_sub hostOps0 _ hostOps0_writes (show main_arg11 ∉ hostOps0_W by decide)
    _ = m ((c : Thread nD τ).loc main_arg11) := rfl
theorem W4_main_arg12 (c : Dev nD) : W4 m c (Proc.devRef .tc main_arg12) = m ((c : Thread nD τ).loc main_arg12) :=
  calc W4 m c (Proc.devRef .tc main_arg12)
    _ = W3 m c (Proc.devRef .tc main_arg12) := (W4_arr m c 9).trans (((dat1 (E3 m) c).arrAt_in 9 rfl _).trans (A_eq1 (E3 m) c 9))
    _ = W2 m c (Proc.devRef .tc main_arg12) := StableHlo.after_of_writes_sub hostOps1 _ hostOps1_writes (show main_arg12 ∉ hostOps1_W by decide)
    _ = W1 m c (Proc.devRef .tc main_arg12) := W2_of_ne m c main_arg12 (by decide)
    _ = W0 m c (Proc.devRef .tc main_arg12) := StableHlo.after_of_writes_sub hostOps0 _ hostOps0_writes (show main_arg12 ∉ hostOps0_W by decide)
    _ = m ((c : Thread nD τ).loc main_arg12) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- REGION 0 over the thread state: entered from every unscoped buffer at `W1`, left at `W2`. Its arrays are
    split out of the unscoped buffers and put back at the exit contents; the generator register and the scoped rest go
    into the region's invariant and come back; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (X2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are
    split out of the unscoped buffers and put back at the exit contents; the generator register and the scoped rest go
    into the region's invariant and come back; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E3 m) c).Φ 0 from rfl]
    iintro ⟨Hp, -, Hr⟩
    iapply (hin1 (E3 m) c)
    unfold Pipeline.ΦA
    isplitl [Hr]; · iexact Hr
    iexact Hp
  hout c := by
    rw [Pipeline.ownSems0_none, show (pdats m 1 c).Φ (Fin.last _) = (dat1 (E3 m) c).Φ (Fin.last cfg1.N) from rfl]
    iintro H
    ihave H' := (hout1 (E3 m) c) $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (X4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev mainSegs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (mainSegs m) := (main_chain c).trans (by chain_rfl)

set_option backward.isDefEq.respectTransparency.types false in
/-- THE RUN: from any memory with zero counters, every weakly fair execution of @main terminates, nothing faulting,
    and every final state has every unscoped buffer of every core at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: every argument ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c),
    (h c _ (mem_uc main_arg9 (by decide))).trans (W4_main_arg9 m c),
    (h c _ (mem_uc main_arg10 (by decide))).trans (W4_main_arg10 m c),
    (h c _ (mem_uc main_arg11 (by decide))).trans (W4_main_arg11 m c),
    (h c _ (mem_uc main_arg12 (by decide))).trans (W4_main_arg12 m c)⟩) (run_all m ρ)

/-- The value: beside the arguments, the result buffer ends at what the second region's proof data compute. -/
theorem run_value (ρ : Dev nD → PrngReg) : θ_run defs (onTc (τ := τ) (main (F := F))) ⟨m, fun _ => 0, ρ⟩ (fun r => ∀ c : Dev nD,
      r.2.mem ((c.tc : Thread nD τ).loc main_v39) = (dat1 (E3 m) c).arrAt 10 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_v39 (by decide))).trans (W4_arr m c 10),
    (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c),
    (h c _ (mem_uc main_arg9 (by decide))).trans (W4_main_arg9 m c),
    (h c _ (mem_uc main_arg10 (by decide))).trans (W4_main_arg10 m c),
    (h c _ (mem_uc main_arg11 (by decide))).trans (W4_main_arg11 m c),
    (h c _ (mem_uc main_arg12 (by decide))).trans (W4_main_arg12 m c)⟩) (run_all m ρ)

end Cert.KernelIdeal.Frame

end
-- ==== Proof.Spec.lean ====
/-
  The mathematics both programs compute, over the extended reals, written index by index.

  A graph network of two mean-aggregating layers, a mean pool per graph and a two-layer head:
  * one layer, at node `n` and feature `j`:  `max (((∑ₖ (agg n k / max (deg n) 1) · Wl j k) + b j) + ∑ₖ h n k · Wr j k) 0`,
    where `agg` is the neighbour sum of `h` and `deg` the in-degree;
  * the pooled sum of graph `g`: the rows `n` whose graph id is `g`, summed; the count likewise over ones;
  * the head at graph `g`:  `(∑ₖ max ((∑ⱼ (S g j / max (C g) 1) · W₁ k j) + b₁ k) 0 · W₂ k) + b₂`.
  The quotient is the extended reals' `Ideal.div`; the words `0.0` and `1.0` are kept as the values their
  patterns denote (`zero`, `one`), never evaluated except where a sum starts from `zero`.

  The last section names the kernel's tiling of the pooled sums: ten tiles of 5000 rows, each row weighted by the
  one-hot of its graph id, accumulated tile after tile.
-/
import Idealize.ShloMosaic.PureOps.Ideal
import Idealize.ShloMosaic.PureOps.Ideal.Laws
import Idealize.ShloMosaic.Lib.IdealHost
import Idealize.ShloMosaic.Lib.ValueIdx

noncomputable section

namespace Cert.Spec

open Idealize.ShloMosaic

/-- The word `0.0` as an extended real. -/
def zero : EReal := Ideal.ofBits .f32 0x00000000#32
/-- The word `1.0` as an extended real. -/
def one : EReal := Ideal.ofBits .f32 0x3F800000#32

theorem zero_eq : zero = 0 := Ideal.ofBits_zero_f32
theorem one_eq : one = 1 := Ideal.ofBits_one_f32

/-- The mean of the neighbour sum: the sum over the degree floored at one. -/
def meanAgg (agg : Fin 50000 → Fin 128 → EReal) (deg : Fin 50000 → EReal) (n : Fin 50000) (k : Fin 128) : EReal :=
  Ideal.div (agg n k) (max (deg n) one)

/-- One layer in the reference's arrangement: neighbour term, bias, then self term, then the rectifier. -/
def sageLayer (agg : Fin 50000 → Fin 128 → EReal) (deg : Fin 50000 → EReal) (h : Fin 50000 → Fin 128 → EReal)
    (Wl Wr : Fin 128 → Fin 128 → EReal) (b : Fin 128 → EReal) (n : Fin 50000) (j : Fin 128) : EReal :=
  max (((∑ k : Fin 128, meanAgg agg deg n k * Wl j k) + b j) + ∑ k : Fin 128, h n k * Wr j k) zero

/-- The mean-aggregated features beside the node's own: 256 stacked features. -/
def stackedRow (a x : Fin 128 → EReal) (k : Fin 256) : EReal :=
  if h : k.val < 128 then a ⟨k.val, h⟩ else x ⟨k.val - 128, by omega⟩

/-- The two weight matrices transposed and stacked along the contraction: 256 rows. -/
def stackedW (Wl Wr : Fin 128 → Fin 128 → EReal) (k : Fin 256) (j : Fin 128) : EReal :=
  if h : k.val < 128 then Wl j ⟨k.val, h⟩ else Wr j ⟨k.val - 128, by omega⟩

/-- One layer in the kernel's arrangement: one contraction over the 256 stacked features, the bias, the rectifier. -/
def sageLayerStacked (agg : Fin 50000 → Fin 128 → EReal) (deg : Fin 50000 → EReal) (h : Fin 50000 → Fin 128 → EReal)
    (Wl Wr : Fin 128 → Fin 128 → EReal) (b : Fin 128 → EReal) (n : Fin 50000) (j : Fin 128) : EReal :=
  max ((∑ k : Fin 256, stackedRow (meanAgg agg deg n) (h n) k * stackedW Wl Wr k j) + b j) zero

/-- The pooled sum of graph `g`, feature `j`: the rows whose id (read signed) is `g`, from `zero`. -/
def pooledSum (h : Fin 50000 → Fin 128 → EReal) (seg : Fin 50000 → ℤ) (g : Fin 64) (j : Fin 128) : EReal :=
  zero + ∑ n ∈ Finset.univ.filter (fun n : Fin 50000 => seg n = (g.val : ℤ)), h n j

/-- The number of rows of graph `g`, as a sum of the word `1.0`. -/
def pooledCount (seg : Fin 50000 → ℤ) (g : Fin 64) : EReal :=
  zero + ∑ _n ∈ Finset.univ.filter (fun n : Fin 50000 => seg n = (g.val : ℤ)), one

/-- The head on the pooled mean of graph `g`. -/
def head (S : Fin 64 → Fin 128 → EReal) (C : Fin 64 → EReal) (W1 : Fin 128 → Fin 128 → EReal) (b1 : Fin 128 → EReal)
    (W2 : Fin 128 → EReal) (b2 : EReal) (g : Fin 64) : EReal :=
  (∑ k : Fin 128, max ((∑ j : Fin 128, Ideal.div (S g j) (max (C g) one) * W1 k j) + b1 k) zero * W2 k) + b2

/-- The whole network on one graph batch: two layers over an opaque neighbour sum `nbr` and in-degree `deg`
    (the same gather and scatter of the edge list in both programs), the pool over the graph ids, the head. -/
def model (nbr : (Fin 50000 → Fin 128 → EReal) → Fin 50000 → Fin 128 → EReal) (deg : Fin 50000 → EReal)
    (x : Fin 50000 → Fin 128 → EReal) (W1l W1r : Fin 128 → Fin 128 → EReal) (b1l : Fin 128 → EReal)
    (W2l W2r : Fin 128 → Fin 128 → EReal) (b2l : Fin 128 → EReal) (seg : Fin 50000 → ℤ)
    (Wc1 : Fin 128 → Fin 128 → EReal) (bc1 : Fin 128 → EReal) (Wc2 : Fin 128 → EReal) (bc2 : EReal) : Fin 64 → EReal :=
  head (pooledSum (sageLayer (nbr (sageLayer (nbr x) deg x W1l W1r b1l)) deg (sageLayer (nbr x) deg x W1l W1r b1l) W2l W2r b2l) seg)
    (pooledCount seg) Wc1 bc1 Wc2 bc2

/-! ## Arrays and index functions -/

/-- A matrix given entry by entry, as an array over its index set. -/
def toMat {r c : Nat} (f : Fin r → Fin c → EReal) : (⟨2, ![r, c]⟩ : Shape).Idx → EReal := fun i => f (i 0) (i 1)
/-- A vector given entry by entry, as an array over its index set. -/
def toVec {r : Nat} (f : Fin r → EReal) : (⟨1, ![r]⟩ : Shape).Idx → EReal := fun i => f (i 0)
/-- An array over a rank-2 index set, entry by entry. -/
def ofMat {r c : Nat} (v : (⟨2, ![r, c]⟩ : Shape).Idx → EReal) : Fin r → Fin c → EReal := fun a b => v (ValueIdx.ix2 a b)
/-- An array over a rank-1 index set, entry by entry. -/
def ofVec {r : Nat} (v : (⟨1, ![r]⟩ : Shape).Idx → EReal) : Fin r → EReal := fun a => v (ValueIdx.ix1 a)

theorem toMat_ix2 {r c : Nat} (f : Fin r → Fin c → EReal) (a : Fin r) (b : Fin c) : toMat f (ValueIdx.ix2 a b) = f a b := rfl
theorem toVec_ix1 {r : Nat} (f : Fin r → EReal) (a : Fin r) : toVec f (ValueIdx.ix1 a) = f a := rfl
theorem toMat_ofMat {r c : Nat} (v : (⟨2, ![r, c]⟩ : Shape).Idx → EReal) : toMat (ofMat v) = v := by
  funext i; exact congrArg v (ValueIdx.eq_ix2 i).symm
theorem toVec_ofVec {r : Nat} (v : (⟨1, ![r]⟩ : Shape).Idx → EReal) : toVec (ofVec v) = v := by
  funext i; exact congrArg v (ValueIdx.eq_ix1 i).symm

/-! ## The kernel's tiling of the pool -/

/-- Row `r` of tile `t` (ten tiles of 5000 rows). -/
def tileRow (t : Fin 10) (r : Fin 5000) : Fin 50000 := ⟨5000 * t.val + r.val, by omega⟩

/-- The weight a row of graph id `w` (a 32-bit word) has in graph `g`'s sum: the word `1` read as a float when
    the word is `g`, the word `0` otherwise. -/
def oneHot (w : BitVec 32) (g : Fin 64) : EReal :=
  if w = BitVec.ofNat 32 g.val then 1 else 0

/-- What tile `t` adds to graph `g`'s sum at feature `j`: its 5000 rows, each weighted by its one-hot. -/
def tileSum (h : Fin 50000 → Fin 128 → EReal) (ids : Fin 50000 → BitVec 32) (t : Fin 10) (g : Fin 64) (j : Fin 128) : EReal :=
  ∑ r : Fin 5000, oneHot (ids (tileRow t r)) g * h (tileRow t r) j

/-- What tile `t` adds to graph `g`'s count. -/
def tileCount (ids : Fin 50000 → BitVec 32) (t : Fin 10) (g : Fin 64) : EReal :=
  ∑ r : Fin 5000, oneHot (ids (tileRow t r)) g * one

/-- The running sums after tile `t`, accumulated tile after tile from `zero`. -/
def accSum (h : Fin 50000 → Fin 128 → EReal) (ids : Fin 50000 → BitVec 32) : ℕ → Fin 64 → Fin 128 → EReal
  | 0 => fun g j => zero + tileSum h ids ⟨0, by omega⟩ g j
  | t + 1 => fun g j => accSum h ids t g j + (if ht : t + 1 < 10 then tileSum h ids ⟨t + 1, ht⟩ g j else 0)

def accCount (ids : Fin 50000 → BitVec 32) : ℕ → Fin 64 → EReal
  | 0 => fun g => zero + tileCount ids ⟨0, by omega⟩ g
  | t + 1 => fun g => accCount ids t g + (if ht : t + 1 < 10 then tileCount ids ⟨t + 1, ht⟩ g else 0)

end Cert.Spec

end
-- ==== Proof.KernelPayloads.lean ====
/-
  The kernel bodies' arithmetic read at ONE index, at the ideal values (floats are extended reals, every operation exact).

  * The first kernel's stored value at row `r`, feature `j`: the rectifier of the bias plus the contraction, over the 256
    stacked features (the mean-aggregated features beside the node's own), against the stacked weights (`rowOut`).
  * The second kernel's accumulated pool at graph `g`, feature `j`: what was there plus the sum over the tile's 5000 rows
    of the row's one-hot weight for `g` times the same layer's value at that row; the count likewise over ones.
  * The second kernel's head at graph `g`: the pooled mean through the hidden layer, the rectifier, the output layer.

  Laws used: a product into the zero accumulator is the sum over the one contracted axis of the factors' products; a
  broadcast of a column, of a row, a cast that adds or drops a unit axis, and a two-piece concatenation read the operand
  at the matching coordinates; a comparison bit widened and read signed is 1 or 0.
-/
import proofs.«409417_j75368086110725_2_alg».proof.Proof.Gen.KernelIdeal.Skeleton
import proofs.«409417_j75368086110725_2_alg».proof.Proof.Spec
import Idealize.ShloMosaic.Lib.ValueIdx
import Idealize.ShloMosaic.Lib.ValueLayout
import Idealize.ShloMosaic.Lib.Pipeline.Value
import Idealize.ShloMosaic.PureOps.Ideal.Laws
noncomputable section
namespace Cert.KernelIdeal.PayloadValue
open Idealize.ShloMosaic Idealize.ShloMosaic.ValueIdx Cert.KernelIdeal Cert.KernelIdeal.Gen

/-! ## Layout operations at an index: the column forms -/

/-- A `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1]` column cast to `[a]` reads, at `i`, the column at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A vector cast to one row and broadcast down `a` rows reads, at `(p, q)`, the vector at `q`. -/
theorem rowBias_apply {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ v h1) h2 (ix2 p q) = v (ix1 q) := by
  rw [broadcastTo_1b_ab_apply, shapeCast_a_1a_apply]

/-- A comparison of two vectors of words at an index compares the words. -/
theorem cmpi_apply {s : Shape} {w : ℕ} (p : CmpIPredicate) (x y : IVec s w) (i : s.Idx) :
    cmpi p x y i = IntOp.cmpi p (x i) (y i) := rfl

/-- A quotient by a column floored at the word `1.0`, at `(p, q)`: the element over the floored column entry of its row. -/
theorem meanDiv_apply {a b : ℕ} (s : FVec Ideal ⟨2, ![a, b]⟩ .f32) (c : FVec Ideal ⟨2, ![a, 1]⟩ .f32)
    (h : (⟨2, ![a, 1]⟩ : Shape).Broadcasts ⟨2, ![a, b]⟩) (p : Fin a) (q : Fin b) :
    divf s (broadcastTo ⟨2, ![a, b]⟩ (maximumf c (broadcast ⟨2, ![a, 1]⟩ (Scalar.ofBits .f32 0x3F800000#32))) h) (ix2 p q)
      = Ideal.div (s (ix2 p q)) (max (c (ix2 p (0 : Fin 1))) Spec.one) := by
  rw [divf_apply, broadcastTo_a1_ab_apply]
  rfl

/-! ## The products at an index -/

/-! ### The stacked contraction: 5000 rows of 256 stacked features against the 256 × 128 stacked weights -/

theorem lhs_stack_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_stack_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_stack_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_stack_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The product into the zero accumulator at `(p, q)`: the sum over the 256 contracted coordinates `c` of the left factor
    at `(p, c)` times the right factor at `(c, q)`. -/
theorem mm_stack_apply (x : FVec Ideal S5000x256 .f32) (y : FVec Ideal S256x128 .f32) (p : Fin 5000) (q : Fin 128) :
    matmul dot_S5000x256_S256x128_S5000x128_1_0_0_1_n_n (some .fp32) x y (constant (F := Ideal) S5000x128 .f32 0x00000000#32) (ix2 p q)
      = ∑ c : Fin 256, x (ix2 p c) * y (ix2 c q) := by
  simp only [matmul]
  rw [Ideal.matmul_constant_zero_apply, ← Equiv.sum_comp (contrEquiv1 dot_S5000x256_S256x128_S5000x128_1_0_0_1_n_n 256 rfl rfl).symm]
  refine Finset.sum_congr rfl fun c _ => ?_
  have hc := contrEquiv1_symm_val dot_S5000x256_S256x128_S5000x128_1_0_0_1_n_n 256 rfl rfl c
  have el : dot_S5000x256_S256x128_S5000x128_1_0_0_1_n_n.lhsIdx (ix2 p q) ((contrEquiv1 dot_S5000x256_S256x128_S5000x128_1_0_0_1_n_n 256 rfl rfl).symm c) = ix2 p c := funext fun a => Fin.ext (by
    match a with
    | ⟨0, _⟩ => exact lhs_stack_0 _ _
    | ⟨1, _⟩ => exact (lhs_stack_1 _ _).trans hc)
  have er : dot_S5000x256_S256x128_S5000x128_1_0_0_1_n_n.rhsIdx (ix2 p q) ((contrEquiv1 dot_S5000x256_S256x128_S5000x128_1_0_0_1_n_n 256 rfl rfl).symm c) = ix2 c q := funext fun a => Fin.ext (by
    match a with
    | ⟨0, _⟩ => exact (rhs_stack_0 _ _).trans hc
    | ⟨1, _⟩ => exact rhs_stack_1 _ _)
  rw [el, er]

/-! ### The pool: the one-hot matrix transposed against the tile's 5000 rows -/

theorem lhs_pool_0 (i : S64x128.Idx) (q : dot_S5000x64_S5000x128_S64x128_0_0_1_1_n_n.contr.Idx) :
    (dot_S5000x64_S5000x128_S64x128_0_0_1_1_n_n.lhsIdx i q 0).val = (q ⟨0, by decide⟩).val :=
  dot_S5000x64_S5000x128_S64x128_0_0_1_1_n_n.lhsIdx_val_of_single rfl i q
theorem lhs_pool_1 (i : S64x128.Idx) (q : dot_S5000x64_S5000x128_S64x128_0_0_1_1_n_n.contr.Idx) :
    (dot_S5000x64_S5000x128_S64x128_0_0_1_1_n_n.lhsIdx i q 1).val = (i 0).val := by
  unfold DotDims.lhsIdx
  rw [dif_neg (show ¬(1 : Fin S5000x64.rank) ∈ dot_S5000x64_S5000x128_S64x128_0_0_1_1_n_n.lhsBatch by decide), dif_pos (show (1 : Fin S5000x64.rank) ∈ dot_S5000x64_S5000x128_S64x128_0_0_1_1_n_n.lhsNonContracting by decide)]
  rfl
theorem rhs_pool_0 (i : S64x128.Idx) (q : dot_S5000x64_S5000x128_S64x128_0_0_1_1_n_n.contr.Idx) :
    (dot_S5000x64_S5000x128_S64x128_0_0_1_1_n_n.rhsIdx i q 0).val = (q ⟨0, by decide⟩).val :=
  dot_S5000x64_S5000x128_S64x128_0_0_1_1_n_n.rhsIdx_val_of_single rfl i q
theorem rhs_pool_1 (i : S64x128.Idx) (q : dot_S5000x64_S5000x128_S64x128_0_0_1_1_n_n.contr.Idx) :
    (dot_S5000x64_S5000x128_S64x128_0_0_1_1_n_n.rhsIdx i q 1).val = (i 1).val := by
  unfold DotDims.rhsIdx
  rw [dif_neg (show ¬(1 : Fin S5000x128.rank) ∈ dot_S5000x64_S5000x128_S64x128_0_0_1_1_n_n.rhsBatch by decide), dif_pos (show (1 : Fin S5000x128.rank) ∈ dot_S5000x64_S5000x128_S64x128_0_0_1_1_n_n.rhsNonContracting by decide)]
  rfl

/-- The product into the zero accumulator at `(p, q)`, the left factor read transposed: the sum over the 5000 contracted
    coordinates `c` of the left factor at `(c, p)` times the right factor at `(c, q)`. -/
theorem mm_pool_apply (x : FVec Ideal S5000x64 .f32) (y : FVec Ideal S5000x128 .f32) (p : Fin 64) (q : Fin 128) :
    matmul dot_S5000x64_S5000x128_S64x128_0_0_1_1_n_n (some .fp32) x y (constant (F := Ideal) S64x128 .f32 0x00000000#32) (ix2 p q)
      = ∑ c : Fin 5000, x (ix2 c p) * y (ix2 c q) := by
  simp only [matmul]
  rw [Ideal.matmul_constant_zero_apply, ← Equiv.sum_comp (contrEquiv1 dot_S5000x64_S5000x128_S64x128_0_0_1_1_n_n 5000 rfl rfl).symm]
  refine Finset.sum_congr rfl fun c _ => ?_
  have hc := contrEquiv1_symm_val dot_S5000x64_S5000x128_S64x128_0_0_1_1_n_n 5000 rfl rfl c
  have el : dot_S5000x64_S5000x128_S64x128_0_0_1_1_n_n.lhsIdx (ix2 p q) ((contrEquiv1 dot_S5000x64_S5000x128_S64x128_0_0_1_1_n_n 5000 rfl rfl).symm c) = ix2 c p := funext fun a => Fin.ext (by
    match a with
    | ⟨0, _⟩ => exact (lhs_pool_0 _ _).trans hc
    | ⟨1, _⟩ => exact lhs_pool_1 _ _)
  have er : dot_S5000x64_S5000x128_S64x128_0_0_1_1_n_n.rhsIdx (ix2 p q) ((contrEquiv1 dot_S5000x64_S5000x128_S64x128_0_0_1_1_n_n 5000 rfl rfl).symm c) = ix2 c q := funext fun a => Fin.ext (by
    match a with
    | ⟨0, _⟩ => exact (rhs_pool_0 _ _).trans hc
    | ⟨1, _⟩ => exact rhs_pool_1 _ _)
  rw [el, er]

/-! ### The count: the one-hot matrix transposed against a column of ones -/

theorem lhs_count_0 (i : S64x1.Idx) (q : dot_S5000x64_S5000x1_S64x1_0_0_1_1_n_n.contr.Idx) :
    (dot_S5000x64_S5000x1_S64x1_0_0_1_1_n_n.lhsIdx i q 0).val = (q ⟨0, by decide⟩).val :=
  dot_S5000x64_S5000x1_S64x1_0_0_1_1_n_n.lhsIdx_val_of_single rfl i q
theorem lhs_count_1 (i : S64x1.Idx) (q : dot_S5000x64_S5000x1_S64x1_0_0_1_1_n_n.contr.Idx) :
    (dot_S5000x64_S5000x1_S64x1_0_0_1_1_n_n.lhsIdx i q 1).val = (i 0).val := by
  unfold DotDims.lhsIdx
  rw [dif_neg (show ¬(1 : Fin S5000x64.rank) ∈ dot_S5000x64_S5000x1_S64x1_0_0_1_1_n_n.lhsBatch by decide), dif_pos (show (1 : Fin S5000x64.rank) ∈ dot_S5000x64_S5000x1_S64x1_0_0_1_1_n_n.lhsNonContracting by decide)]
  rfl
theorem rhs_count_0 (i : S64x1.Idx) (q : dot_S5000x64_S5000x1_S64x1_0_0_1_1_n_n.contr.Idx) :
    (dot_S5000x64_S5000x1_S64x1_0_0_1_1_n_n.rhsIdx i q 0).val = (q ⟨0, by decide⟩).val :=
  dot_S5000x64_S5000x1_S64x1_0_0_1_1_n_n.rhsIdx_val_of_single rfl i q
theorem rhs_count_1 (i : S64x1.Idx) (q : dot_S5000x64_S5000x1_S64x1_0_0_1_1_n_n.contr.Idx) :
    (dot_S5000x64_S5000x1_S64x1_0_0_1_1_n_n.rhsIdx i q 1).val = (i 1).val := by
  unfold DotDims.rhsIdx
  rw [dif_neg (show ¬(1 : Fin S5000x1.rank) ∈ dot_S5000x64_S5000x1_S64x1_0_0_1_1_n_n.rhsBatch by decide), dif_pos (show (1 : Fin S5000x1.rank) ∈ dot_S5000x64_S5000x1_S64x1_0_0_1_1_n_n.rhsNonContracting by decide)]
  rfl

/-- The product into the zero accumulator at `(p, q)`, the left factor read transposed: the sum over the 5000 contracted
    coordinates `c` of the left factor at `(c, p)` times the right factor at `(c, q)`. -/
theorem mm_count_apply (x : FVec Ideal S5000x64 .f32) (y : FVec Ideal S5000x1 .f32) (p : Fin 64) (q : Fin 1) :
    matmul dot_S5000x64_S5000x1_S64x1_0_0_1_1_n_n (some .fp32) x y (constant (F := Ideal) S64x1 .f32 0x00000000#32) (ix2 p q)
      = ∑ c : Fin 5000, x (ix2 c p) * y (ix2 c q) := by
  simp only [matmul]
  rw [Ideal.matmul_constant_zero_apply, ← Equiv.sum_comp (contrEquiv1 dot_S5000x64_S5000x1_S64x1_0_0_1_1_n_n 5000 rfl rfl).symm]
  refine Finset.sum_congr rfl fun c _ => ?_
  have hc := contrEquiv1_symm_val dot_S5000x64_S5000x1_S64x1_0_0_1_1_n_n 5000 rfl rfl c
  have el : dot_S5000x64_S5000x1_S64x1_0_0_1_1_n_n.lhsIdx (ix2 p q) ((contrEquiv1 dot_S5000x64_S5000x1_S64x1_0_0_1_1_n_n 5000 rfl rfl).symm c) = ix2 c p := funext fun a => Fin.ext (by
    match a with
    | ⟨0, _⟩ => exact (lhs_count_0 _ _).trans hc
    | ⟨1, _⟩ => exact lhs_count_1 _ _)
  have er : dot_S5000x64_S5000x1_S64x1_0_0_1_1_n_n.rhsIdx (ix2 p q) ((contrEquiv1 dot_S5000x64_S5000x1_S64x1_0_0_1_1_n_n 5000 rfl rfl).symm c) = ix2 c q := funext fun a => Fin.ext (by
    match a with
    | ⟨0, _⟩ => exact (rhs_count_0 _ _).trans hc
    | ⟨1, _⟩ => exact rhs_count_1 _ _)
  rw [el, er]

/-! ### The head's hidden layer: 64 pooled rows against the 128 × 128 weights -/

theorem lhs_hid_0 (i : S64x128.Idx) (q : dot_S64x128_S128x128_S64x128_1_0_0_1_n_n.contr.Idx) :
    (dot_S64x128_S128x128_S64x128_1_0_0_1_n_n.lhsIdx i q 0).val = (i 0).val := by
  unfold DotDims.lhsIdx
  rw [dif_neg (show ¬(0 : Fin S64x128.rank) ∈ dot_S64x128_S128x128_S64x128_1_0_0_1_n_n.lhsBatch by decide), dif_pos (show (0 : Fin S64x128.rank) ∈ dot_S64x128_S128x128_S64x128_1_0_0_1_n_n.lhsNonContracting by decide)]
  rfl
theorem lhs_hid_1 (i : S64x128.Idx) (q : dot_S64x128_S128x128_S64x128_1_0_0_1_n_n.contr.Idx) :
    (dot_S64x128_S128x128_S64x128_1_0_0_1_n_n.lhsIdx i q 1).val = (q ⟨0, by decide⟩).val :=
  dot_S64x128_S128x128_S64x128_1_0_0_1_n_n.lhsIdx_val_of_single rfl i q
theorem rhs_hid_0 (i : S64x128.Idx) (q : dot_S64x128_S128x128_S64x128_1_0_0_1_n_n.contr.Idx) :
    (dot_S64x128_S128x128_S64x128_1_0_0_1_n_n.rhsIdx i q 0).val = (q ⟨0, by decide⟩).val :=
  dot_S64x128_S128x128_S64x128_1_0_0_1_n_n.rhsIdx_val_of_single rfl i q
theorem rhs_hid_1 (i : S64x128.Idx) (q : dot_S64x128_S128x128_S64x128_1_0_0_1_n_n.contr.Idx) :
    (dot_S64x128_S128x128_S64x128_1_0_0_1_n_n.rhsIdx i q 1).val = (i 1).val := by
  unfold DotDims.rhsIdx
  rw [dif_neg (show ¬(1 : Fin S128x128.rank) ∈ dot_S64x128_S128x128_S64x128_1_0_0_1_n_n.rhsBatch by decide), dif_pos (show (1 : Fin S128x128.rank) ∈ dot_S64x128_S128x128_S64x128_1_0_0_1_n_n.rhsNonContracting by decide)]
  rfl

/-- The product into the zero accumulator at `(p, q)`: the sum over the 128 contracted coordinates `c` of the left factor
    at `(p, c)` times the right factor at `(c, q)`. -/
theorem mm_hid_apply (x : FVec Ideal S64x128 .f32) (y : FVec Ideal S128x128 .f32) (p : Fin 64) (q : Fin 128) :
    matmul dot_S64x128_S128x128_S64x128_1_0_0_1_n_n (some .fp32) x y (constant (F := Ideal) S64x128 .f32 0x00000000#32) (ix2 p q)
      = ∑ c : Fin 128, x (ix2 p c) * y (ix2 c q) := by
  simp only [matmul]
  rw [Ideal.matmul_constant_zero_apply, ← Equiv.sum_comp (contrEquiv1 dot_S64x128_S128x128_S64x128_1_0_0_1_n_n 128 rfl rfl).symm]
  refine Finset.sum_congr rfl fun c _ => ?_
  have hc := contrEquiv1_symm_val dot_S64x128_S128x128_S64x128_1_0_0_1_n_n 128 rfl rfl c
  have el : dot_S64x128_S128x128_S64x128_1_0_0_1_n_n.lhsIdx (ix2 p q) ((contrEquiv1 dot_S64x128_S128x128_S64x128_1_0_0_1_n_n 128 rfl rfl).symm c) = ix2 p c := funext fun a => Fin.ext (by
    match a with
    | ⟨0, _⟩ => exact lhs_hid_0 _ _
    | ⟨1, _⟩ => exact (lhs_hid_1 _ _).trans hc)
  have er : dot_S64x128_S128x128_S64x128_1_0_0_1_n_n.rhsIdx (ix2 p q) ((contrEquiv1 dot_S64x128_S128x128_S64x128_1_0_0_1_n_n 128 rfl rfl).symm c) = ix2 c q := funext fun a => Fin.ext (by
    match a with
    | ⟨0, _⟩ => exact (rhs_hid_0 _ _).trans hc
    | ⟨1, _⟩ => exact rhs_hid_1 _ _)
  rw [el, er]

/-! ### The head's output: 64 hidden rows against the 128 × 1 weights -/

theorem lhs_out_0 (i : S64x1.Idx) (q : dot_S64x128_S128x1_S64x1_1_0_0_1_n_n.contr.Idx) :
    (dot_S64x128_S128x1_S64x1_1_0_0_1_n_n.lhsIdx i q 0).val = (i 0).val := by
  unfold DotDims.lhsIdx
  rw [dif_neg (show ¬(0 : Fin S64x128.rank) ∈ dot_S64x128_S128x1_S64x1_1_0_0_1_n_n.lhsBatch by decide), dif_pos (show (0 : Fin S64x128.rank) ∈ dot_S64x128_S128x1_S64x1_1_0_0_1_n_n.lhsNonContracting by decide)]
  rfl
theorem lhs_out_1 (i : S64x1.Idx) (q : dot_S64x128_S128x1_S64x1_1_0_0_1_n_n.contr.Idx) :
    (dot_S64x128_S128x1_S64x1_1_0_0_1_n_n.lhsIdx i q 1).val = (q ⟨0, by decide⟩).val :=
  dot_S64x128_S128x1_S64x1_1_0_0_1_n_n.lhsIdx_val_of_single rfl i q
theorem rhs_out_0 (i : S64x1.Idx) (q : dot_S64x128_S128x1_S64x1_1_0_0_1_n_n.contr.Idx) :
    (dot_S64x128_S128x1_S64x1_1_0_0_1_n_n.rhsIdx i q 0).val = (q ⟨0, by decide⟩).val :=
  dot_S64x128_S128x1_S64x1_1_0_0_1_n_n.rhsIdx_val_of_single rfl i q
theorem rhs_out_1 (i : S64x1.Idx) (q : dot_S64x128_S128x1_S64x1_1_0_0_1_n_n.contr.Idx) :
    (dot_S64x128_S128x1_S64x1_1_0_0_1_n_n.rhsIdx i q 1).val = (i 1).val := by
  unfold DotDims.rhsIdx
  rw [dif_neg (show ¬(1 : Fin S128x1.rank) ∈ dot_S64x128_S128x1_S64x1_1_0_0_1_n_n.rhsBatch by decide), dif_pos (show (1 : Fin S128x1.rank) ∈ dot_S64x128_S128x1_S64x1_1_0_0_1_n_n.rhsNonContracting by decide)]
  rfl

/-- The product into the zero accumulator at `(p, q)`: the sum over the 128 contracted coordinates `c` of the left factor
    at `(p, c)` times the right factor at `(c, q)`. -/
theorem mm_out_apply (x : FVec Ideal S64x128 .f32) (y : FVec Ideal S128x1 .f32) (p : Fin 64) (q : Fin 1) :
    matmul dot_S64x128_S128x1_S64x1_1_0_0_1_n_n (some .fp32) x y (constant (F := Ideal) S64x1 .f32 0x00000000#32) (ix2 p q)
      = ∑ c : Fin 128, x (ix2 p c) * y (ix2 c q) := by
  simp only [matmul]
  rw [Ideal.matmul_constant_zero_apply, ← Equiv.sum_comp (contrEquiv1 dot_S64x128_S128x1_S64x1_1_0_0_1_n_n 128 rfl rfl).symm]
  refine Finset.sum_congr rfl fun c _ => ?_
  have hc := contrEquiv1_symm_val dot_S64x128_S128x1_S64x1_1_0_0_1_n_n 128 rfl rfl c
  have el : dot_S64x128_S128x1_S64x1_1_0_0_1_n_n.lhsIdx (ix2 p q) ((contrEquiv1 dot_S64x128_S128x1_S64x1_1_0_0_1_n_n 128 rfl rfl).symm c) = ix2 p c := funext fun a => Fin.ext (by
    match a with
    | ⟨0, _⟩ => exact lhs_out_0 _ _
    | ⟨1, _⟩ => exact (lhs_out_1 _ _).trans hc)
  have er : dot_S64x128_S128x1_S64x1_1_0_0_1_n_n.rhsIdx (ix2 p q) ((contrEquiv1 dot_S64x128_S128x1_S64x1_1_0_0_1_n_n 128 rfl rfl).symm c) = ix2 c q := funext fun a => Fin.ext (by
    match a with
    | ⟨0, _⟩ => exact (rhs_out_0 _ _).trans hc
    | ⟨1, _⟩ => exact rhs_out_1 _ _)
  rw [el, er]

/-! ## The layer on a tile -/

/-- Row r, feature j of a layer computed from a tile: the stacked contraction, the bias, the rectifier. -/
def rowOut (a : Vec Ideal S5000x128 .f32) (d : Vec Ideal S5000x1 .f32) (x : Vec Ideal S5000x128 .f32) (w : Vec Ideal S256x128 .f32) (b : Vec Ideal S128 .f32) (r : Fin 5000) (j : Fin 128) : EReal :=
  max ((∑ k : Fin 256, Spec.stackedRow (fun k => Ideal.div (a (ix2 r k)) (max (d (ix2 r (0 : Fin 1))) Spec.one)) (fun k => x (ix2 r k)) k * w (ix2 k j)) + b (ix1 j)) Spec.zero

/-- The layer's vector term on a tile: the neighbour sums over the floored degrees beside the rows' own features, the
    product with the stacked weights, the bias row, the rectifier. -/
def layerTerm (a : FVec Ideal S5000x128 .f32) (d : FVec Ideal S5000x1 .f32) (x : FVec Ideal S5000x128 .f32)
    (w : FVec Ideal S256x128 .f32) (b : FVec Ideal S128 .f32) : FVec Ideal S5000x128 .f32 :=
  maximumf
    (addf
      (matmul dot_S5000x256_S256x128_S5000x128_1_0_0_1_n_n (some .fp32)
        (concatenate S5000x256 1
          [⟨S5000x128, divf a (broadcastTo S5000x128 (maximumf d (broadcast S5000x1 (Scalar.ofBits .f32 0x3F800000#32))) broadcasts_S5000x1_S5000x128)⟩,
           ⟨S5000x128, x⟩]
          concatenates_S5000x128_S5000x128_S5000x256_d1)
        w (constant S5000x128 .f32 0x00000000#32))
      (broadcastTo S5000x128 (shapeCast S1x128 b shapeCasts_S128_S1x128) broadcasts_S1x128_S5000x128))
    (broadcast S5000x128 (Scalar.ofBits .f32 0x00000000#32))

/-- The two pieces laid side by side along the features, at `(r, k)`: the first piece below 128, the second from 128 on. -/
theorem stacked_apply (u x : FVec Ideal S5000x128 .f32) (r : Fin 5000) (k : Fin 256) :
    concatenate S5000x256 1 [⟨S5000x128, u⟩, ⟨S5000x128, x⟩] concatenates_S5000x128_S5000x128_S5000x256_d1 (ix2 r k)
      = Spec.stackedRow (fun k => u (ix2 r k)) (fun k => x (ix2 r k)) k := by
  unfold Spec.stackedRow
  by_cases hk : k.val < 128
  · rw [dif_pos hk]
    exact concatenate_pair_apply_left (1 : Fin S5000x256.rank) u x concatenates_S5000x128_S5000x128_S5000x256_d1 (ix2 r k) rfl
      (ix2 r ⟨k.val, hk⟩) (fun b => match b with | ⟨0, _⟩ => rfl | ⟨1, _⟩ => rfl)
  · rw [dif_neg hk]
    exact concatenate_pair_apply_right (1 : Fin S5000x256.rank) u x concatenates_S5000x128_S5000x128_S5000x256_d1 (ix2 r k) rfl rfl
      (ix2 r ⟨k.val - 128, by omega⟩)
      (fun b => match b with | ⟨0, _⟩ => fun _ => rfl | ⟨1, _⟩ => fun hne => absurd rfl hne)
      (by show k.val - 128 + 128 = k.val; omega)

/-- The layer's term at row `r`, feature `j`. -/
theorem layerTerm_apply (a : FVec Ideal S5000x128 .f32) (d : FVec Ideal S5000x1 .f32) (x : FVec Ideal S5000x128 .f32)
    (w : FVec Ideal S256x128 .f32) (b : FVec Ideal S128 .f32) (r : Fin 5000) (j : Fin 128) :
    layerTerm a d x w b (ix2 r j) = rowOut a d x w b r j := by
  unfold layerTerm rowOut
  rw [maximumf_apply, addf_apply, mm_stack_apply, rowBias_apply]
  refine congrArg (fun t => max (t + b (ix1 j)) Spec.zero) (Finset.sum_congr rfl fun k _ => ?_)
  rw [stacked_apply]
  refine congrArg (fun t => t * w (ix2 k j)) ?_
  refine congrArg (fun f => Spec.stackedRow f (fun k => x (ix2 r k)) k) (funext fun c => ?_)
  exact meanDiv_apply a d broadcasts_S5000x1_S5000x128 r c

/-! ## The payloads -/

theorem k0_pay1_apply (v0 : Vec Ideal S5000x128 .f32) (v2 : Vec Ideal S5000x1 .f32) (v8 : Vec Ideal S5000x128 .f32) (v10 : Vec Ideal S256x128 .f32) (v13 : Vec Ideal S128 .f32) (r : Fin 5000) (j : Fin 128) :
    k0_pay1 (F := Ideal) v0 v2 v8 v10 v13 (ix2 r j) = rowOut v0 v2 v8 v10 v13 r j := by
  have e : k0_pay1 (F := Ideal) v0 v2 v8 v10 v13
      = layerTerm (shapeCast S5000x128 v0 shapeCasts_S5000x128_S5000x128) (shapeCast S5000x1 v2 shapeCasts_S5000x1_S5000x1) v8
          (shapeCast S256x128 v10 shapeCasts_S256x128_S256x128) v13 := rfl
  rw [e, shapeCast_self, shapeCast_self, shapeCast_self]
  exact layerTerm_apply v0 v2 v8 v10 v13 r j

/-! ## The one-hot of the graph ids -/

/-- The comparison bit of two words, widened and read signed as an extended real: 1 when they are equal, else 0. -/
theorem sitofp_extui_cmpi_eq (w u : BitVec 32) :
    (FloatOps.sitofp (F := Ideal) .f32 ((IntOp.cmpi .eq w u).setWidth 32) : EReal) = if w = u then 1 else 0 := by
  show (((((IntOp.cmpi .eq w u).setWidth 32).toInt : ℤ) : ℝ) : EReal) = _
  by_cases h : w = u
  · have hb : IntOp.cmpi .eq w u = 1#1 := by simp [IntOp.cmpi, h]
    rw [hb, if_pos h, show ((1#1 : BitVec 1).setWidth 32).toInt = 1 by decide]
    simp
  · have hb : IntOp.cmpi .eq w u = 0#1 := by
      show BitVec.ofBool (w == u) = 0#1
      rw [beq_eq_false_iff_ne.mpr h]
      rfl
    rw [hb, if_neg h, show ((0#1 : BitVec 1).setWidth 32).toInt = 0 by decide]
    simp

/-- The one-hot matrix at row `r`, graph `g`: the weight of the row's id in graph `g`'s sum. -/
theorem k1_pay6_apply (v23 : Vec Ideal S5000x1 .i32) (r : Fin 5000) (g : Fin 64) :
    k1_pay6 (F := Ideal) v23 (ix2 r g) = Spec.oneHot (v23 (ix2 r (0 : Fin 1))) g := by
  have e : k1_pay6 (F := Ideal) v23
      = sitofp .f32 (extui 32 (cmpi .eq
          (broadcastTo S5000x64 (shapeCast S5000x1 v23 shapeCasts_S5000x1_S5000x1) broadcasts_S5000x1_S5000x64)
          (iota .tc S5000x64 32 [1] iota_S5000x64_d1_w32)) natLt_1_32) := rfl
  rw [e, sitofp_apply, extui_apply, cmpi_apply, broadcastTo_a1_ab_apply, shapeCast_self, iota_single_apply]
  exact sitofp_extui_cmpi_eq _ _

/-! ## The second kernel's payloads -/

theorem k1_pay8_apply (v3 : Vec Ideal S5000x128 .f32) (v5 : Vec Ideal S5000x1 .f32) (v11 : Vec Ideal S5000x128 .f32) (v14 : Vec Ideal S256x128 .f32) (v17 : Vec Ideal S128 .f32) (v23 : Vec Ideal S5000x1 .i32) (v31 : Vec Ideal S64x128 .f32) (g : Fin 64) (j : Fin 128) :
    k1_pay8 (F := Ideal) v3 v5 v11 v14 v17 v23 v31 (ix2 g j) = v31 (ix2 g j) + ∑ r : Fin 5000, Spec.oneHot (v23 (ix2 r (0 : Fin 1))) g * rowOut v3 v5 v11 v14 v17 r j := by
  have e : k1_pay8 (F := Ideal) v3 v5 v11 v14 v17 v23 v31
      = addf v31 (matmul dot_S5000x64_S5000x128_S64x128_0_0_1_1_n_n (some .fp32) (k1_pay6 v23)
          (layerTerm (shapeCast S5000x128 v3 shapeCasts_S5000x128_S5000x128) (shapeCast S5000x1 v5 shapeCasts_S5000x1_S5000x1)
            (shapeCast S5000x128 v11 shapeCasts_S5000x128_S5000x128) (shapeCast S256x128 v14 shapeCasts_S256x128_S256x128) v17)
          (constant S64x128 .f32 0x00000000#32)) := rfl
  rw [e, shapeCast_self, shapeCast_self, shapeCast_self, shapeCast_self, addf_apply, mm_pool_apply]
  refine congrArg (fun t => v31 (ix2 g j) + t) (Finset.sum_congr rfl fun r _ => ?_)
  rw [k1_pay6_apply, layerTerm_apply]

theorem k1_pay2_apply (v23 : Vec Ideal S5000x1 .i32) (v37 : Vec Ideal S64x1 .f32) (g : Fin 64) :
    k1_pay2 (F := Ideal) (k1_pay6 v23) k1_pay7 v37 (ix2 g (0 : Fin 1)) = v37 (ix2 g (0 : Fin 1)) + ∑ r : Fin 5000, Spec.oneHot (v23 (ix2 r (0 : Fin 1))) g * Spec.one := by
  have e : k1_pay2 (F := Ideal) (k1_pay6 v23) k1_pay7 v37
      = shapeCast S64x1 (addf v37 (matmul dot_S5000x64_S5000x1_S64x1_0_0_1_1_n_n (some .fp32) (k1_pay6 v23) (k1_pay7 (F := Ideal))
          (constant S64x1 .f32 0x00000000#32))) shapeCasts_S64x1_S64x1 := rfl
  rw [e, shapeCast_self, addf_apply, mm_count_apply]
  refine congrArg (fun t => v37 (ix2 g (0 : Fin 1)) + t) (Finset.sum_congr rfl fun r _ => ?_)
  rw [k1_pay6_apply]
  rfl

theorem k1_pay1_eq (v : FVec Ideal S64x128 .f32) : k1_pay1 (F := Ideal) v = v :=
  shapeCast_self v shapeCasts_S64x128_S64x128

theorem k1_pay4_apply (i : S64x128.Idx) : k1_pay4 (F := Ideal) i = Spec.zero := rfl

theorem k1_pay5_apply (i : S64x1.Idx) : k1_pay5 (F := Ideal) i = Spec.zero := rfl

/-- The head's hidden layer at graph `g`, unit `k`: the contraction of the pooled mean with the weights, the bias, the rectifier. -/
theorem hidden_apply (m : FVec Ideal S64x128 .f32) (w : FVec Ideal S128x128 .f32) (b : FVec Ideal S128 .f32) (g : Fin 64) (k : Fin 128) :
    maximumf
        (addf (matmul dot_S64x128_S128x128_S64x128_1_0_0_1_n_n (some .fp32) m w (constant S64x128 .f32 0x00000000#32))
          (broadcastTo S64x128 (shapeCast S1x128 b shapeCasts_S128_S1x128) broadcasts_S1x128_S64x128))
        (broadcast S64x128 (Scalar.ofBits .f32 0x00000000#32)) (ix2 g k)
      = max ((∑ j : Fin 128, m (ix2 g j) * w (ix2 j k)) + b (ix1 k)) Spec.zero := by
  rw [maximumf_apply, addf_apply, mm_hid_apply, rowBias_apply]
  rfl

theorem k1_pay3_apply (v46 : Vec Ideal S64x128 .f32) (v47 : Vec Ideal S64x1 .f32) (v52 : Vec Ideal S128x128 .f32) (v55 : Vec Ideal S128 .f32) (v61 : Vec Ideal S128x1 .f32) (v64 : Vec Ideal S1 .f32) (g : Fin 64) :
    k1_pay3 (F := Ideal) v46 v47 v52 v55 v61 v64 (ix1 g)
      = Spec.head (fun g j => v46 (ix2 g j)) (fun g => v47 (ix2 g (0 : Fin 1))) (fun k j => v52 (ix2 j k)) (fun k => v55 (ix1 k)) (fun k => v61 (ix2 k (0 : Fin 1))) (v64 (ix1 (0 : Fin 1))) g := by
  have e : k1_pay3 (F := Ideal) v46 v47 v52 v55 v61 v64
      = shapeCast S64
          (addf
            (matmul dot_S64x128_S128x1_S64x1_1_0_0_1_n_n (some .fp32)
              (maximumf
                (addf
                  (matmul dot_S64x128_S128x128_S64x128_1_0_0_1_n_n (some .fp32)
                    (divf v46 (broadcastTo S64x128 (maximumf v47 (broadcast S64x1 (Scalar.ofBits .f32 0x3F800000#32))) broadcasts_S64x1_S64x128))
                    (shapeCast S128x128 v52 shapeCasts_S128x128_S128x128) (constant S64x128 .f32 0x00000000#32))
                  (broadcastTo S64x128 (shapeCast S1x128 v55 shapeCasts_S128_S1x128) broadcasts_S1x128_S64x128))
                (broadcast S64x128 (Scalar.ofBits .f32 0x00000000#32)))
              (shapeCast S128x1 v61 shapeCasts_S128x1_S128x1) (constant S64x1 .f32 0x00000000#32))
            (broadcastTo S64x1 (shapeCast S1x1 v64 shapeCasts_S1_S1x1) broadcasts_S1x1_S64x1))
          shapeCasts_S64x1_S64 := rfl
  rw [e, shapeCast_a1_a_apply, shapeCast_self, shapeCast_self, addf_apply, mm_out_apply, rowBias_apply]
  unfold Spec.head
  refine congrArg (fun t => t + v64 (ix1 (0 : Fin 1))) (Finset.sum_congr rfl fun k _ => ?_)
  refine congrArg (fun t => t * v61 (ix2 k (0 : Fin 1))) ?_
  rw [hidden_apply]
  refine congrArg (fun t => max (t + v55 (ix1 k)) Spec.zero) (Finset.sum_congr rfl fun j _ => ?_)
  refine congrArg (fun t => t * v52 (ix2 j k)) ?_
  exact meanDiv_apply v46 v47 broadcasts_S64x1_S64x128 g j

end Cert.KernelIdeal.PayloadValue
end
-- ==== Proof.SageLayerValue.lean ====
/-
  The first layer's region as one function of whole arrays. The region's ten points each write one tile of 5000 rows
  of the output array; tile `t` is the layer's row formula on rows `5000 t … 5000 t + 4999` of the neighbour sums, the
  degrees and the features, against the whole stacked weights and the whole bias. So the ten tiles together are the
  layer's row formula at every node of the entry contents.
-/
import proofs.«409417_j75368086110725_2_alg».proof.Proof.SageLayerBody
import proofs.«409417_j75368086110725_2_alg».proof.Proof.KernelPayloads
import Idealize.ShloMosaic.Lib.Pipeline.Value
import Idealize.ShloMosaic.Lib.ValueIdx

noncomputable section

namespace Cert.KernelIdeal.LayerValue

open Idealize.ShloMosaic Idealize.ShloMosaic.ValueIdx Idealize.ShloMosaic.TcCoe Cert.KernelIdeal Cert.KernelIdeal.Gen Cert.KernelIdeal.Frame Cert.KernelIdeal.PayloadValue

variable (V : (c : Dev nD) → (b : Ref sig .tc) → Buf (Elt Ideal) ((c : Thread nD τ).loc b))

/-- A layer's output array from the neighbour sums `a`, the degrees `d`, the features `x`, the stacked weights `w` and the bias `b`: node n, feature j. -/
def layerOut (a : FVec Ideal S50000x128 .f32) (d : FVec Ideal S50000x1 .f32) (x : FVec Ideal S50000x128 .f32) (w : FVec Ideal S256x128 .f32) (b : FVec Ideal S128 .f32) : FVec Ideal S50000x128 .f32 :=
  Spec.toMat fun n j => max ((∑ k : Fin 256, Spec.stackedRow (fun k => Ideal.div (a (ix2 n k)) (max (d (ix2 n (0 : Fin 1))) Spec.one)) (fun k => x (ix2 n k)) k * w (ix2 k j)) + b (ix1 j)) Spec.zero

/-! ## Where each tile sits -/

/-- The zero offsets of a rank-2 and of a rank-1 rectangle. -/
theorem zeros2 : (![0, 0] : Fin 2 → ℕ) = fun _ => 0 := funext fun a => by fin_cases a <;> rfl
theorem zeros1 : (![0] : Fin 1 → ℕ) = fun _ => 0 := funext fun a => by fin_cases a <;> rfl

/-- At point `t` the three row-tiled inputs and the output sit at tile `t` along the rows and tile 0 along the
    features; the weights and the bias are one tile, at 0 on every axis. -/
theorem tile_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-! ## Each input block, read off its array -/

/-- Row `p` of the neighbour sums' tile at point `t` is row `5000 t + p` of the array. -/
theorem sums_tile (c : Dev nD) (t : Fin cfg0.N) (p : Fin 5000) (q : Fin 128) (n : Fin 50000) (hn : n.val = 5000 * t.val + p.val) :
    (iblk0 V c 0 t : Vec Ideal S5000x128 .f32) (ix2 p q) = (V c main_v19 : S50000x128.Idx → EReal) (ix2 n q) := by
  obtain ⟨e0, e1, -⟩ := tile_index t
  unfold iblk0
  rw [View.read_apply]
  show (V c main_v19 : S50000x128.Idx → EReal) _ = (V c main_v19 : S50000x128.Idx → EReal) _
  congr 1
  funext a
  apply Fin.ext
  match a with
  | ⟨0, _⟩ => show win0_0.index t (0 : Fin 2) * 5000 + 1 * p.val = n.val; rw [e0, hn]; omega
  | ⟨1, _⟩ => show win0_0.index t (1 : Fin 2) * 128 + 1 * q.val = q.val; rw [e1]; omega

/-- Row `p` of the degrees' tile at point `t` is row `5000 t + p` of the array. -/
theorem degs_tile (c : Dev nD) (t : Fin cfg0.N) (p : Fin 5000) (q : Fin 1) (n : Fin 50000) (hn : n.val = 5000 * t.val + p.val) :
    (iblk0 V c 1 t : Vec Ideal S5000x1 .f32) (ix2 p q) = (V c main_v9 : S50000x1.Idx → EReal) (ix2 n q) := by
  obtain ⟨-, -, e0, e1, -⟩ := tile_index t
  unfold iblk0
  rw [View.read_apply]
  show (V c main_v9 : S50000x1.Idx → EReal) _ = (V c main_v9 : S50000x1.Idx → EReal) _
  congr 1
  funext a
  apply Fin.ext
  match a with
  | ⟨0, _⟩ => show win0_1.index t (0 : Fin 2) * 5000 + 1 * p.val = n.val; rw [e0, hn]; omega
  | ⟨1, _⟩ => show win0_1.index t (1 : Fin 2) * 1 + 1 * q.val = q.val; rw [e1]; omega

/-- Row `p` of the features' tile at point `t` is row `5000 t + p` of the array. -/
theorem feats_tile (c : Dev nD) (t : Fin cfg0.N) (p : Fin 5000) (q : Fin 128) (n : Fin 50000) (hn : n.val = 5000 * t.val + p.val) :
    (iblk0 V c 2 t : Vec Ideal S5000x128 .f32) (ix2 p q) = (V c main_arg0 : S50000x128.Idx → EReal) (ix2 n q) := by
  obtain ⟨-, -, -, -, e0, e1, -⟩ := tile_index t
  unfold iblk0
  rw [View.read_apply]
  show (V c main_arg0 : S50000x128.Idx → EReal) _ = (V c main_arg0 : S50000x128.Idx → EReal) _
  congr 1
  funext a
  apply Fin.ext
  match a with
  | ⟨0, _⟩ => show win0_2.index t (0 : Fin 2) * 5000 + 1 * p.val = n.val; rw [e0, hn]; omega
  | ⟨1, _⟩ => show win0_2.index t (1 : Fin 2) * 128 + 1 * q.val = q.val; rw [e1]; omega

/-- The weights' one tile is the whole array, at every point. -/
theorem weights_tile (c : Dev nD) (t : Fin cfg0.N) (k : Fin 256) (j : Fin 128) :
    (iblk0 V c 3 t : Vec Ideal S256x128 .f32) (ix2 k j) = (V c main_v22 : S256x128.Idx → EReal) (ix2 k j) := by
  obtain ⟨-, -, -, -, -, -, e0, e1, -⟩ := tile_index t
  unfold iblk0
  rw [View.read_apply]
  show (V c main_v22 : S256x128.Idx → EReal) _ = (V c main_v22 : S256x128.Idx → EReal) _
  congr 1
  funext a
  apply Fin.ext
  match a with
  | ⟨0, _⟩ => show win0_3.index t (0 : Fin 2) * 256 + 1 * k.val = k.val; rw [e0]; omega
  | ⟨1, _⟩ => show win0_3.index t (1 : Fin 2) * 128 + 1 * j.val = j.val; rw [e1]; omega

/-- The bias's one tile is the whole array, at every point. -/
theorem bias_tile (c : Dev nD) (t : Fin cfg0.N) (j : Fin 128) :
    (iblk0 V c 4 t : Vec Ideal S128 .f32) (ix1 j) = (V c main_arg4 : S128.Idx → EReal) (ix1 j) := by
  obtain ⟨-, -, -, -, -, -, -, -, e0, -⟩ := tile_index t
  unfold iblk0
  rw [View.read_apply]
  show (V c main_arg4 : S128.Idx → EReal) _ = (V c main_arg4 : S128.Idx → EReal) _
  congr 1
  funext a
  apply Fin.ext
  match a with
  | ⟨0, _⟩ => show win0_4.index t (0 : Fin 1) * 128 + 1 * j.val = j.val; rw [e0]; omega

/-! ## One tile of the output -/

/-- The row formula is a function of its five readings. -/
theorem row_congr {a a' : Fin 128 → EReal} {d d' : EReal} {x x' : Fin 128 → EReal} {w w' : Fin 256 → EReal} {b b' : EReal}
    (ha : a = a') (hd : d = d') (hx : x = x') (hw : w = w') (hb : b = b') :
    max ((∑ k : Fin 256, Spec.stackedRow (fun k => Ideal.div (a k) (max d Spec.one)) x k * w k) + b) Spec.zero
      = max ((∑ k : Fin 256, Spec.stackedRow (fun k => Ideal.div (a' k) (max d' Spec.one)) x' k * w' k) + b') Spec.zero := by
  subst ha hd hx hw hb; rfl

/-- Row `p`, feature `q` of what the body stores at point `t` is the layer at node `5000 t + p`, feature `q`. -/
theorem tile_apply (c : Dev nD) (t : Fin cfg0.N) (p : Fin 5000) (q : Fin 128) (n : Fin 50000) (hn : n.val = 5000 * t.val + p.val) :
    k0_pay1 (F := Ideal) (iblk0 V c 0 t) (iblk0 V c 1 t) (iblk0 V c 2 t) (iblk0 V c 3 t) (iblk0 V c 4 t) (ix2 p q)
      = layerOut (V c main_v19) (V c main_v9) (V c main_arg0) (V c main_v22) (V c main_arg4) (ix2 n q) := by
  rw [k0_pay1_apply]
  exact row_congr (funext fun k => sums_tile V c t p k n hn) (degs_tile V c t p 0 n hn)
    (funext fun k => feats_tile V c t p k n hn) (funext fun k => weights_tile V c t k q) (bias_tile V c t q)

/-! ## The tiles together -/

/-- What point `t` writes back is tile `t` of the layer of the entry contents. -/
theorem flushed_eq (c : Dev nD) (t : Fin cfg0.N) :
    (dat0 (F := Ideal) V c).flushed 5 t
      = ((cfg0.win 5).blk t).view.read (Elt Ideal) (layerOut (V c main_v19) (V c main_v9) (V c main_arg0) (V c main_v22) (V c main_arg4)) := by
  show (cfg0.win 5).cut (grid0.coords t) ((dat0 (F := Ideal) V c).after 5 t) = _
  rw [after0_5]
  unfold out0_5
  rw [View.canon_unit_zero zeros2]
  simp only [View.ld_unit_zero (S := S5000x128) zeros2, View.ld_unit_zero (S := S5000x1) zeros2,
    View.ld_unit_zero (S := S256x128) zeros2, View.ld_unit_zero (S := S128) zeros1]
  obtain ⟨-, -, -, -, -, -, -, -, -, e0, e1⟩ := tile_index t
  funext y
  obtain ⟨p, q, rfl⟩ : ∃ (p : Fin 5000) (q : Fin 128), y = ix2 p q := ⟨y 0, y 1, eq_ix2 y⟩
  have hn : 5000 * t.val + p.val < 50000 := by
    have ht : t.val < 10 := lt_of_lt_of_eq t.isLt N_0
    have := p.isLt; omega
  refine (tile_apply V c t p q ⟨5000 * t.val + p.val, hn⟩ rfl).trans ?_
  show _ = layerOut (V c main_v19) (V c main_v9) (V c main_arg0) (V c main_v22) (V c main_arg4) (((cfg0.win 5).blk t).view.emb (ix2 p q))
  congr 1
  funext a
  apply Fin.ext
  match a with
  | ⟨0, _⟩ => show 5000 * t.val + p.val = win0_5.index t (0 : Fin 2) * 5000 + 1 * p.val; rw [e0]; omega
  | ⟨1, _⟩ => show q.val = win0_5.index t (1 : Fin 2) * 128 + 1 * q.val; rw [e1]; omega

/-- An index of the output array is in point `t`'s tile iff each coordinate is in the tile's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v23).slice (win0_5.rect t)).set ↔ _
  rw [View.set_slice_whole, Rect.mem_set_unit]
  exact Iff.rfl

/-- Every row of the output array is in the tile of the point numbered by the row over 5000, which is written back. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, -, -, -, e0, e1⟩ := tile_index t
  have ht : t.val = (i 0).val / 5000 := rfl
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; rw [e0, ht]; omega
  | ⟨1, _⟩ => show win0_5.index t (1 : Fin 2) * 128 ≤ (i 1).val ∧ (i 1).val < win0_5.index t (1 : Fin 2) * 128 + 128; rw [e1]; omega

/-- After the first region the output array holds the layer of the region's entry contents. -/
theorem region0_value (c : Dev nD) :
    (dat0 (F := Ideal) V c).arrAt 5 cfg0.N = layerOut (V c main_v19) (V c main_v9) (V c main_arg0) (V c main_v22) (V c main_arg4) :=
  (dat0 (F := Ideal) V c).arrAt_eq_of_cover 5 (layerOut (V c main_v19) (V c main_v9) (V c main_arg0) (V c main_v22) (V c main_arg4))
    (fun t _ => flushed_eq V c t) cover

end Cert.KernelIdeal.LayerValue

end
-- ==== Proof.PoolValue.lean ====
/-
  What the second kernel region leaves in the result array, at the ideal values, from the contents it finds.

  The region has ten points. Point `t` takes tile `t` of the node arrays (rows `5000 t … 5000 t + 4999`), computes the second
  layer on those rows, and adds to the two running sums (per graph: the pooled features, the node count) each row weighted
  by the one-hot of its graph id; the first point starts both from the word `0.0`; the last point then applies the head to
  the sums and stores its 64 values, which is all the result array ever receives.

  * What each point's run stores, read back: the running sums after the point as the layer-and-pool arithmetic of the tile
    over what the point before left; the last point's output as the head of those.
  * A tile's row `r` is row `5000 t + r` of the array; the weights, the biases and the head's operands are whole arrays.
  * By induction on the point the running sums are `Spec.accSum` / `Spec.accCount` of the layer's rows and the graph ids.
  * The one write-back, at the last point, covers the whole result array.
-/
import proofs.«409417_j75368086110725_2_alg».proof.Proof.PoolBody
import proofs.«409417_j75368086110725_2_alg».proof.Proof.KernelPayloads
import proofs.«409417_j75368086110725_2_alg».proof.Proof.Spec
import Idealize.ShloMosaic.Lib.Pipeline.Value
import Idealize.ShloMosaic.Lib.Pipeline.FrameBody
import Idealize.ShloMosaic.Lib.Tactic

set_option maxRecDepth 16384

noncomputable section

namespace Cert.KernelIdeal.PoolValue

open Cert.KernelIdeal Cert.KernelIdeal.Gen Cert.KernelIdeal.Frame Cert.KernelIdeal.PayloadValue
open Idealize.ShloMosaic Idealize.ShloMosaic.ValueIdx Idealize.ShloMosaic.TcCoe Idealize.ShloMosaic.Tactic
open Idealize.SL.Sem
open Idealize.ShloMosaic.Pipeline (Dat)

/-! ## What each point's run stores, read back -/

section Pieces

variable {F : FTy → Type} [FloatOps F]

theorem hz2 : (![0, 0] : Fin 2 → ℕ) = fun _ => 0 := funext fun a => by match a with | ⟨0, _⟩ => rfl | ⟨1, _⟩ => rfl
theorem hz1 : (![0] : Fin 1 → ℕ) = fun _ => 0 := funext fun a => by match a with | ⟨0, _⟩ => rfl

/-- The first point leaves, in the pooled sums, the tile's add over the reset: the reset's store lies under the add's, whose load of the accumulator reads the reset back. -/
theorem sout1_A_0_eq (c : Dev nD) (t : Fin cfg1.N) (hc0 : cond1_0 (grid1.coords t)) (hc1 : ¬cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) :
    sout1_A_0 (F := F) c t hc0 hc1 x0 x1 x2 x3 x4 x5 x6 x7 x8 x9 = k1_pay1 (k1_pay8 x0 x1 x2 x3 x4 x5 k1_pay4) := by
  unfold sout1_A_0
  rw [View.read_writes_eq_canon _ _ _ (scover1_A_0 c t hc0 hc1 x0 x1 x2 x3 x4 x5 x6 x7 x8 x9)]
  unfold runA kernelRun1_A
  dsimp only
  sl_unfold_words
  rw [View.canon_cons_unit_zero (S := S64x128) hz2]
  simp only [View.readAt_eq_ld, (hs1_0 t).read_unread, (hs1_1 t).read_unread, (hs1_2 t).read_unread, (hs1_3 t).read_unread,
    (hs1_4 t).read_unread, (hs1_5 t).read_unread, (hs1_6 t).read_unread, (hs1_7 t).read_unread, (hs1_8 t).read_unread, (hs1_9 t).read_unread,
    (Memref.isWhole_whole cc1_scratch0).read_unread, (Memref.isWhole_whole cc1_scratch1).read_unread,
    View.ld_unit_zero (S := S5000x128) hz2, View.ld_unit_zero (S := S5000x1) hz2, View.ld_unit_zero (S := S256x128) hz2,
    View.ld_unit_zero (S := S128) hz1, View.ld_unit_zero (S := S128x128) hz2, View.ld_unit_zero (S := S128x1) hz2,
    View.ld_unit_zero (S := S1) hz1, View.ld_unit_zero (S := S64x128) hz2, View.ld_unit_zero (S := S64x1) hz2,
    View.readCov_unit_zero (S := S64x128) _ hz2, View.readCov_unit_zero (S := S64x1) _ hz2]

/-- The first point leaves, in the counts, the tile's add over the reset. -/
theorem sout1_A_1_eq (c : Dev nD) (t : Fin cfg1.N) (hc0 : cond1_0 (grid1.coords t)) (hc1 : ¬cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) :
    sout1_A_1 (F := F) c t hc0 hc1 x0 x1 x2 x3 x4 x5 x6 x7 x8 x9 = k1_pay2 (k1_pay6 x5) k1_pay7 k1_pay5 := by
  unfold sout1_A_1
  rw [View.read_writes_eq_canon _ _ _ (scover1_A_1 c t hc0 hc1 x0 x1 x2 x3 x4 x5 x6 x7 x8 x9)]
  unfold runA kernelRun1_A
  dsimp only
  sl_unfold_words
  rw [View.canon_cons_unit_zero (S := S64x1) hz2]
  simp only [View.readAt_eq_ld, (hs1_0 t).read_unread, (hs1_1 t).read_unread, (hs1_2 t).read_unread, (hs1_3 t).read_unread,
    (hs1_4 t).read_unread, (hs1_5 t).read_unread, (hs1_6 t).read_unread, (hs1_7 t).read_unread, (hs1_8 t).read_unread, (hs1_9 t).read_unread,
    (Memref.isWhole_whole cc1_scratch0).read_unread, (Memref.isWhole_whole cc1_scratch1).read_unread,
    View.ld_unit_zero (S := S5000x128) hz2, View.ld_unit_zero (S := S5000x1) hz2, View.ld_unit_zero (S := S256x128) hz2,
    View.ld_unit_zero (S := S128) hz1, View.ld_unit_zero (S := S128x128) hz2, View.ld_unit_zero (S := S128x1) hz2,
    View.ld_unit_zero (S := S1) hz1, View.ld_unit_zero (S := S64x128) hz2, View.ld_unit_zero (S := S64x1) hz2,
    View.readCov_unit_zero (S := S64x128) _ hz2, View.readCov_unit_zero (S := S64x1) _ hz2]

/-- A middle point leaves, in the pooled sums holding `xs0`, the tile's add over `xs0`: one covering store. -/
theorem sout1_B_0_eq (c : Dev nD) (t : Fin cfg1.N) (hc0 : ¬cond1_0 (grid1.coords t)) (hc1 : ¬cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) (xs0 : Vec F S64x128 .f32) (xs1 : Vec F S64x1 .f32) :
    sout1_B_0 (F := F) c t hc0 hc1 x0 x1 x2 x3 x4 x5 x6 x7 x8 x9 xs0 xs1 = k1_pay1 (k1_pay8 x0 x1 x2 x3 x4 x5 xs0) := by
  unfold sout1_B_0
  rw [View.read_writes_eq_canon _ _ _ (scover1_B_0 c t hc0 hc1 x0 x1 x2 x3 x4 x5 x6 x7 x8 x9 xs0 xs1)]
  unfold runB kernelRun1_B
  dsimp only
  sl_unfold_words
  rw [View.canon_unit_zero (S := S64x128) hz2]
  simp only [View.readAt_eq_ld, (hs1_0 t).read_unread, (hs1_1 t).read_unread, (hs1_2 t).read_unread, (hs1_3 t).read_unread,
    (hs1_4 t).read_unread, (hs1_5 t).read_unread, (hs1_6 t).read_unread, (hs1_7 t).read_unread, (hs1_8 t).read_unread, (hs1_9 t).read_unread,
    (Memref.isWhole_whole cc1_scratch0).read_unread, (Memref.isWhole_whole cc1_scratch1).read_unread,
    View.ld_unit_zero (S := S5000x128) hz2, View.ld_unit_zero (S := S5000x1) hz2, View.ld_unit_zero (S := S256x128) hz2,
    View.ld_unit_zero (S := S128) hz1, View.ld_unit_zero (S := S128x128) hz2, View.ld_unit_zero (S := S128x1) hz2,
    View.ld_unit_zero (S := S1) hz1, View.ld_unit_zero (S := S64x128) hz2, View.ld_unit_zero (S := S64x1) hz2,
    View.readCov_unit_zero (S := S64x128) _ hz2, View.readCov_unit_zero (S := S64x1) _ hz2]

/-- A middle point leaves, in the counts holding `xs1`, the tile's add over `xs1`. -/
theorem sout1_B_1_eq (c : Dev nD) (t : Fin cfg1.N) (hc0 : ¬cond1_0 (grid1.coords t)) (hc1 : ¬cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) (xs0 : Vec F S64x128 .f32) (xs1 : Vec F S64x1 .f32) :
    sout1_B_1 (F := F) c t hc0 hc1 x0 x1 x2 x3 x4 x5 x6 x7 x8 x9 xs0 xs1 = k1_pay2 (k1_pay6 x5) k1_pay7 xs1 := by
  unfold sout1_B_1
  rw [View.read_writes_eq_canon _ _ _ (scover1_B_1 c t hc0 hc1 x0 x1 x2 x3 x4 x5 x6 x7 x8 x9 xs0 xs1)]
  unfold runB kernelRun1_B
  dsimp only
  sl_unfold_words
  rw [View.canon_unit_zero (S := S64x1) hz2]
  simp only [View.readAt_eq_ld, (hs1_0 t).read_unread, (hs1_1 t).read_unread, (hs1_2 t).read_unread, (hs1_3 t).read_unread,
    (hs1_4 t).read_unread, (hs1_5 t).read_unread, (hs1_6 t).read_unread, (hs1_7 t).read_unread, (hs1_8 t).read_unread, (hs1_9 t).read_unread,
    (Memref.isWhole_whole cc1_scratch0).read_unread, (Memref.isWhole_whole cc1_scratch1).read_unread,
    View.ld_unit_zero (S := S5000x128) hz2, View.ld_unit_zero (S := S5000x1) hz2, View.ld_unit_zero (S := S256x128) hz2,
    View.ld_unit_zero (S := S128) hz1, View.ld_unit_zero (S := S128x128) hz2, View.ld_unit_zero (S := S128x1) hz2,
    View.ld_unit_zero (S := S1) hz1, View.ld_unit_zero (S := S64x128) hz2, View.ld_unit_zero (S := S64x1) hz2,
    View.readCov_unit_zero (S := S64x128) _ hz2, View.readCov_unit_zero (S := S64x1) _ hz2]

/-- The last point leaves, in the pooled sums holding `xs0`, the tile's add over `xs0`. -/
theorem sout1_C_0_eq (c : Dev nD) (t : Fin cfg1.N) (hc0 : ¬cond1_0 (grid1.coords t)) (hc1 : cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) (xs0 : Vec F S64x128 .f32) (xs1 : Vec F S64x1 .f32) :
    sout1_C_0 (F := F) c t hc0 hc1 x0 x1 x2 x3 x4 x5 x6 x7 x8 x9 xs0 xs1 = k1_pay1 (k1_pay8 x0 x1 x2 x3 x4 x5 xs0) := by
  unfold sout1_C_0
  rw [View.read_writes_eq_canon _ _ _ (scover1_C_0 c t hc0 hc1 x0 x1 x2 x3 x4 x5 x6 x7 x8 x9 xs0 xs1)]
  unfold runC kernelRun1_C
  dsimp only
  sl_unfold_words
  rw [View.canon_unit_zero (S := S64x128) hz2]
  simp only [View.readAt_eq_ld, (hs1_0 t).read_unread, (hs1_1 t).read_unread, (hs1_2 t).read_unread, (hs1_3 t).read_unread,
    (hs1_4 t).read_unread, (hs1_5 t).read_unread, (hs1_6 t).read_unread, (hs1_7 t).read_unread, (hs1_8 t).read_unread, (hs1_9 t).read_unread,
    (Memref.isWhole_whole cc1_scratch0).read_unread, (Memref.isWhole_whole cc1_scratch1).read_unread,
    View.ld_unit_zero (S := S5000x128) hz2, View.ld_unit_zero (S := S5000x1) hz2, View.ld_unit_zero (S := S256x128) hz2,
    View.ld_unit_zero (S := S128) hz1, View.ld_unit_zero (S := S128x128) hz2, View.ld_unit_zero (S := S128x1) hz2,
    View.ld_unit_zero (S := S1) hz1, View.ld_unit_zero (S := S64x128) hz2, View.ld_unit_zero (S := S64x1) hz2,
    View.readCov_unit_zero (S := S64x128) _ hz2, View.readCov_unit_zero (S := S64x1) _ hz2]

/-- The last point leaves, in the counts holding `xs1`, the tile's add over `xs1`. -/
theorem sout1_C_1_eq (c : Dev nD) (t : Fin cfg1.N) (hc0 : ¬cond1_0 (grid1.coords t)) (hc1 : cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) (xs0 : Vec F S64x128 .f32) (xs1 : Vec F S64x1 .f32) :
    sout1_C_1 (F := F) c t hc0 hc1 x0 x1 x2 x3 x4 x5 x6 x7 x8 x9 xs0 xs1 = k1_pay2 (k1_pay6 x5) k1_pay7 xs1 := by
  unfold sout1_C_1
  rw [View.read_writes_eq_canon _ _ _ (scover1_C_1 c t hc0 hc1 x0 x1 x2 x3 x4 x5 x6 x7 x8 x9 xs0 xs1)]
  unfold runC kernelRun1_C
  dsimp only
  sl_unfold_words
  rw [View.canon_unit_zero (S := S64x1) hz2]
  simp only [View.readAt_eq_ld, (hs1_0 t).read_unread, (hs1_1 t).read_unread, (hs1_2 t).read_unread, (hs1_3 t).read_unread,
    (hs1_4 t).read_unread, (hs1_5 t).read_unread, (hs1_6 t).read_unread, (hs1_7 t).read_unread, (hs1_8 t).read_unread, (hs1_9 t).read_unread,
    (Memref.isWhole_whole cc1_scratch0).read_unread, (Memref.isWhole_whole cc1_scratch1).read_unread,
    View.ld_unit_zero (S := S5000x128) hz2, View.ld_unit_zero (S := S5000x1) hz2, View.ld_unit_zero (S := S256x128) hz2,
    View.ld_unit_zero (S := S128) hz1, View.ld_unit_zero (S := S128x128) hz2, View.ld_unit_zero (S := S128x1) hz2,
    View.ld_unit_zero (S := S1) hz1, View.ld_unit_zero (S := S64x128) hz2, View.ld_unit_zero (S := S64x1) hz2,
    View.readCov_unit_zero (S := S64x128) _ hz2, View.readCov_unit_zero (S := S64x1) _ hz2]

/-- The last point leaves, in the output buffer, the head of the two accumulators as its own adds left them (its loads of them read those stores back). -/
theorem out1_C_10_eq (c : Dev nD) (t : Fin cfg1.N) (hc0 : ¬cond1_0 (grid1.coords t)) (hc1 : cond1_1 (grid1.coords t)) (x0 : Vec F S5000x128 .f32) (x1 : Vec F S5000x1 .f32) (x2 : Vec F S5000x128 .f32) (x3 : Vec F S256x128 .f32) (x4 : Vec F S128 .f32) (x5 : Vec F S5000x1 .i32) (x6 : Vec F S128x128 .f32) (x7 : Vec F S128 .f32) (x8 : Vec F S128x1 .f32) (x9 : Vec F S1 .f32) (xs0 : Vec F S64x128 .f32) (xs1 : Vec F S64x1 .f32) :
    out1_C_10 (F := F) c t hc0 hc1 x0 x1 x2 x3 x4 x5 x6 x7 x8 x9 xs0 xs1 = k1_pay3 (k1_pay1 (k1_pay8 x0 x1 x2 x3 x4 x5 xs0)) (k1_pay2 (k1_pay6 x5) k1_pay7 xs1) x6 x7 x8 x9 := by
  unfold out1_C_10
  rw [View.read_writes_eq_canon _ _ _ (cover1_C_10 c t hc0 hc1 x0 x1 x2 x3 x4 x5 x6 x7 x8 x9 xs0 xs1)]
  unfold runC kernelRun1_C
  dsimp only
  sl_unfold_words
  rw [View.canon_unit_zero (S := S64) hz1]
  simp only [View.readAt_eq_ld, (hs1_0 t).read_unread, (hs1_1 t).read_unread, (hs1_2 t).read_unread, (hs1_3 t).read_unread,
    (hs1_4 t).read_unread, (hs1_5 t).read_unread, (hs1_6 t).read_unread, (hs1_7 t).read_unread, (hs1_8 t).read_unread, (hs1_9 t).read_unread,
    (Memref.isWhole_whole cc1_scratch0).read_unread, (Memref.isWhole_whole cc1_scratch1).read_unread,
    View.ld_unit_zero (S := S5000x128) hz2, View.ld_unit_zero (S := S5000x1) hz2, View.ld_unit_zero (S := S256x128) hz2,
    View.ld_unit_zero (S := S128) hz1, View.ld_unit_zero (S := S128x128) hz2, View.ld_unit_zero (S := S128x1) hz2,
    View.ld_unit_zero (S := S1) hz1, View.ld_unit_zero (S := S64x128) hz2, View.ld_unit_zero (S := S64x1) hz2,
    View.readCov_unit_zero (S := S64x128) _ hz2, View.readCov_unit_zero (S := S64x1) _ hz2]

end Pieces

/-! ## The blocks: a tile's row is a row of the array -/

variable (V : (c : Dev nD) → (b : Ref sig .tc) → Buf (Elt Ideal) ((c : Thread nD τ).loc b))

/-- The point as a tile number. -/
abbrev tile (t : Fin cfg1.N) : Fin 10 := ⟨t.val, lt10 t⟩

/-- The blocks at point `t`, by their literal types. -/
abbrev blkAgg (c : Dev nD) (t : Fin cfg1.N) : Vec Ideal S5000x128 .f32 := iblk1 V c 0 t
abbrev blkDeg (c : Dev nD) (t : Fin cfg1.N) : Vec Ideal S5000x1 .f32 := iblk1 V c 1 t
abbrev blkH (c : Dev nD) (t : Fin cfg1.N) : Vec Ideal S5000x128 .f32 := iblk1 V c 2 t
abbrev blkW (c : Dev nD) (t : Fin cfg1.N) : Vec Ideal S256x128 .f32 := iblk1 V c 3 t
abbrev blkB (c : Dev nD) (t : Fin cfg1.N) : Vec Ideal S128 .f32 := iblk1 V c 4 t
abbrev blkIds (c : Dev nD) (t : Fin cfg1.N) : Vec Ideal S5000x1 .i32 := iblk1 V c 5 t
abbrev blkW1 (c : Dev nD) (t : Fin cfg1.N) : Vec Ideal S128x128 .f32 := iblk1 V c 6 t
abbrev blkB1 (c : Dev nD) (t : Fin cfg1.N) : Vec Ideal S128 .f32 := iblk1 V c 7 t
abbrev blkW2 (c : Dev nD) (t : Fin cfg1.N) : Vec Ideal S128x1 .f32 := iblk1 V c 8 t
abbrev blkB2 (c : Dev nD) (t : Fin cfg1.N) : Vec Ideal S1 .f32 := iblk1 V c 9 t

/-- The arrays the region finds, by their literal types. -/
abbrev arrAgg (c : Dev nD) : S50000x128.Idx → EReal := V c main_v33
abbrev arrDeg (c : Dev nD) : S50000x1.Idx → EReal := V c main_v9
abbrev arrH (c : Dev nD) : S50000x128.Idx → EReal := V c main_v23
abbrev arrW (c : Dev nD) : S256x128.Idx → EReal := V c main_v36
abbrev arrB (c : Dev nD) : S128.Idx → EReal := V c main_arg7
abbrev arrIds (c : Dev nD) : S50000x1.Idx → BitVec 32 := V c main_v4
abbrev arrW1 (c : Dev nD) : S128x128.Idx → EReal := V c main_v37
abbrev arrB1 (c : Dev nD) : S128.Idx → EReal := V c main_arg10
abbrev arrW2 (c : Dev nD) : S128x1.Idx → EReal := V c main_v38
abbrev arrB2 (c : Dev nD) : S1.Idx → EReal := V c main_arg12

/-- The tiled windows' block index at point `t` is `(t, 0)`; the whole-array windows' is zero. -/
theorem index1_0 : ∀ t : Fin cfg1.N, win1_0.index t 0 = t.val ∧ win1_0.index t 1 = 0 :=
  (by decide +kernel : ∀ t : Fin grid1.N, win1_0.index t 0 = t.val ∧ win1_0.index t 1 = 0)
theorem index1_1 : ∀ t : Fin cfg1.N, win1_1.index t 0 = t.val ∧ win1_1.index t 1 = 0 :=
  (by decide +kernel : ∀ t : Fin grid1.N, win1_1.index t 0 = t.val ∧ win1_1.index t 1 = 0)
theorem index1_2 : ∀ t : Fin cfg1.N, win1_2.index t 0 = t.val ∧ win1_2.index t 1 = 0 :=
  (by decide +kernel : ∀ t : Fin grid1.N, win1_2.index t 0 = t.val ∧ win1_2.index t 1 = 0)
theorem index1_3 : ∀ t : Fin cfg1.N, win1_3.index t 0 = 0 ∧ win1_3.index t 1 = 0 :=
  (by decide +kernel : ∀ t : Fin grid1.N, win1_3.index t 0 = 0 ∧ win1_3.index t 1 = 0)
theorem index1_4 : ∀ t : Fin cfg1.N, win1_4.index t 0 = 0 :=
  (by decide +kernel : ∀ t : Fin grid1.N, win1_4.index t 0 = 0)
theorem index1_5 : ∀ t : Fin cfg1.N, win1_5.index t 0 = t.val ∧ win1_5.index t 1 = 0 :=
  (by decide +kernel : ∀ t : Fin grid1.N, win1_5.index t 0 = t.val ∧ win1_5.index t 1 = 0)
theorem index1_6 : ∀ t : Fin cfg1.N, win1_6.index t 0 = 0 ∧ win1_6.index t 1 = 0 :=
  (by decide +kernel : ∀ t : Fin grid1.N, win1_6.index t 0 = 0 ∧ win1_6.index t 1 = 0)
theorem index1_7 : ∀ t : Fin cfg1.N, win1_7.index t 0 = 0 :=
  (by decide +kernel : ∀ t : Fin grid1.N, win1_7.index t 0 = 0)
theorem index1_8 : ∀ t : Fin cfg1.N, win1_8.index t 0 = 0 ∧ win1_8.index t 1 = 0 :=
  (by decide +kernel : ∀ t : Fin grid1.N, win1_8.index t 0 = 0 ∧ win1_8.index t 1 = 0)
theorem index1_9 : ∀ t : Fin cfg1.N, win1_9.index t 0 = 0 :=
  (by decide +kernel : ∀ t : Fin grid1.N, win1_9.index t 0 = 0)

/-- Row `r` of tile `t` of the neighbour sums is row `5000 t + r` of the array. -/
theorem blkAgg_apply (c : Dev nD) (t : Fin cfg1.N) (r : Fin 5000) (k : Fin 128) :
    blkAgg V c t (ix2 r k) = arrAgg V c (ix2 (Spec.tileRow (tile t) r) k) := by
  have hi := index1_0 t
  show iblk1 V c 0 t (ix2 r k) = _
  unfold iblk1
  rw [View.read_apply]
  show V c main_v33 _ = V c main_v33 _
  congr 1
  funext a
  apply Fin.ext
  match a with
  | ⟨0, _⟩ => show win1_0.index t 0 * 5000 + 1 * r.val = 5000 * t.val + r.val; rw [hi.1]; omega
  | ⟨1, _⟩ => show win1_0.index t 1 * 128 + 1 * k.val = k.val; rw [hi.2]; omega

/-- Row `r` of tile `t` of the degrees is row `5000 t + r` of the array. -/
theorem blkDeg_apply (c : Dev nD) (t : Fin cfg1.N) (r : Fin 5000) (k : Fin 1) :
    blkDeg V c t (ix2 r k) = arrDeg V c (ix2 (Spec.tileRow (tile t) r) k) := by
  have hi := index1_1 t
  show iblk1 V c 1 t (ix2 r k) = _
  unfold iblk1
  rw [View.read_apply]
  show V c main_v9 _ = V c main_v9 _
  congr 1
  funext a
  apply Fin.ext
  match a with
  | ⟨0, _⟩ => show win1_1.index t 0 * 5000 + 1 * r.val = 5000 * t.val + r.val; rw [hi.1]; omega
  | ⟨1, _⟩ => show win1_1.index t 1 * 1 + 1 * k.val = k.val; rw [hi.2]; omega

/-- Row `r` of tile `t` of the first layer's output is row `5000 t + r` of the array. -/
theorem blkH_apply (c : Dev nD) (t : Fin cfg1.N) (r : Fin 5000) (k : Fin 128) :
    blkH V c t (ix2 r k) = arrH V c (ix2 (Spec.tileRow (tile t) r) k) := by
  have hi := index1_2 t
  show iblk1 V c 2 t (ix2 r k) = _
  unfold iblk1
  rw [View.read_apply]
  show V c main_v23 _ = V c main_v23 _
  congr 1
  funext a
  apply Fin.ext
  match a with
  | ⟨0, _⟩ => show win1_2.index t 0 * 5000 + 1 * r.val = 5000 * t.val + r.val; rw [hi.1]; omega
  | ⟨1, _⟩ => show win1_2.index t 1 * 128 + 1 * k.val = k.val; rw [hi.2]; omega

/-- Row `r` of tile `t` of the graph ids is row `5000 t + r` of the array. -/
theorem blkIds_apply (c : Dev nD) (t : Fin cfg1.N) (r : Fin 5000) (k : Fin 1) :
    blkIds V c t (ix2 r k) = arrIds V c (ix2 (Spec.tileRow (tile t) r) k) := by
  have hi := index1_5 t
  show iblk1 V c 5 t (ix2 r k) = _
  unfold iblk1
  rw [View.read_apply]
  show V c main_v4 _ = V c main_v4 _
  congr 1
  funext a
  apply Fin.ext
  match a with
  | ⟨0, _⟩ => show win1_5.index t 0 * 5000 + 1 * r.val = 5000 * t.val + r.val; rw [hi.1]; omega
  | ⟨1, _⟩ => show win1_5.index t 1 * 1 + 1 * k.val = k.val; rw [hi.2]; omega

/-- The stacked weights' block is the whole array. -/
theorem blkW_eq (c : Dev nD) (t : Fin cfg1.N) : blkW V c t = arrW V c := by
  have hi := index1_3 t
  funext y
  show iblk1 V c 3 t y = _
  unfold iblk1
  rw [View.read_apply]
  show V c main_v36 _ = V c main_v36 y
  congr 1
  funext a
  apply Fin.ext
  match a with
  | ⟨0, _⟩ => show win1_3.index t 0 * 256 + 1 * (y 0).val = (y 0).val; rw [hi.1]; omega
  | ⟨1, _⟩ => show win1_3.index t 1 * 128 + 1 * (y 1).val = (y 1).val; rw [hi.2]; omega

/-- The layer's bias block is the whole array. -/
theorem blkB_eq (c : Dev nD) (t : Fin cfg1.N) : blkB V c t = arrB V c := by
  have hi := index1_4 t
  funext y
  show iblk1 V c 4 t y = _
  unfold iblk1
  rw [View.read_apply]
  show V c main_arg7 _ = V c main_arg7 y
  congr 1
  funext a
  apply Fin.ext
  match a with
  | ⟨0, _⟩ => show win1_4.index t 0 * 128 + 1 * (y 0).val = (y 0).val; rw [hi]; omega

/-- The head's hidden weights' block is the whole array. -/
theorem blkW1_eq (c : Dev nD) (t : Fin cfg1.N) : blkW1 V c t = arrW1 V c := by
  have hi := index1_6 t
  funext y
  show iblk1 V c 6 t y = _
  unfold iblk1
  rw [View.read_apply]
  show V c main_v37 _ = V c main_v37 y
  congr 1
  funext a
  apply Fin.ext
  match a with
  | ⟨0, _⟩ => show win1_6.index t 0 * 128 + 1 * (y 0).val = (y 0).val; rw [hi.1]; omega
  | ⟨1, _⟩ => show win1_6.index t 1 * 128 + 1 * (y 1).val = (y 1).val; rw [hi.2]; omega

/-- The head's hidden bias block is the whole array. -/
theorem blkB1_eq (c : Dev nD) (t : Fin cfg1.N) : blkB1 V c t = arrB1 V c := by
  have hi := index1_7 t
  funext y
  show iblk1 V c 7 t y = _
  unfold iblk1
  rw [View.read_apply]
  show V c main_arg10 _ = V c main_arg10 y
  congr 1
  funext a
  apply Fin.ext
  match a with
  | ⟨0, _⟩ => show win1_7.index t 0 * 128 + 1 * (y 0).val = (y 0).val; rw [hi]; omega

/-- The head's output weights' block is the whole array. -/
theorem blkW2_eq (c : Dev nD) (t : Fin cfg1.N) : blkW2 V c t = arrW2 V c := by
  have hi := index1_8 t
  funext y
  show iblk1 V c 8 t y = _
  unfold iblk1
  rw [View.read_apply]
  show V c main_v38 _ = V c main_v38 y
  congr 1
  funext a
  apply Fin.ext
  match a with
  | ⟨0, _⟩ => show win1_8.index t 0 * 128 + 1 * (y 0).val = (y 0).val; rw [hi.1]; omega
  | ⟨1, _⟩ => show win1_8.index t 1 * 1 + 1 * (y 1).val = (y 1).val; rw [hi.2]; omega

/-- The head's output bias block is the whole array. -/
theorem blkB2_eq (c : Dev nD) (t : Fin cfg1.N) : blkB2 V c t = arrB2 V c := by
  have hi := index1_9 t
  funext y
  show iblk1 V c 9 t y = _
  unfold iblk1
  rw [View.read_apply]
  show V c main_arg12 _ = V c main_arg12 y
  congr 1
  funext a
  apply Fin.ext
  match a with
  | ⟨0, _⟩ => show win1_9.index t 0 * 1 + 1 * (y 0).val = (y 0).val; rw [hi]; omega

/-! ## The layer on a tile is the layer on the array's rows -/

/-- The second layer's output at node n, feature j, from the region's entry contents (it is never materialised: each tile computes its rows). -/
def h2 (c : Dev nD) (n : Fin 50000) (j : Fin 128) : EReal :=
  max ((∑ k : Fin 256, Spec.stackedRow (fun k => Ideal.div ((V c main_v33 : S50000x128.Idx → EReal) (ix2 n k)) (max ((V c main_v9 : S50000x1.Idx → EReal) (ix2 n (0 : Fin 1))) Spec.one)) (fun k => (V c main_v23 : S50000x128.Idx → EReal) (ix2 n k)) k * (V c main_v36 : S256x128.Idx → EReal) (ix2 k j)) + (V c main_arg7 : S128.Idx → EReal) (ix1 j)) Spec.zero
/-- The graph id words, node by node. -/
def ids (c : Dev nD) (n : Fin 50000) : BitVec 32 := (V c main_v4 : S50000x1.Idx → BitVec 32) (ix2 n (0 : Fin 1))

/-- Row `r` of tile `t`'s layer is node `5000 t + r`'s. -/
theorem rowOut_blk (c : Dev nD) (t : Fin cfg1.N) (r : Fin 5000) (j : Fin 128) :
    rowOut (blkAgg V c t) (blkDeg V c t) (blkH V c t) (blkW V c t) (blkB V c t) r j = h2 V c (Spec.tileRow (tile t) r) j := by
  unfold rowOut h2
  rw [blkW_eq, blkB_eq]
  have e1 : (fun k : Fin 128 => Ideal.div (blkAgg V c t (ix2 r k)) (max (blkDeg V c t (ix2 r (0 : Fin 1))) Spec.one))
      = fun k : Fin 128 => Ideal.div (arrAgg V c (ix2 (Spec.tileRow (tile t) r) k)) (max (arrDeg V c (ix2 (Spec.tileRow (tile t) r) (0 : Fin 1))) Spec.one) :=
    funext fun k => by rw [blkAgg_apply, blkDeg_apply]
  have e2 : (fun k : Fin 128 => blkH V c t (ix2 r k)) = fun k : Fin 128 => arrH V c (ix2 (Spec.tileRow (tile t) r) k) :=
    funext fun k => blkH_apply V c t r k
  rw [e1, e2]

/-- Row `r` of tile `t`'s graph id is node `5000 t + r`'s. -/
theorem ids_blk (c : Dev nD) (t : Fin cfg1.N) (r : Fin 5000) :
    blkIds V c t (ix2 r (0 : Fin 1)) = ids V c (Spec.tileRow (tile t) r) :=
  blkIds_apply V c t r 0

/-! ## One point's add to the running sums -/

/-- The pooled sums after point `t` over `xs0`: what was there plus the tile's weighted rows. -/
theorem pool_step (c : Dev nD) (t : Fin cfg1.N) (xs0 : Vec Ideal S64x128 .f32) (g : Fin 64) (j : Fin 128) :
    k1_pay1 (k1_pay8 (blkAgg V c t) (blkDeg V c t) (blkH V c t) (blkW V c t) (blkB V c t) (blkIds V c t) xs0) (ix2 g j)
      = xs0 (ix2 g j) + Spec.tileSum (h2 V c) (ids V c) (tile t) g j := by
  rw [k1_pay1_eq, k1_pay8_apply]
  unfold Spec.tileSum
  refine congrArg (fun s => xs0 (ix2 g j) + s) (Finset.sum_congr rfl fun r _ => ?_)
  rw [ids_blk, rowOut_blk]

/-- The counts after point `t` over `xs1`: what was there plus the tile's weights. -/
theorem count_step (c : Dev nD) (t : Fin cfg1.N) (xs1 : Vec Ideal S64x1 .f32) (g : Fin 64) :
    k1_pay2 (k1_pay6 (blkIds V c t)) k1_pay7 xs1 (ix2 g (0 : Fin 1))
      = xs1 (ix2 g (0 : Fin 1)) + Spec.tileCount (ids V c) (tile t) g := by
  rw [k1_pay2_apply]
  unfold Spec.tileCount
  refine congrArg (fun s => xs1 (ix2 g (0 : Fin 1)) + s) (Finset.sum_congr rfl fun r _ => ?_)
  rw [ids_blk]

/-! ## The running sums, by induction on the point -/

/-- After point `n` the two accumulators hold the running sums of the tiles `0 … n`. -/
theorem outsAt1_eq (c : Dev nD) : ∀ (n : ℕ) (hn : n < cfg1.N),
    (∀ (g : Fin 64) (j : Fin 128), (outsAt1 V c n hn).1 (ix2 g j) = Spec.accSum (h2 V c) (ids V c) n g j)
    ∧ (∀ g : Fin 64, (outsAt1 V c n hn).2 (ix2 g (0 : Fin 1)) = Spec.accCount (ids V c) n g)
  | 0, hn => by
    have e := outsAt1_A V c ⟨0, hn⟩ rfl (show (0 : ℕ) ≠ 9 by decide)
    constructor
    · intro g j
      rw [show outsAt1 V c 0 hn = _ from e]
      dsimp only
      refine (congrFun (sout1_A_0_eq (F := Ideal) c ⟨0, hn⟩ (isFirst _ rfl) (notLast _ (show (0 : ℕ) ≠ 9 by decide))
        (blkAgg V c ⟨0, hn⟩) (blkDeg V c ⟨0, hn⟩) (blkH V c ⟨0, hn⟩) (blkW V c ⟨0, hn⟩) (blkB V c ⟨0, hn⟩) (blkIds V c ⟨0, hn⟩)
        (blkW1 V c ⟨0, hn⟩) (blkB1 V c ⟨0, hn⟩) (blkW2 V c ⟨0, hn⟩) (blkB2 V c ⟨0, hn⟩)) (ix2 g j)).trans ?_
      rw [pool_step, k1_pay4_apply]
      rfl
    · intro g
      rw [show outsAt1 V c 0 hn = _ from e]
      dsimp only
      refine (congrFun (sout1_A_1_eq (F := Ideal) c ⟨0, hn⟩ (isFirst _ rfl) (notLast _ (show (0 : ℕ) ≠ 9 by decide))
        (blkAgg V c ⟨0, hn⟩) (blkDeg V c ⟨0, hn⟩) (blkH V c ⟨0, hn⟩) (blkW V c ⟨0, hn⟩) (blkB V c ⟨0, hn⟩) (blkIds V c ⟨0, hn⟩)
        (blkW1 V c ⟨0, hn⟩) (blkB1 V c ⟨0, hn⟩) (blkW2 V c ⟨0, hn⟩) (blkB2 V c ⟨0, hn⟩)) (ix2 g (0 : Fin 1))).trans ?_
      rw [count_step, k1_pay5_apply]
      rfl
  | n + 1, hn => by
    have hN : cfg1.N = 10 := N_1
    have ih := outsAt1_eq c n (Nat.lt_of_succ_lt hn)
    have hlt : n + 1 < 10 := by omega
    by_cases h9 : n + 1 = 9
    · have e := outsAt1_C V c ⟨n + 1, hn⟩ (Nat.succ_ne_zero n) h9
      constructor
      · intro g j
        rw [show outsAt1 V c (n + 1) hn = _ from e]
        dsimp only
        refine (congrFun (sout1_C_0_eq (F := Ideal) c ⟨n + 1, hn⟩ (notFirst _ (Nat.succ_ne_zero n)) (isLast _ h9)
          (blkAgg V c ⟨n + 1, hn⟩) (blkDeg V c ⟨n + 1, hn⟩) (blkH V c ⟨n + 1, hn⟩) (blkW V c ⟨n + 1, hn⟩) (blkB V c ⟨n + 1, hn⟩) (blkIds V c ⟨n + 1, hn⟩)
          (blkW1 V c ⟨n + 1, hn⟩) (blkB1 V c ⟨n + 1, hn⟩) (blkW2 V c ⟨n + 1, hn⟩) (blkB2 V c ⟨n + 1, hn⟩)
          (outsAt1 V c n (Nat.lt_of_succ_lt hn)).1 (outsAt1 V c n (Nat.lt_of_succ_lt hn)).2) (ix2 g j)).trans ?_
        rw [pool_step, ih.1 g j]
        show _ = Spec.accSum (h2 V c) (ids V c) n g j + (if ht : n + 1 < 10 then Spec.tileSum (h2 V c) (ids V c) ⟨n + 1, ht⟩ g j else 0)
        rw [dif_pos hlt]
      · intro g
        rw [show outsAt1 V c (n + 1) hn = _ from e]
        dsimp only
        refine (congrFun (sout1_C_1_eq (F := Ideal) c ⟨n + 1, hn⟩ (notFirst _ (Nat.succ_ne_zero n)) (isLast _ h9)
          (blkAgg V c ⟨n + 1, hn⟩) (blkDeg V c ⟨n + 1, hn⟩) (blkH V c ⟨n + 1, hn⟩) (blkW V c ⟨n + 1, hn⟩) (blkB V c ⟨n + 1, hn⟩) (blkIds V c ⟨n + 1, hn⟩)
          (blkW1 V c ⟨n + 1, hn⟩) (blkB1 V c ⟨n + 1, hn⟩) (blkW2 V c ⟨n + 1, hn⟩) (blkB2 V c ⟨n + 1, hn⟩)
          (outsAt1 V c n (Nat.lt_of_succ_lt hn)).1 (outsAt1 V c n (Nat.lt_of_succ_lt hn)).2) (ix2 g (0 : Fin 1))).trans ?_
        rw [count_step, ih.2 g]
        show _ = Spec.accCount (ids V c) n g + (if ht : n + 1 < 10 then Spec.tileCount (ids V c) ⟨n + 1, ht⟩ g else 0)
        rw [dif_pos hlt]
    · have e := outsAt1_B V c ⟨n + 1, hn⟩ (Nat.succ_ne_zero n) h9
      constructor
      · intro g j
        rw [show outsAt1 V c (n + 1) hn = _ from e]
        dsimp only
        refine (congrFun (sout1_B_0_eq (F := Ideal) c ⟨n + 1, hn⟩ (notFirst _ (Nat.succ_ne_zero n)) (notLast _ h9)
          (blkAgg V c ⟨n + 1, hn⟩) (blkDeg V c ⟨n + 1, hn⟩) (blkH V c ⟨n + 1, hn⟩) (blkW V c ⟨n + 1, hn⟩) (blkB V c ⟨n + 1, hn⟩) (blkIds V c ⟨n + 1, hn⟩)
          (blkW1 V c ⟨n + 1, hn⟩) (blkB1 V c ⟨n + 1, hn⟩) (blkW2 V c ⟨n + 1, hn⟩) (blkB2 V c ⟨n + 1, hn⟩)
          (outsAt1 V c n (Nat.lt_of_succ_lt hn)).1 (outsAt1 V c n (Nat.lt_of_succ_lt hn)).2) (ix2 g j)).trans ?_
        rw [pool_step, ih.1 g j]
        show _ = Spec.accSum (h2 V c) (ids V c) n g j + (if ht : n + 1 < 10 then Spec.tileSum (h2 V c) (ids V c) ⟨n + 1, ht⟩ g j else 0)
        rw [dif_pos hlt]
      · intro g
        rw [show outsAt1 V c (n + 1) hn = _ from e]
        dsimp only
        refine (congrFun (sout1_B_1_eq (F := Ideal) c ⟨n + 1, hn⟩ (notFirst _ (Nat.succ_ne_zero n)) (notLast _ h9)
          (blkAgg V c ⟨n + 1, hn⟩) (blkDeg V c ⟨n + 1, hn⟩) (blkH V c ⟨n + 1, hn⟩) (blkW V c ⟨n + 1, hn⟩) (blkB V c ⟨n + 1, hn⟩) (blkIds V c ⟨n + 1, hn⟩)
          (blkW1 V c ⟨n + 1, hn⟩) (blkB1 V c ⟨n + 1, hn⟩) (blkW2 V c ⟨n + 1, hn⟩) (blkB2 V c ⟨n + 1, hn⟩)
          (outsAt1 V c n (Nat.lt_of_succ_lt hn)).1 (outsAt1 V c n (Nat.lt_of_succ_lt hn)).2) (ix2 g (0 : Fin 1))).trans ?_
        rw [count_step, ih.2 g]
        show _ = Spec.accCount (ids V c) n g + (if ht : n + 1 < 10 then Spec.tileCount (ids V c) ⟨n + 1, ht⟩ g else 0)
        rw [dif_pos hlt]

/-! ## The result array -/

/-- The one write-back, at the last point, writes the head's result: the output window's one block, read through zero
    offsets, is the whole array. -/
theorem flushed_eq (c : Dev nD) (t : Fin cfg1.N) (hf : (cfg1.win 10).flush t = true) :
    (dat1 V c).flushed 10 t = ((cfg1.win 10).blk t).view.read (Elt Ideal) (outFinal V c) := by
  have h9 : t.val = 9 := by have := (flush1_10 t).mp hf; have := lt10 t; omega
  obtain rfl : t = t9 := Fin.ext h9
  show (cfg1.win 10).cut (grid1.coords t9) ((dat1 V c).after 10 t9) = _
  rw [after1_10]
  have hz' : (fun a => win1_10.index t9 a * main_v39.ty.shape.size a) = fun _ => 0 :=
    funext fun a => by fin_cases a <;> decide +kernel
  exact (Memref.read_access_unit_zero (Elt Ideal) main_v39 hz' (fun a => by rw [congrFun hz' a]; simp) (outFinal V c)).symm

/-- So the result array ends holding the head's result: the last point's block covers it. -/
theorem region1_arr (c : Dev nD) : (dat1 V c).arrAt 10 cfg1.N = outFinal V c :=
  (dat1 V c).arrAt_eq_of_cover 10 (outFinal V c) (flushed_eq V c) fun i =>
    ⟨t9, (flush1_10 t9).mpr (by decide), by
      show i ∈ ((View.whole main_v39).slice (win1_10.rect t9)).set
      rw [View.set_slice_whole, Rect.mem_set_unit]
      intro a
      have h0 : (i 0 : Nat) < 64 := (i 0).isLt
      match a with
      | ⟨0, _⟩ =>
        show win1_10.index t9 0 * win1_10.size 0 ≤ (i 0 : Nat) ∧ (i 0 : Nat) < win1_10.index t9 0 * win1_10.size 0 + win1_10.xsize (grid1.coords t9) 0
        rw [show win1_10.index t9 0 * win1_10.size 0 = 0 from by decide +kernel, show win1_10.xsize (grid1.coords t9) 0 = 64 from by decide +kernel]
        omega⟩

theorem region1_value (c : Dev nD) :
    ((dat1 (F := Ideal) V c).arrAt 10 cfg1.N : S64.Idx → EReal)
      = Spec.toVec (Spec.head (Spec.accSum (h2 V c) (ids V c) 9) (Spec.accCount (ids V c) 9)
          (fun k j => (V c main_v37 : S128x128.Idx → EReal) (ix2 j k)) (fun k => (V c main_arg10 : S128.Idx → EReal) (ix1 k))
          (fun k => (V c main_v38 : S128x1.Idx → EReal) (ix2 k (0 : Fin 1))) ((V c main_arg12 : S1.Idx → EReal) (ix1 (0 : Fin 1)))) := by
  refine (region1_arr V c).trans ?_
  have hN : cfg1.N = 10 := N_1
  have h8 : 8 < cfg1.N := by omega
  have ih := outsAt1_eq V c 8 h8
  funext i
  obtain ⟨g, rfl⟩ : ∃ g : Fin 64, i = ix1 g := ⟨i 0, eq_ix1 i⟩
  rw [Spec.toVec_ix1]
  unfold outFinal
  refine (congrFun (out1_C_10_eq (F := Ideal) c t9 (notFirst t9 (by decide)) (isLast t9 rfl)
    (blkAgg V c t9) (blkDeg V c t9) (blkH V c t9) (blkW V c t9) (blkB V c t9) (blkIds V c t9)
    (blkW1 V c t9) (blkB1 V c t9) (blkW2 V c t9) (blkB2 V c t9)
    (outsAt1 V c 8 h8).1 (outsAt1 V c 8 h8).2) (ix1 g)).trans ?_
  rw [k1_pay3_apply, blkW1_eq, blkB1_eq, blkW2_eq, blkB2_eq]
  have e1 : (fun (g : Fin 64) (j : Fin 128) =>
        k1_pay1 (k1_pay8 (blkAgg V c t9) (blkDeg V c t9) (blkH V c t9) (blkW V c t9) (blkB V c t9) (blkIds V c t9) (outsAt1 V c 8 h8).1) (ix2 g j))
      = Spec.accSum (h2 V c) (ids V c) 9 := funext fun g => funext fun j => by
    rw [pool_step, ih.1 g j]
    show _ = Spec.accSum (h2 V c) (ids V c) 8 g j + (if ht : 8 + 1 < 10 then Spec.tileSum (h2 V c) (ids V c) ⟨8 + 1, ht⟩ g j else 0)
    rw [dif_pos (by decide)]
    rfl
  have e2 : (fun g : Fin 64 => k1_pay2 (k1_pay6 (blkIds V c t9)) k1_pay7 (outsAt1 V c 8 h8).2 (ix2 g (0 : Fin 1)))
      = Spec.accCount (ids V c) 9 := funext fun g => by
    rw [count_step, ih.2 g]
    show _ = Spec.accCount (ids V c) 8 g + (if ht : 8 + 1 < 10 then Spec.tileCount (ids V c) ⟨8 + 1, ht⟩ g else 0)
    rw [dif_pos (by decide)]
    rfl
  rw [e1, e2]

end Cert.KernelIdeal.PoolValue

end
-- ==== Proof.HostValue.lean ====
/-
  What the host operations of the kernel's program write into the arrays its two regions are called with, for an
  arbitrary valuation of the buffers they start from.

  Before the first region: the edge list's two rows (sources, targets), the in-degree as a column (ones
  scattered-added onto the targets, from zeros), the graph ids as a column, the neighbour sum of the input features
  (the source rows gathered, negative sources wrapped by the node count, scattered-added onto the targets, from
  zeros), and the two layer-1 weight matrices transposed and stacked along the contraction. Before the second
  region: the same neighbour sum at the first region's result, the two layer-2 weight matrices transposed and
  stacked, and the head's two weight matrices transposed. The edge list's gather and scatter are named, never
  opened; the transposes, the stack and the columns are read at an index.
-/
import proofs.«409417_j75368086110725_2_alg».proof.Proof.Gen.KernelIdeal.Launch
import proofs.«409417_j75368086110725_2_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostValue

open Idealize.ShloMosaic Idealize.ShloMosaic.ValueIdx Idealize.ShloMosaic.TcCoe Cert.KernelIdeal Cert.KernelIdeal.Gen

/-! ## The edge list's opaque functions -/

/-- The edges' sources: row 0 of the edge list, as a vector. -/
def srcOf (ei : IVec S2x600000 32) : IVec S600000 32 :=
  shapeCast S600000 (extractStridedSlice S1x600000 ![0, 0] ei slices_S2x600000_S1x600000_0_0) shapeCasts_S1x600000_S600000

/-- The edges' targets: row 1 of the edge list, as a vector. -/
def dstOf (ei : IVec S2x600000 32) : IVec S600000 32 :=
  shapeCast S600000 (extractStridedSlice S1x600000 ![1, 0] ei slices_S2x600000_S1x600000_1_0) shapeCasts_S1x600000_S600000

/-- The in-degree of every node: ones scattered-added onto the targets, from zeros. OPAQUE, never read at an index. -/
def degOf (dst : IVec S600000 32) : FVec Ideal S50000 .f32 :=
  Host.scatterAdd scatter_S50000_S600000x1_S600000_n_0_0_1
    (broadcastInDim S50000 ![] bcast_S_S50000 (constant (F := Ideal) S_ .f32 0x00000000#32))
    (broadcastInDim S600000x1 ![0] bcast_S600000_S600000x1_0 dst)
    (broadcastInDim S600000 ![] bcast_S_S600000 (constant (F := Ideal) S_ .f32 0x3F800000#32))

/-- The neighbour sum of a feature matrix: the source rows gathered (a negative source wrapped by the node count),
    scattered-added onto the targets, from zeros. OPAQUE, never read at an index. -/
def nbrOf (src dst : IVec S600000 32) (h : FVec Ideal S50000x128 .f32) : FVec Ideal S50000x128 .f32 :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (Host.gather gather_S50000x128_S600000x1_S600000x128_1_0_n_n_0_1_1128 h
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 50000#32)))
          src)))

/-! ## The arrays the first region is called with -/

/-- The sources' buffer holds row 0 of the edge list. -/
theorem after0_v1 (W : Valuation τ sig (Elt Ideal)) :
    (StableHlo.after hostOps0 W (Proc.devRef .tc main_v1) : IVec S600000 32) = srcOf (W (Proc.devRef .tc main_arg1)) := by
  after_results; rfl

/-- The targets' buffer holds row 1 of the edge list. -/
theorem after0_v3 (W : Valuation τ sig (Elt Ideal)) :
    (StableHlo.after hostOps0 W (Proc.devRef .tc main_v3) : IVec S600000 32) = dstOf (W (Proc.devRef .tc main_arg1)) := by
  after_results; rfl

/-- The graph ids as a column. -/
theorem after0_v4 (W : Valuation τ sig (Elt Ideal)) :
    (StableHlo.after hostOps0 W (Proc.devRef .tc main_v4) : IVec S50000x1 32)
      = shapeCast S50000x1 (W (Proc.devRef .tc main_arg2)) shapeCasts_S50000_S50000x1 := by
  after_results; rfl

/-- The in-degree as a column. -/
theorem after0_v9 (W : Valuation τ sig (Elt Ideal)) :
    (StableHlo.after hostOps0 W (Proc.devRef .tc main_v9) : FVec Ideal S50000x1 .f32)
      = shapeCast S50000x1 (degOf (dstOf (W (Proc.devRef .tc main_arg1)))) shapeCasts_S50000_S50000x1 := by
  after_results; rfl

/-- The neighbour sum of the input features. -/
theorem after0_v19 (W : Valuation τ sig (Elt Ideal)) :
    (StableHlo.after hostOps0 W (Proc.devRef .tc main_v19) : FVec Ideal S50000x128 .f32)
      = nbrOf (srcOf (W (Proc.devRef .tc main_arg1))) (dstOf (W (Proc.devRef .tc main_arg1))) (W (Proc.devRef .tc main_arg0)) := by
  after_results_simp; rfl

/-- The first layer's two weight matrices, transposed and stacked. -/
theorem after0_v22 (W : Valuation τ sig (Elt Ideal)) :
    (StableHlo.after hostOps0 W (Proc.devRef .tc main_v22) : FVec Ideal S256x128 .f32)
      = concatenate S256x128 0
          [⟨S128x128, transpose S128x128 [1, 0] (W (Proc.devRef .tc main_arg3)) transposes_S128x128_S128x128_1_0⟩,
           ⟨S128x128, transpose S128x128 [1, 0] (W (Proc.devRef .tc main_arg5)) transposes_S128x128_S128x128_1_0⟩]
          concatenates_S128x128_S128x128_S256x128_d0 := by
  after_results

/-! ## The arrays the second region is called with -/

/-- The neighbour sum of the first region's result: the same function of the same sources and targets. -/
theorem after1_v33 (W : Valuation τ sig (Elt Ideal)) :
    (StableHlo.after hostOps1 W (Proc.devRef .tc main_v33) : FVec Ideal S50000x128 .f32)
      = nbrOf (W (Proc.devRef .tc main_v1)) (W (Proc.devRef .tc main_v3)) (W (Proc.devRef .tc main_v23)) := by
  after_results; rfl

/-- The second layer's two weight matrices, transposed and stacked. -/
theorem after1_v36 (W : Valuation τ sig (Elt Ideal)) :
    (StableHlo.after hostOps1 W (Proc.devRef .tc main_v36) : FVec Ideal S256x128 .f32)
      = concatenate S256x128 0
          [⟨S128x128, transpose S128x128 [1, 0] (W (Proc.devRef .tc main_arg6)) transposes_S128x128_S128x128_1_0⟩,
           ⟨S128x128, transpose S128x128 [1, 0] (W (Proc.devRef .tc main_arg8)) transposes_S128x128_S128x128_1_0⟩]
          concatenates_S128x128_S128x128_S256x128_d0 := by
  after_results

/-- The head's first weight matrix, transposed. -/
theorem after1_v37 (W : Valuation τ sig (Elt Ideal)) :
    (StableHlo.after hostOps1 W (Proc.devRef .tc main_v37) : FVec Ideal S128x128 .f32)
      = transpose S128x128 [1, 0] (W (Proc.devRef .tc main_arg9)) transposes_S128x128_S128x128_1_0 := by
  after_results

/-- The head's second weight, a row, transposed to a column. -/
theorem after1_v38 (W : Valuation τ sig (Elt Ideal)) :
    (StableHlo.after hostOps1 W (Proc.devRef .tc main_v38) : FVec Ideal S128x1 .f32)
      = transpose S128x1 [1, 0] (W (Proc.devRef .tc main_arg11)) transposes_S1x128_S128x1_1_0 := by
  after_results

/-! ## The layout operations read at an index -/

/-- A square matrix transposed reads, at `(j, k)`, the matrix at `(k, j)`. -/
theorem transpose_sq_apply (w : FVec Ideal S128x128 .f32) (j k : Fin 128) :
    transpose S128x128 [1, 0] w transposes_S128x128_S128x128_1_0 (ix2 j k) = w (ix2 k j) :=
  transpose_ix2_apply w transposes_S128x128_S128x128_1_0 j k

/-- A row transposed to a column reads, at `(k, 0)`, the row at `(0, k)`. -/
theorem transpose_row_apply (w : FVec Ideal S1x128 .f32) (k : Fin 128) :
    transpose S128x1 [1, 0] w transposes_S1x128_S128x1_1_0 (ix2 k (0 : Fin 1)) = w (ix2 (0 : Fin 1) k) :=
  transpose_ix2_apply w transposes_S1x128_S128x1_1_0 k (0 : Fin 1)

/-- A vector cast to a column reads, at `(n, 0)`, the vector at `n`: the two row-major positions are `n` and `n · 1 + 0`. -/
theorem col_apply {e : Type} (v : S50000.Idx → e) (n : Fin 50000) :
    shapeCast S50000x1 v shapeCasts_S50000_S50000x1 (ix2 n (0 : Fin 1)) = v (ix1 n) :=
  shapeCast_apply v shapeCasts_S50000_S50000x1 _ _ (by
    rw [Shape.rowMajor_val_one, Shape.rowMajor_val_two]
    show n.val = n.val * 1 + 0
    omega)

/-- The two transposed weight matrices stacked along the contraction read as the specification's stacked weights:
    row `k < 128` of the stack is column `k` of the first matrix, row `k ≥ 128` column `k − 128` of the second. -/
theorem stackedW_apply (Wl Wr : FVec Ideal S128x128 .f32) (k : Fin 256) (j : Fin 128) :
    concatenate S256x128 0
        [⟨S128x128, transpose S128x128 [1, 0] Wl transposes_S128x128_S128x128_1_0⟩,
         ⟨S128x128, transpose S128x128 [1, 0] Wr transposes_S128x128_S128x128_1_0⟩]
        concatenates_S128x128_S128x128_S256x128_d0 (ix2 k j)
      = Spec.stackedW (Spec.ofMat Wl) (Spec.ofMat Wr) k j := by
  unfold Spec.stackedW
  by_cases hk : k.val < 128
  · rw [dif_pos hk]
    refine (concatenate_pair_apply_left (t := S256x128) (s₁ := S128x128) (s₂ := S128x128) (0 : Fin 2) _ _
      concatenates_S128x128_S128x128_S256x128_d0 (ix2 k j) rfl
      (ix2 (⟨k.val, hk⟩ : Fin 128) j) (fun b => by match b with | ⟨0, _⟩ => rfl | ⟨1, _⟩ => rfl)).trans ?_
    exact transpose_sq_apply Wl ⟨k.val, hk⟩ j
  · rw [dif_neg hk]
    refine (concatenate_pair_apply_right (t := S256x128) (s₁ := S128x128) (s₂ := S128x128) (0 : Fin 2) _ _
      concatenates_S128x128_S128x128_S256x128_d0 (ix2 k j) rfl rfl
      (ix2 (⟨k.val - 128, by omega⟩ : Fin 128) j)
      (fun b hb => by match b, hb with | ⟨0, _⟩, hb => exact absurd rfl hb | ⟨1, _⟩, _ => rfl)
      (by show k.val - 128 + 128 = k.val; omega)).trans ?_
    exact transpose_sq_apply Wr ⟨k.val - 128, by omega⟩ j

end Cert.KernelIdeal.HostValue

end
-- ==== Proof.BoundaryValues.lean ====
/-
  What the arrays of the two regions hold when each region is entered, read back through @main to the launch memory.
  A host stretch leaves a buffer it does not write as it was and puts in a buffer it writes what its operations say
  of the buffers it started from; the first region leaves its output array at what its write-backs make, its input
  arrays and every other buffer as it found them. So each array a region is called with is either a launched
  argument, a layout operation (a transpose, a stacking, a column) of launched arguments, or the edge list's
  neighbour sum and in-degree of the launched features or of the first layer's output.
-/
import proofs.«409417_j75368086110725_2_alg».proof.Proof.Run
import proofs.«409417_j75368086110725_2_alg».proof.Proof.HostValue

set_option maxRecDepth 16384

noncomputable section

namespace Cert.KernelIdeal.Boundary

open Idealize.ShloMosaic Idealize.ShloMosaic.ValueIdx Idealize.ShloMosaic.TcCoe Cert.KernelIdeal Cert.KernelIdeal.Gen Cert.KernelIdeal.Frame Cert.KernelIdeal.HostValue

variable (m : (ℓ : Loc nD τ sig) → Buf (Elt Ideal) ℓ) (c : Dev nD)

/-! ## Buffers that keep their launch contents -/

/-- A buffer the first host stretch does not write holds its launch contents at the first region's entry. -/
theorem E1_launch (b : Ref sig .tc) (h0 : b ∉ hostOps0_W) : E1 m c b = m ((c : Thread nD τ).loc b) :=
  StableHlo.after_of_writes_sub hostOps0 _ hostOps0_writes h0

/-- A buffer that is no array of the first region and that the first stretch does not write still holds its launch
    contents when the first region is left. -/
theorem W2_launch (b : Ref sig .tc) (hne : ∀ w, Pipeline.arrRef spec0 w ≠ b) (h0 : b ∉ hostOps0_W) :
    W2 m c (Proc.devRef .tc b) = m ((c : Thread nD τ).loc b) :=
  (W2_of_ne m c b hne).trans (E1_launch m c b h0)

/-- If the second stretch does not write it either, it holds them at the second region's entry too. -/
theorem E3_launch (b : Ref sig .tc) (hne : ∀ w, Pipeline.arrRef spec0 w ≠ b) (h0 : b ∉ hostOps0_W) (h1 : b ∉ hostOps1_W) :
    E3 m c b = m ((c : Thread nD τ).loc b) :=
  (StableHlo.after_of_writes_sub hostOps1 _ hostOps1_writes h1).trans (W2_launch m c b hne h0)

/-! ## The first region's entry -/

/-- The neighbour sums: of the launched features, along the launched edge list. -/
theorem E1_v19 : E1 m c main_v19 = nbrOf (srcOf (m ((c : Thread nD τ).loc main_arg1))) (dstOf (m ((c : Thread nD τ).loc main_arg1))) (m ((c : Thread nD τ).loc main_arg0)) :=
  after0_v19 (W0 m c)

/-- The degrees, as a column: of the launched edge list's destinations. -/
theorem E1_v9 : E1 m c main_v9 = shapeCast S50000x1 (degOf (dstOf (m ((c : Thread nD τ).loc main_arg1)))) shapeCasts_S50000_S50000x1 :=
  after0_v9 (W0 m c)

/-- The features are the launched ones. -/
theorem E1_arg0 : E1 m c main_arg0 = m ((c : Thread nD τ).loc main_arg0) :=
  E1_launch m c main_arg0 (by decide)

/-- The stacked weights: the two launched weight matrices, each transposed, one above the other. -/
theorem E1_v22 : E1 m c main_v22 = concatenate S256x128 0 [⟨S128x128, transpose S128x128 [1, 0] (m ((c : Thread nD τ).loc main_arg3)) transposes_S128x128_S128x128_1_0⟩, ⟨S128x128, transpose S128x128 [1, 0] (m ((c : Thread nD τ).loc main_arg5)) transposes_S128x128_S128x128_1_0⟩] concatenates_S128x128_S128x128_S256x128_d0 :=
  after0_v22 (W0 m c)

/-- The bias is the launched one. -/
theorem E1_arg4 : E1 m c main_arg4 = m ((c : Thread nD τ).loc main_arg4) :=
  E1_launch m c main_arg4 (by decide)

/-! ## The second region's entry -/

/-- The source and destination lists are computed by the first stretch and touched by nothing after it. -/
theorem src_at_exit : W2 m c (Proc.devRef .tc main_v1) = srcOf (m ((c : Thread nD τ).loc main_arg1)) :=
  (W2_of_ne m c main_v1 (by decide)).trans (after0_v1 (W0 m c))
theorem dst_at_exit : W2 m c (Proc.devRef .tc main_v3) = dstOf (m ((c : Thread nD τ).loc main_arg1)) :=
  (W2_of_ne m c main_v3 (by decide)).trans (after0_v3 (W0 m c))

/-- The neighbour sum is a function of its three readings. -/
theorem nbrOf_congr {s s' : _} {d d' : _} {x x' : _} (hs : s = s') (hd : d = d') (hx : x = x') :
    nbrOf s d x = nbrOf s' d' x' := by
  subst hs hd hx; rfl

/-- The first layer's output array is what the first region's write-backs left; the second stretch does not write it. -/
theorem E3_v23 : E3 m c main_v23 = (dat0 (F := Ideal) (E1 m) c).arrAt 5 cfg0.N :=
  (StableHlo.after_of_writes_sub hostOps1 _ hostOps1_writes (show main_v23 ∉ hostOps1_W by decide)).trans (W2_arr m c 5)

/-- The second layer's neighbour sums: of the first layer's output, along the launched edge list. -/
theorem E3_v33 : E3 m c main_v33 = nbrOf (srcOf (m ((c : Thread nD τ).loc main_arg1))) (dstOf (m ((c : Thread nD τ).loc main_arg1))) ((dat0 (F := Ideal) (E1 m) c).arrAt 5 cfg0.N) :=
  (after1_v33 (W2 m c)).trans (nbrOf_congr (src_at_exit m c) (dst_at_exit m c) (W2_arr m c 5))

/-- The degrees' column is an input array of the first region, never written by it, and the second stretch does not
    write it: it is still what the first stretch computed. -/
theorem E3_v9 : E3 m c main_v9 = shapeCast S50000x1 (degOf (dstOf (m ((c : Thread nD τ).loc main_arg1)))) shapeCasts_S50000_S50000x1 :=
  calc E3 m c main_v9
    _ = W2 m c (Proc.devRef .tc main_v9) := StableHlo.after_of_writes_sub hostOps1 _ hostOps1_writes (show main_v9 ∉ hostOps1_W by decide)
    _ = E1 m c main_v9 := (W2_arr m c 1).trans (((dat0 (E1 m) c).arrAt_in 1 rfl _).trans (A_eq0 (E1 m) c 1))
    _ = _ := E1_v9 m c

/-- The second layer's stacked weights: its two launched weight matrices, each transposed, one above the other. -/
theorem E3_v36 : E3 m c main_v36 = concatenate S256x128 0 [⟨S128x128, transpose S128x128 [1, 0] (m ((c : Thread nD τ).loc main_arg6)) transposes_S128x128_S128x128_1_0⟩, ⟨S128x128, transpose S128x128 [1, 0] (m ((c : Thread nD τ).loc main_arg8)) transposes_S128x128_S128x128_1_0⟩] concatenates_S128x128_S128x128_S256x128_d0 :=
  (after1_v36 (W2 m c)).trans
    (congrArg₂ (fun a b : FVec Ideal S128x128 .f32 => concatenate S256x128 0 [⟨S128x128, transpose S128x128 [1, 0] (a) transposes_S128x128_S128x128_1_0⟩, ⟨S128x128, transpose S128x128 [1, 0] (b) transposes_S128x128_S128x128_1_0⟩] concatenates_S128x128_S128x128_S256x128_d0)
      (W2_launch m c main_arg6 (by decide) (by decide)) (W2_launch m c main_arg8 (by decide) (by decide)))

/-- The second layer's bias is the launched one. -/
theorem E3_arg7 : E3 m c main_arg7 = m ((c : Thread nD τ).loc main_arg7) :=
  E3_launch m c main_arg7 (by decide) (by decide) (by decide)

/-- The graph ids, as a column: the launched ones, reshaped by the first stretch and touched by nothing after it. -/
theorem E3_v4 : E3 m c main_v4 = shapeCast S50000x1 (m ((c : Thread nD τ).loc main_arg2)) shapeCasts_S50000_S50000x1 :=
  calc E3 m c main_v4
    _ = W2 m c (Proc.devRef .tc main_v4) := StableHlo.after_of_writes_sub hostOps1 _ hostOps1_writes (show main_v4 ∉ hostOps1_W by decide)
    _ = E1 m c main_v4 := W2_of_ne m c main_v4 (by decide)
    _ = _ := after0_v4 (W0 m c)

/-- The head's first weight matrix: the launched one, transposed. -/
theorem E3_v37 : E3 m c main_v37 = transpose S128x128 [1, 0] (m ((c : Thread nD τ).loc main_arg9)) transposes_S128x128_S128x128_1_0 :=
  (after1_v37 (W2 m c)).trans
    (congrArg (fun a : FVec Ideal S128x128 .f32 => transpose S128x128 [1, 0] a transposes_S128x128_S128x128_1_0)
      (W2_launch m c main_arg9 (by decide) (by decide)))

/-- The head's first bias is the launched one. -/
theorem E3_arg10 : E3 m c main_arg10 = m ((c : Thread nD τ).loc main_arg10) :=
  E3_launch m c main_arg10 (by decide) (by decide) (by decide)

/-- The head's second weight row, as a column: the launched one, transposed. -/
theorem E3_v38 : E3 m c main_v38 = transpose S128x1 [1, 0] (m ((c : Thread nD τ).loc main_arg11)) transposes_S1x128_S128x1_1_0 :=
  (after1_v38 (W2 m c)).trans
    (congrArg (fun a : FVec Ideal S1x128 .f32 => transpose S128x1 [1, 0] a transposes_S1x128_S128x1_1_0)
      (W2_launch m c main_arg11 (by decide) (by decide)))

/-- The head's second bias is the launched one. -/
theorem E3_arg12 : E3 m c main_arg12 = m ((c : Thread nD τ).loc main_arg12) :=
  E3_launch m c main_arg12 (by decide) (by decide) (by decide)

end Cert.KernelIdeal.Boundary

end
-- ==== Proof.LibSegment.lean ====
/-
  General lemmas: a segment sum written as a scatter-add, and two index gathers, read at one element
  (at the extended reals).

  `jax.ops.segment_sum(v, ids, num_segments = C)` lowers to a `stablehlo.scatter` with an `add` body over the
  ids as an `[N, 1]` index array: update row `n` lands on segment `ids[n]` (read signed; an id outside
  `[0, C)` is dropped). At the extended reals the result at segment `c` is the operand there plus the sum of the
  updates whose id is `c` — for a vector of updates (`scatterAdd_seg1`) and for a matrix of updates scattered by
  rows (`scatterAdd_seg2`). `x[idx]` for a vector `x : [N]` and `idx : [R]` lowers to a gather over the indices as
  `[R, 1]`: element `r` is `x` at `idx[r]` read signed and clamped into `[0, N − 1]` (`gather_take1_apply`).
  `jnp.take_along_axis(x, idx[:, None], axis = 1)` for `x : [R, C]` lowers to a gather batched over the rows with
  indices `[R, 1, 1]`: element `(r, 0)` is `x[r, ·]` at `idx[r]` read signed and clamped into `[0, C − 1]`
  (`gather_along_apply`).
-/
import Idealize.ShloMosaic.PureOps.Ideal
import Idealize.ShloMosaic.Lib.ValueIdx

noncomputable section

namespace Cert.LibSegment

open Idealize.ShloMosaic Idealize.ShloMosaic.ValueIdx

/-! ## Index sets, and when an update lands on an element -/

/-- A rank-1 index set is its one coordinate range. -/
def idxEquiv1 {n : Nat} : (⟨1, ![n]⟩ : Shape).Idx ≃ Fin n where
  toFun i := i 0
  invFun := ix1
  left_inv i := (eq_ix1 i).symm
  right_inv _ := rfl

/-- An update index lands on operand index `i` exactly when, on every operand axis, the signed start plus the
    window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split_ifs with h
  · rw [Option.some.injEq]
    constructor
    · intro e a
      rw [← e]
      have := h a
      simp only []
      omega
    · intro e
      funext a
      refine Fin.ext ?_
      have := e a
      simp only []
      omega
  · constructor
    · intro e; cases e
    · intro e
      refine absurd (fun a => ?_) h
      have := e a
      have := (i a).isLt
      omega

/-! ## Segment sums -/

/-- The scatter dimension numbers of a segment sum of a vector: operand `[C]`, ids `[N, 1]`, updates `[N]`. -/
abbrev segDims1 (N C : Nat) (wf : ScatterDims.WF ⟨1, ![C]⟩ ⟨2, ![N, 1]⟩ ⟨1, ![N]⟩ [] [0] [0] 1) :
    ScatterDims ⟨1, ![C]⟩ ⟨2, ![N, 1]⟩ ⟨1, ![N]⟩ where
  updateWindowDims := []
  insertedWindowDims := [0]
  scatterDimsToOperandDims := [0]
  indexVectorDim := 1
  wf := wf

/-- For a vector's segment sum the start of update `n` on the one operand axis is id `n` read signed. -/
theorem seg1_start {N C w : Nat} (wf : ScatterDims.WF ⟨1, ![C]⟩ ⟨2, ![N, 1]⟩ ⟨1, ![N]⟩ [] [0] [0] 1)
    (idx : IVec ⟨2, ![N, 1]⟩ w) (n : Fin N) :
    (segDims1 N C wf).start (ix1 n) idx 0 = (idx (ix2 n (0 : Fin 1))).toInt := by
  unfold ScatterDims.start
  rw [dif_pos (show (0 : Fin 1) ∈ (segDims1 N C wf).scatterDimsToOperandDims from List.mem_singleton.mpr rfl)]
  have hsi : (segDims1 N C wf).siIdx (ix1 n) ⟨List.idxOf (0 : Fin 1) (segDims1 N C wf).scatterDimsToOperandDims,
      List.idxOf_lt_length_iff.2 (List.mem_singleton.mpr rfl)⟩ = ix2 n (0 : Fin 1) := by
    funext b; refine Fin.ext ?_
    match b with
    | ⟨0, _⟩ => rfl
    | ⟨1, _⟩ => rfl
  rw [hsi]

/-- A vector's segment sum has no window axis: the window coordinate on the operand's axis is zero. -/
theorem seg1_window {N C : Nat} (wf : ScatterDims.WF ⟨1, ![C]⟩ ⟨2, ![N, 1]⟩ ⟨1, ![N]⟩ [] [0] [0] 1)
    (j : (⟨1, ![N]⟩ : Shape).Idx) : (segDims1 N C wf).window j 0 = 0 := by
  unfold ScatterDims.window
  rw [dif_neg]
  show (0 : Fin 1) ∉ (List.finRange 1).filter (· ∉ [(0 : Fin 1)])
  decide

/-- A segment sum of a vector, at segment `c`: the operand there plus the updates whose id is `c`. -/
theorem scatterAdd_seg1 {N C w : Nat} (wf : ScatterDims.WF ⟨1, ![C]⟩ ⟨2, ![N, 1]⟩ ⟨1, ![N]⟩ [] [0] [0] 1)
    (x : (⟨1, ![C]⟩ : Shape).Idx → EReal) (idx : IVec ⟨2, ![N, 1]⟩ w) (upd : (⟨1, ![N]⟩ : Shape).Idx → EReal) (c : Fin C) :
    Ideal.hostScatterAdd (segDims1 N C wf) x idx upd (ix1 c)
      = x (ix1 c) + ∑ n ∈ Finset.univ.filter (fun n : Fin N => (idx (ix2 n (0 : Fin 1))).toInt = (c.val : ℤ)), upd (ix1 n) := by
  unfold Ideal.hostScatterAdd
  congr 1
  refine (Finset.sum_equiv idxEquiv1.symm (fun n => ?_) (fun n _ => rfl)).symm
  rw [Finset.mem_filter, Finset.mem_filter, resultIdx?_eq_some_iff]
  simp only [Finset.mem_univ, true_and]
  show _ ↔ ∀ a, (segDims1 N C wf).start (ix1 n) idx a + ((segDims1 N C wf).window (ix1 n) a : ℤ) = (((ix1 c : (⟨1, ![C]⟩ : Shape).Idx) a).val : ℤ)
  rw [Fin.forall_fin_one, seg1_start, seg1_window]
  simp

/-- The scatter dimension numbers of a segment sum of a matrix by rows: operand `[C, B]`, ids `[N, 1]`, updates `[N, B]`. -/
abbrev segDims2 (N C B : Nat) (wf : ScatterDims.WF ⟨2, ![C, B]⟩ ⟨2, ![N, 1]⟩ ⟨2, ![N, B]⟩ [1] [0] [0] 1) :
    ScatterDims ⟨2, ![C, B]⟩ ⟨2, ![N, 1]⟩ ⟨2, ![N, B]⟩ where
  updateWindowDims := [1]
  insertedWindowDims := [0]
  scatterDimsToOperandDims := [0]
  indexVectorDim := 1
  wf := wf

section Seg2
variable {N C B w : Nat} (wf : ScatterDims.WF ⟨2, ![C, B]⟩ ⟨2, ![N, 1]⟩ ⟨2, ![N, B]⟩ [1] [0] [0] 1)
  (idx : IVec ⟨2, ![N, 1]⟩ w)

/-- For a matrix's segment sum by rows the start of update `(n, b')` on the segment axis is id `n` read signed. -/
theorem seg2_start0 (n : Fin N) (b' : Fin B) :
    (segDims2 N C B wf).start (ix2 n b') idx 0 = (idx (ix2 n (0 : Fin 1))).toInt := by
  unfold ScatterDims.start
  rw [dif_pos (show (0 : Fin 2) ∈ (segDims2 N C B wf).scatterDimsToOperandDims from List.mem_singleton.mpr rfl)]
  have hsi : (segDims2 N C B wf).siIdx (ix2 n b') ⟨List.idxOf (0 : Fin 2) (segDims2 N C B wf).scatterDimsToOperandDims,
      List.idxOf_lt_length_iff.2 (List.mem_singleton.mpr rfl)⟩ = ix2 n (0 : Fin 1) := by
    funext a; refine Fin.ext ?_
    match a with
    | ⟨0, _⟩ => rfl
    | ⟨1, _⟩ => rfl
  rw [hsi]

/-- The column axis is not a scattered axis: its start is zero. -/
theorem seg2_start1 (j : (⟨2, ![N, B]⟩ : Shape).Idx) : (segDims2 N C B wf).start j idx 1 = 0 := by
  unfold ScatterDims.start
  rw [dif_neg]
  show (1 : Fin 2) ∉ [(0 : Fin 2)]
  decide

/-- The segment axis is an inserted axis: its window coordinate is zero. -/
theorem seg2_window0 (j : (⟨2, ![N, B]⟩ : Shape).Idx) : (segDims2 N C B wf).window j 0 = 0 := by
  unfold ScatterDims.window
  rw [dif_neg]
  show (0 : Fin 2) ∉ (List.finRange 2).filter (· ∉ [(0 : Fin 2)])
  decide

/-- The column axis is the one window axis: its window coordinate is the update's column. -/
theorem seg2_window1 (n : Fin N) (b' : Fin B) : (segDims2 N C B wf).window (ix2 n b') 1 = b'.val := by
  unfold ScatterDims.window
  have h1 : (1 : Fin 2) ∈ (segDims2 N C B wf).sKept := by
    show (1 : Fin 2) ∈ (List.finRange 2).filter (· ∉ [(0 : Fin 2)])
    decide
  rw [dif_pos h1]
  rfl

/-- Update `(n, b')` lands on `(c, b)` exactly when id `n` read signed is `c` and the columns agree. -/
theorem seg2_resultIdx?_iff (n : Fin N) (b' : Fin B) (c : Fin C) (b : Fin B) :
    (segDims2 N C B wf).resultIdx? (ix2 n b') idx = some (ix2 c b)
      ↔ (idx (ix2 n (0 : Fin 1))).toInt = (c.val : ℤ) ∧ b' = b := by
  rw [resultIdx?_eq_some_iff, Fin.forall_fin_two]
  show (segDims2 N C B wf).start (ix2 n b') idx 0 + ((segDims2 N C B wf).window (ix2 n b') 0 : ℤ) = (c.val : ℤ) ∧
     (segDims2 N C B wf).start (ix2 n b') idx 1 + ((segDims2 N C B wf).window (ix2 n b') 1 : ℤ) = (b.val : ℤ) ↔ _
  rw [seg2_start0, seg2_start1, seg2_window0, seg2_window1, Fin.ext_iff]
  omega

end Seg2

/-- A segment sum of a matrix by rows, at segment `c` and column `b`: the operand there plus column `b` of the update
    rows whose id is `c`. -/
theorem scatterAdd_seg2 {N C B w : Nat} (wf : ScatterDims.WF ⟨2, ![C, B]⟩ ⟨2, ![N, 1]⟩ ⟨2, ![N, B]⟩ [1] [0] [0] 1)
    (x : (⟨2, ![C, B]⟩ : Shape).Idx → EReal) (idx : IVec ⟨2, ![N, 1]⟩ w) (upd : (⟨2, ![N, B]⟩ : Shape).Idx → EReal)
    (c : Fin C) (b : Fin B) :
    Ideal.hostScatterAdd (segDims2 N C B wf) x idx upd (ix2 c b)
      = x (ix2 c b) + ∑ n ∈ Finset.univ.filter (fun n : Fin N => (idx (ix2 n (0 : Fin 1))).toInt = (c.val : ℤ)), upd (ix2 n b) := by
  unfold Ideal.hostScatterAdd
  congr 1
  have key : ∀ j : (⟨2, ![N, B]⟩ : Shape).Idx, (segDims2 N C B wf).resultIdx? j idx = some (ix2 c b) →
      (idx (ix2 (idxEquiv2 j).1 (0 : Fin 1))).toInt = (c.val : ℤ) ∧ j = ix2 (idxEquiv2 j).1 b := by
    intro j hj
    obtain ⟨n, b', rfl⟩ : ∃ n b', j = ix2 n b' := ⟨_, _, eq_ix2 j⟩
    obtain ⟨h1, rfl⟩ := (seg2_resultIdx?_iff wf idx n b' c b).mp hj
    exact ⟨h1, rfl⟩
  refine Finset.sum_nbij' (fun j => (idxEquiv2 j).1) (fun n => ix2 n b) ?_ ?_ ?_ ?_ ?_
  · intro j hj
    rw [Finset.mem_filter] at hj ⊢
    exact ⟨Finset.mem_univ _, (key j hj.2).1⟩
  · intro n hn
    rw [Finset.mem_filter] at hn ⊢
    exact ⟨Finset.mem_univ _, (seg2_resultIdx?_iff wf idx n b c b).mpr ⟨hn.2, rfl⟩⟩
  · intro j hj
    rw [Finset.mem_filter] at hj
    exact (key j hj.2).2.symm
  · intro n _
    rfl
  · intro j hj
    rw [Finset.mem_filter] at hj
    exact congrArg upd (key j hj.2).2

/-! ## Index gathers -/

section Gather
variable {α : Type}

/-- The gather dimension numbers of `x[idx]` for `x : [N]`, `idx : [R]` given as `[R, 1]`. -/
abbrev takeDims1 (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- `x[idx]` at element `r`: `x` at `idx[r]` read signed and clamped into `[0, N − 1]`. -/
theorem gather_take1_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (takeDims1 N R wf) x idx (ix1 r) = x (ix1 ⟨min (idx (ix2 r (0 : Fin 1))).toInt.toNat (N - 1), by omega⟩) := by
  unfold Host.gather
  congr 1
  funext a
  obtain rfl : a = 0 := Subsingleton.elim _ _
  refine Fin.ext ?_
  show (takeDims1 N R wf).start (ix1 r) idx 0 + (takeDims1 N R wf).batchCoord (ix1 r) 0
    + (takeDims1 N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeDims1 N R wf).startIndexMap from List.mem_singleton.mpr rfl)]
  have hsi : (takeDims1 N R wf).siIdx (ix1 r) ⟨List.idxOf (0 : Fin 1) (takeDims1 N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- The gather dimension numbers of `take_along_axis(x, idx, axis = 1)` for `x : [R, C]`, `idx : [R, 1]` given as `[R, 1, 1]`. -/
abbrev alongDims (R C : Nat) (wf : GatherDims.WF ⟨2, ![R, C]⟩ ⟨3, ![R, 1, 1]⟩ ⟨2, ![R, 1]⟩ [] [1] [0] [1] [0] 2 ![1, 1]) :
    GatherDims ⟨2, ![R, C]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- `take_along_axis` at row `r`: row `r` of `x` at `idx[r]` read signed and clamped into `[0, C − 1]`. -/
theorem gather_along_apply {R C w : Nat} (hC : 0 < C)
    (wf : GatherDims.WF ⟨2, ![R, C]⟩ ⟨3, ![R, 1, 1]⟩ ⟨2, ![R, 1]⟩ [] [1] [0] [1] [0] 2 ![1, 1])
    (x : (⟨2, ![R, C]⟩ : Shape).Idx → α) (idx : IVec ⟨3, ![R, 1, 1]⟩ w) (r : Fin R) :
    Host.gather (alongDims R C wf) x idx (ix2 r (0 : Fin 1))
      = x (ix2 r ⟨min (idx (ix3 r (0 : Fin 1) (0 : Fin 1))).toInt.toNat (C - 1), by omega⟩) := by
  unfold Host.gather
  congr 1
  have h0 : (alongDims R C wf).start (ix2 r (0 : Fin 1)) idx 0 + (alongDims R C wf).batchCoord (ix2 r (0 : Fin 1)) 0
      + (alongDims R C wf).offCoord (ix2 r (0 : Fin 1)) 0 = r.val := by
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    rfl
  have h1 : (alongDims R C wf).start (ix2 r (0 : Fin 1)) idx 1 + (alongDims R C wf).batchCoord (ix2 r (0 : Fin 1)) 1
      + (alongDims R C wf).offCoord (ix2 r (0 : Fin 1)) 1 = min (idx (ix3 r (0 : Fin 1) (0 : Fin 1))).toInt.toNat (C - 1) := by
    rw [GatherDims.batchCoord_eq_zero _ _ _ (show (1 : Fin 2) ∉ [(0 : Fin 2)] by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R C wf).startIndexMap from List.mem_singleton.mpr rfl)]
    have hsi : (alongDims R C wf).siIdx (ix2 r (0 : Fin 1)) ⟨List.idxOf (1 : Fin 2) (alongDims R C wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl
  funext a
  refine Fin.ext ?_
  match a with
  | ⟨0, _⟩ => exact h0
  | ⟨1, _⟩ => exact h1

end Gather

end Cert.LibSegment

end
-- ==== Proof.ReferenceValue.lean ====
/-
  The reference program's result, read one host operation at a time.

  The reference is a plain host program: two mean-aggregating layers over the edge list, a mean pool per graph,
  a two-layer head. Each group of operations is read at one index of its result (a broadcast reads its operand
  at the surviving coordinates, a transpose at the swapped ones, a contraction is the sum over its one contracted
  coordinate, a segment sum is the operand plus the sum of the rows whose id is the segment) and the whole is the
  specification's `model` over an opaque neighbour sum and an opaque in-degree: the edge list's gather and
  scatter are named, never opened.
-/
import proofs.«409417_j75368086110725_2_alg».proof.Proof.Gen.ReferenceIdeal.Run
import proofs.«409417_j75368086110725_2_alg».proof.Proof.Gen.ReferenceIdeal.Read
import proofs.«409417_j75368086110725_2_alg».proof.Proof.Spec
import proofs.«409417_j75368086110725_2_alg».proof.Proof.LibSegment
import Idealize.ShloMosaic.PureOps.Ideal
import Idealize.ShloMosaic.Lib.ValueIdx

noncomputable section

namespace Cert.ReferenceIdeal.RefValue

open Idealize.ShloMosaic Idealize.ShloMosaic.ValueIdx Cert.ReferenceIdeal
open Cert.ReferenceIdeal.Gen Cert.ReferenceIdeal.Read Idealize.ShloMosaic.TcCoe Idealize.SL.Sem Idealize.ShloMosaic.StableHlo

/-- Two rank-2 indices are equal when their two coordinates are. -/
local macro "idx2" : tactic =>
  `(tactic| exact funext fun a => Fin.ext (by match a with | ⟨0, _⟩ => rfl | ⟨1, _⟩ => rfl))
/-- Two rank-1 indices are equal when their one coordinate is. -/
local macro "idx1" : tactic =>
  `(tactic| exact funext fun a => Fin.ext (by match a with | ⟨0, _⟩ => rfl))

/-! ## The edge list's two opaque functions -/

/-- The neighbour sum of a feature matrix along the edge list, as the reference's host operations compute it (the
    source row gathered, negative source ids wrapped by the node count, scattered-added onto the target ids):
    kept OPAQUE, never read at an index. -/
def nbrSum (ei : IVec S2x600000 32) (h : FVec Ideal S50000x128 .f32) : FVec Ideal S50000x128 .f32 :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0
      (shapeCast _ (extractStridedSlice S1x600000 ![1, 0] ei slices_S2x600000_S1x600000_1_0) shapeCasts_S1x600000_S600000))
    (Host.gather gather_S50000x128_S600000x1_S600000x128_1_0_n_n_0_1_1128 h
      (broadcastInDim S600000x1 ![0] bcast_S600000_S600000x1_0
        (select
          (cmpi .slt (shapeCast _ (extractStridedSlice S1x600000 ![0, 0] ei slices_S2x600000_S1x600000_0_0) shapeCasts_S1x600000_S600000)
            (broadcastInDim S600000 ![] bcast_S_S600000 (constantI S_ 32 0#32)))
          (addi (shapeCast _ (extractStridedSlice S1x600000 ![0, 0] ei slices_S2x600000_S1x600000_0_0) shapeCasts_S1x600000_S600000)
            (broadcastInDim S600000 ![] bcast_S_S600000 (constantI S_ 32 50000#32)))
          (shapeCast _ (extractStridedSlice S1x600000 ![0, 0] ei slices_S2x600000_S1x600000_0_0) shapeCasts_S1x600000_S600000))))

/-- The in-degree of every node (ones scattered-added onto the target ids): OPAQUE. -/
def inDeg (ei : IVec S2x600000 32) : FVec Ideal S50000 .f32 :=
  Host.scatterAdd scatter_S50000_S600000x1_S600000_n_0_0_1
    (broadcastInDim S50000 ![] bcast_S_S50000 (constant (F := Ideal) S_ .f32 0x00000000#32))
    (broadcastInDim S600000x1 ![0] bcast_S600000_S600000x1_0
      (shapeCast _ (extractStridedSlice S1x600000 ![1, 0] ei slices_S2x600000_S1x600000_1_0) shapeCasts_S1x600000_S600000))
    (broadcastInDim S600000 ![] bcast_S_S600000 (constant (F := Ideal) S_ .f32 0x3F800000#32))

/-- The first layer's neighbour sum is the named function of the edge list and the input features. -/
theorem nbr1_eq (x0 : (⟨S50000x128, .f32⟩ : BufTy).Contents (Elt Ideal)) (x1 : (⟨S2x600000, .i32⟩ : BufTy).Contents (Elt Ideal)) :
    val_main_v13 (F := Ideal) x0 x1 = nbrSum x1 x0 := rfl
/-- The first layer's in-degree is the named function of the edge list. -/
theorem deg1_eq (x1 : (⟨S2x600000, .i32⟩ : BufTy).Contents (Elt Ideal)) : val_main_v17 (F := Ideal) x1 = inDeg x1 := rfl
/-- The second layer's neighbour sum is the same function of the edge list, at the first layer's output. -/
theorem nbr2_eq (x0 : (⟨S50000x128, .f32⟩ : BufTy).Contents (Elt Ideal)) (x1 : (⟨S2x600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) :
    val_main_v45 (F := Ideal) x0 x1 x3 x4 x5 = nbrSum x1 (val_main_v31 (F := Ideal) x0 x1 x3 x4 x5) := rfl
/-- The second layer's in-degree is the same function of the edge list. -/
theorem deg2_eq (x1 : (⟨S2x600000, .i32⟩ : BufTy).Contents (Elt Ideal)) : val_main_v49 (F := Ideal) x1 = inDeg x1 := rfl

/-! ## Layer 1 (operations %18 to %31) -/

/-- The in-degree floored at one, broadcast along the features: at `(n, k)` it is the floor at node `n`. -/
theorem degFloor1_at (x1 : (⟨S2x600000, .i32⟩ : BufTy).Contents (Elt Ideal)) (n : Fin 50000) (k : Fin 128) :
    val_main_v21 (F := Ideal) x1 (ix2 n k) = max (val_main_v17 (F := Ideal) x1 (ix1 n)) Spec.one := by
  rw [val_main_v21_apply, val_main_v20_apply, val_main_v19_apply, val_main_v18_apply, val_main_cst_3_apply]
  have e : idx_main_v20 (idx_main_v21 (ix2 n k : S50000x128.Idx)) = (ix1 n : S50000.Idx) := by idx1
  rw [e]; rfl

/-- The mean of the neighbour sum: the sum over the floored in-degree, entry by entry. -/
theorem mean1_at (x0 : (⟨S50000x128, .f32⟩ : BufTy).Contents (Elt Ideal)) (x1 : (⟨S2x600000, .i32⟩ : BufTy).Contents (Elt Ideal)) (n : Fin 50000) (k : Fin 128) :
    val_main_v22 (F := Ideal) x0 x1 (ix2 n k)
      = Spec.meanAgg (Spec.ofMat (val_main_v13 (F := Ideal) x0 x1)) (Spec.ofVec (val_main_v17 (F := Ideal) x1)) n k := by
  rw [val_main_v22_apply, degFloor1_at]; rfl

/-- The neighbour weight transposed: entry `(k, j)` is the weight's `(j, k)`. -/
theorem wl1_at (x3 : (⟨S128x128, .f32⟩ : BufTy).Contents (Elt Ideal)) (k j : Fin 128) : val_main_v23 (F := Ideal) x3 (ix2 k j) = x3 (ix2 j k) := by
  rw [val_main_v23_apply]
  exact congrArg x3 (by idx2)

/-- The neighbour term: the contraction of the mean with the transposed weight over the 128 features. -/
theorem dotl1_at (x0 : (⟨S50000x128, .f32⟩ : BufTy).Contents (Elt Ideal)) (x1 : (⟨S2x600000, .i32⟩ : BufTy).Contents (Elt Ideal)) (x3 : (⟨S128x128, .f32⟩ : BufTy).Contents (Elt Ideal)) (n : Fin 50000) (j : Fin 128) :
    val_main_v24 (F := Ideal) x0 x1 x3 (ix2 n j)
      = ∑ k : Fin 128, Spec.meanAgg (Spec.ofMat (val_main_v13 (F := Ideal) x0 x1)) (Spec.ofVec (val_main_v17 (F := Ideal) x1)) n k * x3 (ix2 j k) := by
  rw [val_main_v24_apply]
  refine Finset.sum_congr rfl fun k _ => ?_
  have el : lidx_main_v24 (ix2 n j : S50000x128.Idx) k = (ix2 n k : S50000x128.Idx) := by idx2
  have er : ridx_main_v24 (ix2 n j : S50000x128.Idx) k = (ix2 k j : S128x128.Idx) := by idx2
  rw [el, er, mean1_at, wl1_at]

/-- The bias broadcast along the nodes: at `(n, j)` it is the bias at `j`. -/
theorem bias1_at (x4 : (⟨S128, .f32⟩ : BufTy).Contents (Elt Ideal)) (n : Fin 50000) (j : Fin 128) : val_main_v26 (F := Ideal) x4 (ix2 n j) = x4 (ix1 j) := by
  rw [val_main_v26_apply, val_main_v25_apply]
  exact congrArg x4 (by idx1)

/-- The self weight transposed: entry `(k, j)` is the weight's `(j, k)`. -/
theorem wr1_at (x5 : (⟨S128x128, .f32⟩ : BufTy).Contents (Elt Ideal)) (k j : Fin 128) : val_main_v28 (F := Ideal) x5 (ix2 k j) = x5 (ix2 j k) := by
  rw [val_main_v28_apply]
  exact congrArg x5 (by idx2)

/-- The self term: the contraction of the layer's input with the transposed weight over the 128 features. -/
theorem dotr1_at (x0 : (⟨S50000x128, .f32⟩ : BufTy).Contents (Elt Ideal)) (x5 : (⟨S128x128, .f32⟩ : BufTy).Contents (Elt Ideal)) (n : Fin 50000) (j : Fin 128) :
    val_main_v29 (F := Ideal) x0 x5 (ix2 n j) = ∑ k : Fin 128, x0 (ix2 n k) * x5 (ix2 j k) := by
  rw [val_main_v29_apply]
  refine Finset.sum_congr rfl fun k _ => ?_
  have el : lidx_main_v29 (ix2 n j : S50000x128.Idx) k = (ix2 n k : S50000x128.Idx) := by idx2
  have er : ridx_main_v29 (ix2 n j : S50000x128.Idx) k = (ix2 k j : S128x128.Idx) := by idx2
  rw [el, er, wr1_at]

/-- The rectifier's other operand: the zero word at every index. -/
theorem relu1_zero (i : S50000x128.Idx) : val_main_call0_v0 (F := Ideal) i = Spec.zero := by
  rw [val_main_call0_v0_apply, val_main_call0_cst_apply]; rfl

/-- Layer 1 at node `n`, feature `j`: the specification's layer over the stage's neighbour sum and in-degree. -/
theorem layer1_at (x0 : (⟨S50000x128, .f32⟩ : BufTy).Contents (Elt Ideal)) (x1 : (⟨S2x600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (n : Fin 50000) (j : Fin 128) :
    val_main_v31 (F := Ideal) x0 x1 x3 x4 x5 (ix2 n j)
      = Spec.sageLayer (Spec.ofMat (val_main_v13 (F := Ideal) x0 x1)) (Spec.ofVec (val_main_v17 (F := Ideal) x1)) (Spec.ofMat x0)
          (Spec.ofMat x3) (Spec.ofMat x5) (Spec.ofVec x4) n j := by
  rw [val_main_v31_apply, val_main_v30_apply, val_main_v27_apply, dotl1_at, bias1_at, dotr1_at, relu1_zero]; rfl

/-! ## Layer 2 (operations %50 to %63) -/

/-- The in-degree floored at one, broadcast along the features: at `(n, k)` it is the floor at node `n`. -/
theorem degFloor2_at (x1 : (⟨S2x600000, .i32⟩ : BufTy).Contents (Elt Ideal)) (n : Fin 50000) (k : Fin 128) :
    val_main_v53 (F := Ideal) x1 (ix2 n k) = max (val_main_v49 (F := Ideal) x1 (ix1 n)) Spec.one := by
  rw [val_main_v53_apply, val_main_v52_apply, val_main_v51_apply, val_main_v50_apply, val_main_cst_9_apply]
  have e : idx_main_v52 (idx_main_v53 (ix2 n k : S50000x128.Idx)) = (ix1 n : S50000.Idx) := by idx1
  rw [e]; rfl

/-- The mean of the neighbour sum: the sum over the floored in-degree, entry by entry. -/
theorem mean2_at (x0 : (⟨S50000x128, .f32⟩ : BufTy).Contents (Elt Ideal)) (x1 : (⟨S2x600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (n : Fin 50000) (k : Fin 128) :
    val_main_v54 (F := Ideal) x0 x1 x3 x4 x5 (ix2 n k)
      = Spec.meanAgg (Spec.ofMat (val_main_v45 (F := Ideal) x0 x1 x3 x4 x5)) (Spec.ofVec (val_main_v49 (F := Ideal) x1)) n k := by
  rw [val_main_v54_apply, degFloor2_at]; rfl

/-- The neighbour weight transposed: entry `(k, j)` is the weight's `(j, k)`. -/
theorem wl2_at (x6 : (⟨S128x128, .f32⟩ : BufTy).Contents (Elt Ideal)) (k j : Fin 128) : val_main_v55 (F := Ideal) x6 (ix2 k j) = x6 (ix2 j k) := by
  rw [val_main_v55_apply]
  exact congrArg x6 (by idx2)

/-- The neighbour term: the contraction of the mean with the transposed weight over the 128 features. -/
theorem dotl2_at (x0 : (⟨S50000x128, .f32⟩ : BufTy).Contents (Elt Ideal)) (x1 : (⟨S2x600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (n : Fin 50000) (j : Fin 128) :
    val_main_v56 (F := Ideal) x0 x1 x3 x4 x5 x6 (ix2 n j)
      = ∑ k : Fin 128, Spec.meanAgg (Spec.ofMat (val_main_v45 (F := Ideal) x0 x1 x3 x4 x5)) (Spec.ofVec (val_main_v49 (F := Ideal) x1)) n k * x6 (ix2 j k) := by
  rw [val_main_v56_apply]
  refine Finset.sum_congr rfl fun k _ => ?_
  have el : lidx_main_v56 (ix2 n j : S50000x128.Idx) k = (ix2 n k : S50000x128.Idx) := by idx2
  have er : ridx_main_v56 (ix2 n j : S50000x128.Idx) k = (ix2 k j : S128x128.Idx) := by idx2
  rw [el, er, mean2_at, wl2_at]

/-- The bias broadcast along the nodes: at `(n, j)` it is the bias at `j`. -/
theorem bias2_at (x7 : (⟨S128, .f32⟩ : BufTy).Contents (Elt Ideal)) (n : Fin 50000) (j : Fin 128) : val_main_v58 (F := Ideal) x7 (ix2 n j) = x7 (ix1 j) := by
  rw [val_main_v58_apply, val_main_v57_apply]
  exact congrArg x7 (by idx1)

/-- The self weight transposed: entry `(k, j)` is the weight's `(j, k)`. -/
theorem wr2_at (x8 : (⟨S128x128, .f32⟩ : BufTy).Contents (Elt Ideal)) (k j : Fin 128) : val_main_v60 (F := Ideal) x8 (ix2 k j) = x8 (ix2 j k) := by
  rw [val_main_v60_apply]
  exact congrArg x8 (by idx2)

/-- The self term: the contraction of the layer's input with the transposed weight over the 128 features. -/
theorem dotr2_at (x0 : (⟨S50000x128, .f32⟩ : BufTy).Contents (Elt Ideal)) (x1 : (⟨S2x600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x8 : (⟨S128x128, .f32⟩ : BufTy).Contents (Elt Ideal)) (n : Fin 50000) (j : Fin 128) :
    val_main_v61 (F := Ideal) x0 x1 x3 x4 x5 x8 (ix2 n j) = ∑ k : Fin 128, (val_main_v31 (F := Ideal) x0 x1 x3 x4 x5) (ix2 n k) * x8 (ix2 j k) := by
  rw [val_main_v61_apply]
  refine Finset.sum_congr rfl fun k _ => ?_
  have el : lidx_main_v61 (ix2 n j : S50000x128.Idx) k = (ix2 n k : S50000x128.Idx) := by idx2
  have er : ridx_main_v61 (ix2 n j : S50000x128.Idx) k = (ix2 k j : S128x128.Idx) := by idx2
  rw [el, er, wr2_at]

/-- The rectifier's other operand: the zero word at every index. -/
theorem relu2_zero (i : S50000x128.Idx) : val_main_call1_v0 (F := Ideal) i = Spec.zero := by
  rw [val_main_call1_v0_apply, val_main_call1_cst_apply]; rfl

/-- Layer 2 at node `n`, feature `j`: the specification's layer over the stage's neighbour sum and in-degree. -/
theorem layer2_at (x0 : (⟨S50000x128, .f32⟩ : BufTy).Contents (Elt Ideal)) (x1 : (⟨S2x600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (n : Fin 50000) (j : Fin 128) :
    val_main_v63 (F := Ideal) x0 x1 x3 x4 x5 x6 x7 x8 (ix2 n j)
      = Spec.sageLayer (Spec.ofMat (val_main_v45 (F := Ideal) x0 x1 x3 x4 x5)) (Spec.ofVec (val_main_v49 (F := Ideal) x1)) (Spec.ofMat (val_main_v31 (F := Ideal) x0 x1 x3 x4 x5))
          (Spec.ofMat x6) (Spec.ofMat x8) (Spec.ofVec x7) n j := by
  rw [val_main_v63_apply, val_main_v62_apply, val_main_v59_apply, dotl2_at, bias2_at, dotr2_at, relu2_zero]; rfl

/-! ## The two layers as whole arrays -/

/-- Reading an entry-by-entry matrix back entry by entry gives the matrix. -/
theorem ofMat_toMat {r c : Nat} (f : Fin r → Fin c → EReal) : Spec.ofMat (Spec.toMat f) = f := rfl

/-- The first layer's output is the specification's layer over the named neighbour sum and in-degree of the edge list. -/
theorem layer1_eq (x0 : (⟨S50000x128, .f32⟩ : BufTy).Contents (Elt Ideal)) (x1 : (⟨S2x600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) :
    val_main_v31 (F := Ideal) x0 x1 x3 x4 x5
      = Spec.toMat (Spec.sageLayer (Spec.ofMat (nbrSum x1 x0)) (Spec.ofVec (inDeg x1)) (Spec.ofMat x0)
          (Spec.ofMat x3) (Spec.ofMat x5) (Spec.ofVec x4)) := by
  funext i
  obtain ⟨n, j, rfl⟩ : ∃ (n : Fin 50000) (j : Fin 128), i = ix2 n j := ⟨_, _, eq_ix2 i⟩
  rw [layer1_at, nbr1_eq, deg1_eq]; rfl

/-- The second layer's output is the same layer over the first layer's output. -/
theorem layer2_eq (x0 : (⟨S50000x128, .f32⟩ : BufTy).Contents (Elt Ideal)) (x1 : (⟨S2x600000, .i32⟩ : BufTy).Contents (Elt Ideal)) (x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 : (⟨S128x128, .f32⟩ : BufTy).Contents (Elt Ideal)) :
    val_main_v63 (F := Ideal) x0 x1 x3 x4 x5 x6 x7 x8
      = Spec.toMat (Spec.sageLayer (Spec.ofMat (nbrSum x1 (val_main_v31 (F := Ideal) x0 x1 x3 x4 x5))) (Spec.ofVec (inDeg x1))
          (Spec.ofMat (val_main_v31 (F := Ideal) x0 x1 x3 x4 x5)) (Spec.ofMat x6) (Spec.ofMat x8) (Spec.ofVec x7)) := by
  funext i
  obtain ⟨n, j, rfl⟩ : ∃ (n : Fin 50000) (j : Fin 128), i = ix2 n j := ⟨_, _, eq_ix2 i⟩
  rw [layer2_at, nbr2_eq, deg2_eq]; rfl

/-! ## The pool (operations %64 to %70) -/

/-- A segment sum of the rows of a 50000 by 128 matrix into 64 segments, at segment `g` and column `j`: the operand
    there plus column `j` of the rows whose id, read signed, is `g`. -/
theorem segSum2 (x : FVec Ideal S64x128 .f32) (idx : IVec S50000x1 32) (upd : FVec Ideal S50000x128 .f32) (g : Fin 64) (j : Fin 128) :
    Host.scatterAdd scatter_S64x128_S50000x1_S50000x128_1_0_0_1 x idx upd (ix2 g j)
      = x (ix2 g j) + ∑ n ∈ Finset.univ.filter (fun n : Fin 50000 => (idx (ix2 n (0 : Fin 1))).toInt = (g.val : ℤ)), upd (ix2 n j) :=
  LibSegment.scatterAdd_seg2 scatter_S64x128_S50000x1_S50000x128_1_0_0_1_wf x idx upd g j

/-- A segment sum of a vector of 50000 entries into 64 segments, at segment `g`. -/
theorem segSum1 (x : FVec Ideal S64 .f32) (idx : IVec S50000x1 32) (upd : FVec Ideal S50000 .f32) (g : Fin 64) :
    Host.scatterAdd scatter_S64_S50000x1_S50000_n_0_0_1 x idx upd (ix1 g)
      = x (ix1 g) + ∑ n ∈ Finset.univ.filter (fun n : Fin 50000 => (idx (ix2 n (0 : Fin 1))).toInt = (g.val : ℤ)), upd (ix1 n) :=
  LibSegment.scatterAdd_seg1 scatter_S64_S50000x1_S50000_n_0_0_1_wf x idx upd g

/-- The graph ids as a one-column index array (for the pooled sum): at `(n, 0)` the id of node `n`. -/
theorem idsSum_at (x2 : (⟨S50000, .i32⟩ : BufTy).Contents (Elt Ideal)) (n : Fin 50000) : val_main_v65 (F := Ideal) x2 (ix2 n (0 : Fin 1)) = x2 (ix1 n) := by
  rw [val_main_v65_apply]
  exact congrArg x2 (by idx1)

/-- The graph ids as a one-column index array (for the count): at `(n, 0)` the id of node `n`. -/
theorem idsCnt_at (x2 : (⟨S50000, .i32⟩ : BufTy).Contents (Elt Ideal)) (n : Fin 50000) : val_main_v69 (F := Ideal) x2 (ix2 n (0 : Fin 1)) = x2 (ix1 n) := by
  rw [val_main_v69_apply]
  exact congrArg x2 (by idx1)

/-- The pooled sum of graph `g` at feature `j`: from the zero word, the second layer's rows whose id is `g`. -/
theorem poolSum_at (x0 : (⟨S50000x128, .f32⟩ : BufTy).Contents (Elt Ideal)) (x1 : (⟨S2x600000, .i32⟩ : BufTy).Contents (Elt Ideal)) (x2 : (⟨S50000, .i32⟩ : BufTy).Contents (Elt Ideal)) (x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 : (⟨S128x128, .f32⟩ : BufTy).Contents (Elt Ideal)) (g : Fin 64) (j : Fin 128) :
    val_main_v66 (F := Ideal) x0 x1 x2 x3 x4 x5 x6 x7 x8 (ix2 g j)
      = Spec.pooledSum (Spec.ofMat (val_main_v63 (F := Ideal) x0 x1 x3 x4 x5 x6 x7 x8)) (fun n : Fin 50000 => (x2 (ix1 n)).toInt) g j := by
  unfold val_main_v66
  have hf : (Finset.univ.filter fun n : Fin 50000 => (val_main_v65 (F := Ideal) x2 (ix2 n (0 : Fin 1))).toInt = (g.val : ℤ))
      = Finset.univ.filter fun n : Fin 50000 => (x2 (ix1 n)).toInt = (g.val : ℤ) :=
    Finset.filter_congr fun n _ => by rw [idsSum_at]
  rw [segSum2, val_main_v64_apply, val_main_cst_10_apply, hf]; rfl

/-- The count of graph `g`: from the zero word, the one word once per node whose id is `g`. -/
theorem poolCount_at (x2 : (⟨S50000, .i32⟩ : BufTy).Contents (Elt Ideal)) (g : Fin 64) :
    val_main_v70 (F := Ideal) x2 (ix1 g) = Spec.pooledCount (fun n : Fin 50000 => (x2 (ix1 n)).toInt) g := by
  unfold val_main_v70
  have hf : (Finset.univ.filter fun n : Fin 50000 => (val_main_v69 (F := Ideal) x2 (ix2 n (0 : Fin 1))).toInt = (g.val : ℤ))
      = Finset.univ.filter fun n : Fin 50000 => (x2 (ix1 n)).toInt = (g.val : ℤ) :=
    Finset.filter_congr fun n _ => by rw [idsCnt_at]
  have hu : ∀ n : Fin 50000, val_main_v67 (F := Ideal) (ix1 n : S50000.Idx) = Spec.one := fun n => by
    rw [val_main_v67_apply, val_main_cst_11_apply]; rfl
  rw [segSum1, val_main_v68_apply, val_main_cst_12_apply, hf]
  exact congrArg (_ + ·) (Finset.sum_congr rfl fun n _ => hu n)

/-- The pooled sums as a matrix given entry by entry. -/
theorem pool_eq (x0 : (⟨S50000x128, .f32⟩ : BufTy).Contents (Elt Ideal)) (x1 : (⟨S2x600000, .i32⟩ : BufTy).Contents (Elt Ideal)) (x2 : (⟨S50000, .i32⟩ : BufTy).Contents (Elt Ideal)) (x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 : (⟨S128x128, .f32⟩ : BufTy).Contents (Elt Ideal)) :
    Spec.ofMat (val_main_v66 (F := Ideal) x0 x1 x2 x3 x4 x5 x6 x7 x8)
      = Spec.pooledSum (Spec.ofMat (val_main_v63 (F := Ideal) x0 x1 x3 x4 x5 x6 x7 x8)) (fun n : Fin 50000 => (x2 (ix1 n)).toInt) := by
  funext g j; exact poolSum_at x0 x1 x2 x3 x4 x5 x6 x7 x8 g j

/-- The counts as a vector given entry by entry. -/
theorem count_eq (x2 : (⟨S50000, .i32⟩ : BufTy).Contents (Elt Ideal)) : Spec.ofVec (val_main_v70 (F := Ideal) x2) = Spec.pooledCount (fun n : Fin 50000 => (x2 (ix1 n)).toInt) := by
  funext g; exact poolCount_at x2 g

/-! ## The head (operations %71 to %87) -/

/-- The count floored at one, broadcast along the features: at `(g, j)` it is the floor at graph `g`. -/
theorem cntFloor_at (x2 : (⟨S50000, .i32⟩ : BufTy).Contents (Elt Ideal)) (g : Fin 64) (j : Fin 128) :
    val_main_v74 (F := Ideal) x2 (ix2 g j) = max (val_main_v70 (F := Ideal) x2 (ix1 g)) Spec.one := by
  rw [val_main_v74_apply, val_main_v73_apply, val_main_v72_apply, val_main_v71_apply, val_main_cst_13_apply]
  have e : idx_main_v73 (idx_main_v74 (ix2 g j : S64x128.Idx)) = (ix1 g : S64.Idx) := by idx1
  rw [e]; rfl

/-- The pooled mean: the pooled sum over the floored count, entry by entry. -/
theorem poolMean_at (x0 : (⟨S50000x128, .f32⟩ : BufTy).Contents (Elt Ideal)) (x1 : (⟨S2x600000, .i32⟩ : BufTy).Contents (Elt Ideal)) (x2 : (⟨S50000, .i32⟩ : BufTy).Contents (Elt Ideal)) (x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 : (⟨S128x128, .f32⟩ : BufTy).Contents (Elt Ideal)) (g : Fin 64) (j : Fin 128) :
    val_main_v75 (F := Ideal) x0 x1 x2 x3 x4 x5 x6 x7 x8 (ix2 g j) = Ideal.div (val_main_v66 (F := Ideal) x0 x1 x2 x3 x4 x5 x6 x7 x8 (ix2 g j)) (max (val_main_v70 (F := Ideal) x2 (ix1 g)) Spec.one) := by
  rw [val_main_v75_apply, cntFloor_at]; rfl

/-- The hidden weight transposed: entry `(j, k)` is the weight's `(k, j)`. -/
theorem wc1_at (x9 : (⟨S128x128, .f32⟩ : BufTy).Contents (Elt Ideal)) (j k : Fin 128) : val_main_v76 (F := Ideal) x9 (ix2 j k) = x9 (ix2 k j) := by
  rw [val_main_v76_apply]
  exact congrArg x9 (by idx2)

/-- The hidden contraction: the pooled mean against the transposed hidden weight over the 128 features. -/
theorem hidDot_at (x0 : (⟨S50000x128, .f32⟩ : BufTy).Contents (Elt Ideal)) (x1 : (⟨S2x600000, .i32⟩ : BufTy).Contents (Elt Ideal)) (x2 : (⟨S50000, .i32⟩ : BufTy).Contents (Elt Ideal)) (x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (g : Fin 64) (k : Fin 128) :
    val_main_v77 (F := Ideal) x0 x1 x2 x3 x4 x5 x6 x7 x8 x9 (ix2 g k) = ∑ j : Fin 128, Ideal.div (val_main_v66 (F := Ideal) x0 x1 x2 x3 x4 x5 x6 x7 x8 (ix2 g j)) (max (val_main_v70 (F := Ideal) x2 (ix1 g)) Spec.one) * x9 (ix2 k j) := by
  rw [val_main_v77_apply]
  refine Finset.sum_congr rfl fun j _ => ?_
  have el : lidx_main_v77 (ix2 g k : S64x128.Idx) j = (ix2 g j : S64x128.Idx) := by idx2
  have er : ridx_main_v77 (ix2 g k : S64x128.Idx) j = (ix2 j k : S128x128.Idx) := by idx2
  rw [el, er, poolMean_at, wc1_at]

/-- The hidden bias broadcast along the graphs: at `(g, k)` it is the bias at `k`. -/
theorem bc1_at (x10 : (⟨S128, .f32⟩ : BufTy).Contents (Elt Ideal)) (g : Fin 64) (k : Fin 128) : val_main_v79 (F := Ideal) x10 (ix2 g k) = x10 (ix1 k) := by
  rw [val_main_v79_apply, val_main_v78_apply]
  exact congrArg x10 (by idx1)

/-- The head's rectifier's other operand: the zero word at every index. -/
theorem relu3_zero (i : S64x128.Idx) : val_main_call2_v0 (F := Ideal) i = Spec.zero := by
  rw [val_main_call2_v0_apply, val_main_call2_cst_apply]; rfl

/-- The hidden unit `k` of graph `g`: the contraction, the bias, the rectifier. -/
theorem hid_at (x0 : (⟨S50000x128, .f32⟩ : BufTy).Contents (Elt Ideal)) (x1 : (⟨S2x600000, .i32⟩ : BufTy).Contents (Elt Ideal)) (x2 : (⟨S50000, .i32⟩ : BufTy).Contents (Elt Ideal)) (x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (g : Fin 64) (k : Fin 128) :
    val_main_v81 (F := Ideal) x0 x1 x2 x3 x4 x5 x6 x7 x8 x9 x10 (ix2 g k) = max ((∑ j : Fin 128, Ideal.div (val_main_v66 (F := Ideal) x0 x1 x2 x3 x4 x5 x6 x7 x8 (ix2 g j)) (max (val_main_v70 (F := Ideal) x2 (ix1 g)) Spec.one) * x9 (ix2 k j)) + x10 (ix1 k)) Spec.zero := by
  rw [val_main_v81_apply, val_main_v80_apply, hidDot_at, bc1_at, relu3_zero]; rfl

/-- The output weight row transposed to a column: entry `(k, 0)` is the row's `(0, k)`. -/
theorem wc2_at (x11 : (⟨S1x128, .f32⟩ : BufTy).Contents (Elt Ideal)) (k : Fin 128) : val_main_v82 (F := Ideal) x11 (ix2 k (0 : Fin 1)) = x11 (ix2 (0 : Fin 1) k) := by
  rw [val_main_v82_apply]
  exact congrArg x11 (by idx2)

/-- The output contraction: the hidden units against the output weights over the 128 units. -/
theorem outDot_at (x0 : (⟨S50000x128, .f32⟩ : BufTy).Contents (Elt Ideal)) (x1 : (⟨S2x600000, .i32⟩ : BufTy).Contents (Elt Ideal)) (x2 : (⟨S50000, .i32⟩ : BufTy).Contents (Elt Ideal)) (x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S1x128, .f32⟩ : BufTy).Contents (Elt Ideal)) (g : Fin 64) :
    val_main_v83 (F := Ideal) x0 x1 x2 x3 x4 x5 x6 x7 x8 x9 x10 x11 (ix2 g (0 : Fin 1)) = ∑ k : Fin 128, max ((∑ j : Fin 128, Ideal.div (val_main_v66 (F := Ideal) x0 x1 x2 x3 x4 x5 x6 x7 x8 (ix2 g j)) (max (val_main_v70 (F := Ideal) x2 (ix1 g)) Spec.one) * x9 (ix2 k j)) + x10 (ix1 k)) Spec.zero * x11 (ix2 (0 : Fin 1) k) := by
  rw [val_main_v83_apply]
  refine Finset.sum_congr rfl fun k _ => ?_
  have el : lidx_main_v83 (ix2 g (0 : Fin 1) : S64x1.Idx) k = (ix2 g k : S64x128.Idx) := by idx2
  have er : ridx_main_v83 (ix2 g (0 : Fin 1) : S64x1.Idx) k = (ix2 k (0 : Fin 1) : S128x1.Idx) := by idx2
  rw [el, er, hid_at, wc2_at]

/-- The output bias broadcast along the graphs: at `(g, 0)` it is the one bias. -/
theorem bc2_at (x12 : (⟨S1, .f32⟩ : BufTy).Contents (Elt Ideal)) (g : Fin 64) : val_main_v85 (F := Ideal) x12 (ix2 g (0 : Fin 1)) = x12 (ix1 (0 : Fin 1)) := by
  rw [val_main_v85_apply, val_main_v84_apply]
  exact congrArg x12 (by idx1)

/-- The result at graph `g`: the specification's head over the pooled sums and counts. -/
theorem head_at (x0 : (⟨S50000x128, .f32⟩ : BufTy).Contents (Elt Ideal)) (x1 : (⟨S2x600000, .i32⟩ : BufTy).Contents (Elt Ideal)) (x2 : (⟨S50000, .i32⟩ : BufTy).Contents (Elt Ideal)) (x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S1x128, .f32⟩ : BufTy).Contents (Elt Ideal)) (x12 : (⟨S1, .f32⟩ : BufTy).Contents (Elt Ideal)) (g : Fin 64) :
    val_main_v87 (F := Ideal) x0 x1 x2 x3 x4 x5 x6 x7 x8 x9 x10 x11 x12 (ix1 g)
      = Spec.head (Spec.ofMat (val_main_v66 (F := Ideal) x0 x1 x2 x3 x4 x5 x6 x7 x8)) (Spec.ofVec (val_main_v70 (F := Ideal) x2)) (Spec.ofMat x9) (Spec.ofVec x10)
          (fun k => x11 (ix2 (0 : Fin 1) k)) (x12 (ix1 (0 : Fin 1))) g := by
  have e : idx_main_v87 (ix1 g : S64.Idx) = (ix2 g (0 : Fin 1) : S64x1.Idx) :=
    funext fun a => Fin.ext (by match a with | ⟨0, _⟩ => exact Nat.div_one _ | ⟨1, _⟩ => rfl)
  rw [val_main_v87_apply, e, val_main_v86_apply, outDot_at, bc2_at]; rfl

/-! ## The whole result -/

/-- The reference's result, as one function of its thirteen arguments: the specification's network over the named
    neighbour sum and in-degree of the edge list, the graph ids read signed. -/
theorem result_eq (x : FVec Ideal S50000x128 .f32) (ei : IVec S2x600000 32) (batch : IVec S50000 32)
    (W1l : FVec Ideal S128x128 .f32) (b1l : FVec Ideal S128 .f32) (W1r : FVec Ideal S128x128 .f32)
    (W2l : FVec Ideal S128x128 .f32) (b2l : FVec Ideal S128 .f32) (W2r : FVec Ideal S128x128 .f32)
    (Wc1 : FVec Ideal S128x128 .f32) (bc1 : FVec Ideal S128 .f32) (Wc2 : FVec Ideal S1x128 .f32) (bc2 : FVec Ideal S1 .f32) :
    val_main_v87 (F := Ideal) x ei batch W1l b1l W1r W2l b2l W2r Wc1 bc1 Wc2 bc2
      = Spec.toVec (Spec.model (fun h => Spec.ofMat (nbrSum ei (Spec.toMat h))) (Spec.ofVec (inDeg ei)) (Spec.ofMat x)
          (Spec.ofMat W1l) (Spec.ofMat W1r) (Spec.ofVec b1l) (Spec.ofMat W2l) (Spec.ofMat W2r) (Spec.ofVec b2l)
          (fun n => (batch (ix1 n)).toInt) (Spec.ofMat Wc1) (Spec.ofVec bc1) (fun k => Wc2 (ix2 (0 : Fin 1) k)) (bc2 (ix1 (0 : Fin 1)))) := by
  funext i
  obtain ⟨g, rfl⟩ : ∃ g : Fin 64, i = ix1 g := ⟨_, eq_ix1 i⟩
  rw [head_at, pool_eq, count_eq, layer2_eq, layer1_eq, Spec.toVec_ix1]
  unfold Spec.model
  simp only [ofMat_toMat, Spec.toMat_ofMat]

/-- The same, stated at the run's own term: the result buffer's contents after any execution, as a function of the
    launch contents of the thirteen argument buffers. -/
theorem run_result_eq (m : (ℓ : Loc nD τ sig) → Buf (Elt Ideal) ℓ) (c : Dev nD) :
    Cert.ReferenceIdeal.Value.res_main_v87 (F := Ideal) m c
      = Spec.toVec (Spec.model (fun h => Spec.ofMat (nbrSum (m ((c.tc : Thread nD τ).loc main_arg1)) (Spec.toMat h))) (Spec.ofVec (inDeg (m ((c.tc : Thread nD τ).loc main_arg1)))) (Spec.ofMat (m ((c.tc : Thread nD τ).loc main_arg0)))
          (Spec.ofMat (m ((c.tc : Thread nD τ).loc main_arg3))) (Spec.ofMat (m ((c.tc : Thread nD τ).loc main_arg5))) (Spec.ofVec (m ((c.tc : Thread nD τ).loc main_arg4))) (Spec.ofMat (m ((c.tc : Thread nD τ).loc main_arg6))) (Spec.ofMat (m ((c.tc : Thread nD τ).loc main_arg8))) (Spec.ofVec (m ((c.tc : Thread nD τ).loc main_arg7)))
          (fun n => ((m ((c.tc : Thread nD τ).loc main_arg2)) (ix1 n)).toInt) (Spec.ofMat (m ((c.tc : Thread nD τ).loc main_arg9))) (Spec.ofVec (m ((c.tc : Thread nD τ).loc main_arg10))) (fun k => (m ((c.tc : Thread nD τ).loc main_arg11)) (ix2 (0 : Fin 1) k)) ((m ((c.tc : Thread nD τ).loc main_arg12)) (ix1 (0 : Fin 1)))) :=
  (val_main_v87_eq m c).trans (result_eq _ _ _ _ _ _ _ _ _ _ _ _ _)

end Cert.ReferenceIdeal.RefValue

end
-- ==== Proof.EdgeChain.lean ====
/-
  The edge list's chain is one function in both programs.

  Both programs compute the neighbour sum of a feature matrix (the source rows gathered, negative source ids wrapped
  by the node count, scattered-added onto the target ids, from zeros) and the in-degree (ones scattered-added onto the
  target ids, from zeros) by the same host operations in the same order; only the printed records of the gather's and
  the scatters' dimension numbers and the shape facts carry each program's own name. The records have the same literal
  fields, and their remaining fields are propositions, so each pair is one record; the composed terms are then the same
  term. Nothing is read at an index.
-/
import proofs.«409417_j75368086110725_2_alg».proof.Proof.ReferenceValue
import proofs.«409417_j75368086110725_2_alg».proof.Proof.HostValue

noncomputable section

namespace Cert.Proof.EdgeChain

open Idealize.ShloMosaic

/-- The neighbour scatter's dimension numbers are the same record in both programs. -/
theorem scatterNbr_eq : Cert.ReferenceIdeal.scatter_S50000x128_S600000x1_S600000x128_1_0_0_1
    = Cert.KernelIdeal.scatter_S50000x128_S600000x1_S600000x128_1_0_0_1 := rfl

/-- The in-degree scatter's dimension numbers are the same record in both programs. -/
theorem scatterDeg_eq : Cert.ReferenceIdeal.scatter_S50000_S600000x1_S600000_n_0_0_1
    = Cert.KernelIdeal.scatter_S50000_S600000x1_S600000_n_0_0_1 := rfl

/-- The source gather's dimension numbers are the same record in both programs. -/
theorem gatherSrc_eq : Cert.ReferenceIdeal.gather_S50000x128_S600000x1_S600000x128_1_0_n_n_0_1_1128
    = Cert.KernelIdeal.gather_S50000x128_S600000x1_S600000x128_1_0_n_n_0_1_1128 := rfl

/-- The reference's neighbour sum is the kernel program's, at the source and target rows of the same edge list. -/
theorem nbrSum_eq (ei : IVec ⟨2, ![2, 600000]⟩ 32) (h : (⟨2, ![50000, 128]⟩ : Shape).Idx → EReal) :
    Cert.ReferenceIdeal.RefValue.nbrSum ei h
      = Cert.KernelIdeal.HostValue.nbrOf (Cert.KernelIdeal.HostValue.srcOf ei) (Cert.KernelIdeal.HostValue.dstOf ei) h := rfl

/-- The reference's in-degree is the kernel program's, at the target row of the same edge list. -/
theorem inDeg_eq (ei : IVec ⟨2, ![2, 600000]⟩ 32) :
    Cert.ReferenceIdeal.RefValue.inDeg ei = Cert.KernelIdeal.HostValue.degOf (Cert.KernelIdeal.HostValue.dstOf ei) := rfl

end Cert.Proof.EdgeChain

end
-- ==== Proof.SpecLaws.lean ====
/-
  The laws that join the two programs' arrangements of the sums of `Spec`: a contraction over 256 = 128 + 128
  stacked features is the sum of the two contractions over 128 (so a layer computed by one stacked contraction with
  the bias added last is the layer computed by two contractions with the bias between them: addition of extended
  reals is commutative and associative, infinities included); and ten tile sums of one-hot weighted rows, accumulated
  from zero, are the sum over the rows whose graph id is `g` (`1 · x = x`, `0 · x = 0` for every extended real,
  and the rows of the ten tiles are all the rows, each once).
-/
import proofs.«409417_j75368086110725_2_alg».proof.Proof.Spec
import Mathlib.Algebra.BigOperators.Fin
import Mathlib.Algebra.BigOperators.Group.Finset.Basic
import Mathlib.Data.Fintype.BigOperators
import Mathlib.Data.EReal.Basic

noncomputable section

namespace Cert.Spec

open Idealize.ShloMosaic

/-! ## The stacked contraction -/

/-- On the first 128 stacked indices the stacked row is the aggregated row. -/
theorem stackedRow_lo (a x : Fin 128 → EReal) (k : Fin 128) :
    stackedRow a x (Fin.castAdd 128 k) = a k := by
  unfold stackedRow
  rw [dif_pos (show (Fin.castAdd 128 k).val < 128 from k.isLt)]
  rfl

/-- On the last 128 stacked indices the stacked row is the node's own row. -/
theorem stackedRow_hi (a x : Fin 128 → EReal) (k : Fin 128) :
    stackedRow a x (Fin.natAdd 128 k) = x k := by
  unfold stackedRow
  rw [dif_neg (show ¬ (Fin.natAdd 128 k).val < 128 by simp only [Fin.val_natAdd]; omega)]
  congr 1
  apply Fin.ext
  simp only [Fin.val_natAdd]
  omega

/-- On the first 128 stacked indices the stacked weights are the neighbour weights, transposed. -/
theorem stackedW_lo (Wl Wr : Fin 128 → Fin 128 → EReal) (k j : Fin 128) :
    stackedW Wl Wr (Fin.castAdd 128 k) j = Wl j k := by
  unfold stackedW
  rw [dif_pos (show (Fin.castAdd 128 k).val < 128 from k.isLt)]
  rfl

/-- On the last 128 stacked indices the stacked weights are the self weights, transposed. -/
theorem stackedW_hi (Wl Wr : Fin 128 → Fin 128 → EReal) (k j : Fin 128) :
    stackedW Wl Wr (Fin.natAdd 128 k) j = Wr j k := by
  unfold stackedW
  rw [dif_neg (show ¬ (Fin.natAdd 128 k).val < 128 by simp only [Fin.val_natAdd]; omega)]
  congr 1
  apply Fin.ext
  simp only [Fin.val_natAdd]
  omega

/-- A contraction over the 256 stacked features is the two contractions over 128. -/
theorem sum_stacked (a x : Fin 128 → EReal) (Wl Wr : Fin 128 → Fin 128 → EReal) (j : Fin 128) :
    ∑ k : Fin 256, stackedRow a x k * stackedW Wl Wr k j
      = (∑ k : Fin 128, a k * Wl j k) + ∑ k : Fin 128, x k * Wr j k := by
  -- the index set of 256 = 128 + 128 stacked features splits into its first and last 128 indices
  have hsplit := Fin.sum_univ_add (a := 128) (b := 128)
    (fun k : Fin (128 + 128) => stackedRow a x k * stackedW Wl Wr k j)
  refine hsplit.trans ?_
  simp only [stackedRow_lo, stackedW_lo, stackedRow_hi, stackedW_hi]

/-- The kernel's arrangement of a layer is the reference's. -/
theorem sageLayerStacked_eq (agg : Fin 50000 → Fin 128 → EReal) (deg : Fin 50000 → EReal) (h : Fin 50000 → Fin 128 → EReal)
    (Wl Wr : Fin 128 → Fin 128 → EReal) (b : Fin 128 → EReal) :
    sageLayerStacked agg deg h Wl Wr b = sageLayer agg deg h Wl Wr b := by
  funext n j
  unfold sageLayerStacked sageLayer
  rw [sum_stacked, add_right_comm]

/-! ## The tiled pool -/

/-- The rows of the ten tiles are all the rows, each once: `(t, r) ↦ 5000 t + r` with inverse
    `n ↦ (n / 5000, n % 5000)`. -/
def tileEquiv : Fin 10 × Fin 5000 ≃ Fin 50000 where
  toFun p := tileRow p.1 p.2
  invFun n := (⟨n.val / 5000, by omega⟩, ⟨n.val % 5000, by omega⟩)
  left_inv p := by
    obtain ⟨t, r⟩ := p
    apply Prod.ext
    · apply Fin.ext
      show (5000 * t.val + r.val) / 5000 = t.val
      omega
    · apply Fin.ext
      show (5000 * t.val + r.val) % 5000 = r.val
      omega
  right_inv n := by
    apply Fin.ext
    show 5000 * (n.val / 5000) + n.val % 5000 = n.val
    omega

/-- A 32-bit word is the word of `g < 64` exactly when it reads, signed, as `g`. -/
theorem eq_ofNat_iff_toInt (w : BitVec 32) (g : Fin 64) :
    w = BitVec.ofNat 32 g.val ↔ w.toInt = (g.val : ℤ) := by
  have hg := g.isLt
  have hw := w.isLt
  constructor
  · intro h
    rw [h, BitVec.toInt_eq_toNat_cond, BitVec.toNat_ofNat]
    split <;> omega
  · intro h
    apply BitVec.eq_of_toNat_eq
    rw [BitVec.toNat_ofNat]
    rw [BitVec.toInt_eq_toNat_cond] at h
    split at h <;> omega

/-- A one-hot weighted value is the value on the graph's rows and zero elsewhere. -/
theorem oneHot_mul (w : BitVec 32) (g : Fin 64) (y : EReal) :
    oneHot w g * y = if w.toInt = (g.val : ℤ) then y else 0 := by
  unfold oneHot
  by_cases hw : w = BitVec.ofNat 32 g.val
  · rw [if_pos hw, if_pos ((eq_ofNat_iff_toInt w g).mp hw), one_mul]
  · rw [if_neg hw, if_neg (fun h => hw ((eq_ofNat_iff_toInt w g).mpr h)), zero_mul]

/-- Ten tiles of 5000 one-hot weighted rows, summed, are the sum over the rows whose graph id is `g`. -/
theorem sum_tiles (F : Fin 50000 → EReal) (ids : Fin 50000 → BitVec 32) (g : Fin 64) :
    ∑ t : Fin 10, ∑ r : Fin 5000, oneHot (ids (tileRow t r)) g * F (tileRow t r)
      = ∑ n ∈ Finset.univ.filter (fun n : Fin 50000 => (ids n).toInt = (g.val : ℤ)), F n := by
  -- the double sum over (tile, row in tile) is a single sum over pairs, then over all rows
  rw [← Fintype.sum_prod_type' (fun (t : Fin 10) (r : Fin 5000) => oneHot (ids (tileRow t r)) g * F (tileRow t r))]
  rw [Fintype.sum_equiv tileEquiv
    (fun p : Fin 10 × Fin 5000 => oneHot (ids (tileRow p.1 p.2)) g * F (tileRow p.1 p.2))
    (fun n : Fin 50000 => oneHot (ids n) g * F n) (fun _ => rfl)]
  -- a sum of values that vanish off the graph's rows is the sum over the graph's rows
  rw [Finset.sum_filter]
  exact Finset.sum_congr rfl fun n _ => oneHot_mul _ _ _

/-- The running sum after tile `t` is `zero` plus the first `t + 1` tile sums. -/
theorem accSum_eq_range (h : Fin 50000 → Fin 128 → EReal) (ids : Fin 50000 → BitVec 32) (g : Fin 64) (j : Fin 128) (t : ℕ) :
    accSum h ids t g j
      = zero + ∑ s ∈ Finset.range (t + 1), (if hs : s < 10 then tileSum h ids ⟨s, hs⟩ g j else 0) := by
  induction t with
  | zero =>
    rw [Finset.sum_range_one]
    rfl
  | succ t ih =>
    rw [Finset.sum_range_succ, ← add_assoc, ← ih]
    rfl

theorem accCount_eq_range (ids : Fin 50000 → BitVec 32) (g : Fin 64) (t : ℕ) :
    accCount ids t g
      = zero + ∑ s ∈ Finset.range (t + 1), (if hs : s < 10 then tileCount ids ⟨s, hs⟩ g else 0) := by
  induction t with
  | zero =>
    rw [Finset.sum_range_one]
    rfl
  | succ t ih =>
    rw [Finset.sum_range_succ, ← add_assoc, ← ih]
    rfl

/-- Ten tile sums of one-hot weighted rows are the sum over the graph's rows. -/
theorem accSum_last (h : Fin 50000 → Fin 128 → EReal) (ids : Fin 50000 → BitVec 32) :
    accSum h ids 9 = pooledSum h (fun n => (ids n).toInt) := by
  funext g j
  rw [accSum_eq_range]
  unfold pooledSum
  refine congrArg (fun s => zero + s) ?_
  -- the ten guarded tile sums are the sum over the ten tiles
  rw [Finset.sum_range (fun s => if hs : s < 10 then tileSum h ids ⟨s, hs⟩ g j else 0)]
  refine Eq.trans ?_ (sum_tiles (fun n => h n j) ids g)
  refine Finset.sum_congr rfl fun t _ => ?_
  rw [dif_pos t.isLt]
  unfold tileSum
  rfl

theorem accCount_last (ids : Fin 50000 → BitVec 32) :
    accCount ids 9 = pooledCount (fun n => (ids n).toInt) := by
  funext g
  rw [accCount_eq_range]
  unfold pooledCount
  refine congrArg (fun s => zero + s) ?_
  -- the ten guarded tile counts are the sum over the ten tiles
  rw [Finset.sum_range (fun s => if hs : s < 10 then tileCount ids ⟨s, hs⟩ g else 0)]
  refine Eq.trans ?_ (sum_tiles (fun _ => one) ids g)
  refine Finset.sum_congr rfl fun t _ => ?_
  rw [dif_pos t.isLt]
  unfold tileCount
  rfl

end Cert.Spec

end
-- ==== Proof.Bridge.lean ====
/-
  The two programs compute one function. The kernel's program: the first region leaves the first layer of the input
  features (computed by one stacked contraction; the same array as the reference's two contractions), the host
  operations between the regions form its neighbour sum with the same gather and scatter, the second region pools the
  second layer's rows tile after tile with one-hot weights (the sum over each graph's rows) and applies the head. The
  reference's run gives the same composition written with its own operations. The edge list's gather and scatter stay
  opaque throughout: they are the same term in both programs.
-/
import proofs.«409417_j75368086110725_2_alg».proof.Proof.Run
import proofs.«409417_j75368086110725_2_alg».proof.Proof.SageLayerValue
import proofs.«409417_j75368086110725_2_alg».proof.Proof.PoolValue
import proofs.«409417_j75368086110725_2_alg».proof.Proof.HostValue
import proofs.«409417_j75368086110725_2_alg».proof.Proof.BoundaryValues
import proofs.«409417_j75368086110725_2_alg».proof.Proof.EdgeChain
import proofs.«409417_j75368086110725_2_alg».proof.Proof.SpecLaws
import proofs.«409417_j75368086110725_2_alg».proof.Proof.ReferenceValue
import proofs.«409417_j75368086110725_2_alg».proof.Defs

noncomputable section

namespace Cert.Proof.Bridge

open Idealize.ShloMosaic Idealize.ShloMosaic.ValueIdx Idealize.ShloMosaic.TcCoe Idealize.SL.Sem
open Cert.KernelIdeal Cert.KernelIdeal.Gen Cert.KernelIdeal.Frame Cert.KernelIdeal.HostValue Cert.KernelIdeal.LayerValue
open Cert.KernelIdeal.PoolValue Cert.KernelIdeal.Boundary

/-- An array given entry by entry, read back entry by entry. -/
theorem ofMat_toMat {r c : Nat} (f : Fin r → Fin c → EReal) : Spec.ofMat (Spec.toMat f) = f := rfl

/-- A layer's array computed over the stacked weights, from a degree column, is the layer in the reference's
    arrangement: the stack read row by row, the column read entry by entry, then the law of the stacked contraction. -/
theorem layerOut_eq (a : FVec Ideal S50000x128 .f32) (dv : S50000.Idx → EReal) (x : FVec Ideal S50000x128 .f32)
    (Wl Wr : FVec Ideal S128x128 .f32) (b : FVec Ideal S128 .f32) :
    layerOut a (shapeCast S50000x1 dv shapeCasts_S50000_S50000x1) x
        (concatenate S256x128 0
          [⟨S128x128, transpose S128x128 [1, 0] Wl transposes_S128x128_S128x128_1_0⟩,
           ⟨S128x128, transpose S128x128 [1, 0] Wr transposes_S128x128_S128x128_1_0⟩]
          concatenates_S128x128_S128x128_S256x128_d0) b
      = Spec.toMat (Spec.sageLayer (Spec.ofMat a) (Spec.ofVec dv) (Spec.ofMat x) (Spec.ofMat Wl) (Spec.ofMat Wr) (Spec.ofVec b)) := by
  rw [← Spec.sageLayerStacked_eq]
  unfold layerOut Spec.sageLayerStacked Spec.meanAgg
  refine congrArg Spec.toMat (funext fun n => funext fun j => ?_)
  simp only [col_apply, Spec.ofVec]
  refine congrArg (fun s => max (s + b (ix1 j)) Spec.zero) (Finset.sum_congr rfl fun k _ => ?_)
  rw [stackedW_apply]
  rfl

variable (m : (ℓ : Loc nD τ sig) → Buf (Elt Ideal) ℓ) (c : Dev nD)

/-- The arguments on core `c`. -/
abbrev a0 : FVec Ideal S50000x128 .f32 := m ((c : Thread nD τ).loc main_arg0)
abbrev a1 : IVec S2x600000 32 := m ((c : Thread nD τ).loc main_arg1)
abbrev a2 : IVec S50000 32 := m ((c : Thread nD τ).loc main_arg2)
abbrev a3 : FVec Ideal S128x128 .f32 := m ((c : Thread nD τ).loc main_arg3)
abbrev a4 : FVec Ideal S128 .f32 := m ((c : Thread nD τ).loc main_arg4)
abbrev a5 : FVec Ideal S128x128 .f32 := m ((c : Thread nD τ).loc main_arg5)
abbrev a6 : FVec Ideal S128x128 .f32 := m ((c : Thread nD τ).loc main_arg6)
abbrev a7 : FVec Ideal S128 .f32 := m ((c : Thread nD τ).loc main_arg7)
abbrev a8 : FVec Ideal S128x128 .f32 := m ((c : Thread nD τ).loc main_arg8)
abbrev a9 : FVec Ideal S128x128 .f32 := m ((c : Thread nD τ).loc main_arg9)
abbrev a10 : FVec Ideal S128 .f32 := m ((c : Thread nD τ).loc main_arg10)
abbrev a11 : FVec Ideal S1x128 .f32 := m ((c : Thread nD τ).loc main_arg11)
abbrev a12 : FVec Ideal S1 .f32 := m ((c : Thread nD τ).loc main_arg12)

/-- The neighbour sum along the edge list, on arrays given entry by entry. -/
def nbrK (h : Fin 50000 → Fin 128 → EReal) : Fin 50000 → Fin 128 → EReal :=
  Spec.ofMat (nbrOf (srcOf (a1 m c)) (dstOf (a1 m c)) (Spec.toMat h))
/-- The in-degrees. -/
def degK : Fin 50000 → EReal := Spec.ofVec (degOf (dstOf (a1 m c)))

/-- The first layer, in the reference's arrangement. -/
def layer1 : Fin 50000 → Fin 128 → EReal :=
  Spec.sageLayer (nbrK m c (Spec.ofMat (a0 m c))) (degK m c) (Spec.ofMat (a0 m c)) (Spec.ofMat (a3 m c)) (Spec.ofMat (a5 m c)) (Spec.ofVec (a4 m c))
/-- The second layer. -/
def layer2 : Fin 50000 → Fin 128 → EReal :=
  Spec.sageLayer (nbrK m c (layer1 m c)) (degK m c) (layer1 m c) (Spec.ofMat (a6 m c)) (Spec.ofMat (a8 m c)) (Spec.ofVec (a7 m c))

/-- After the first region the output array holds the first layer. -/
theorem first_region :
    (dat0 (F := Ideal) (E1 m) c).arrAt 5 cfg0.N = Spec.toMat (layer1 m c) := by
  rw [region0_value (E1 m) c, E1_v19 m c, E1_v9 m c, E1_arg0 m c, E1_v22 m c, E1_arg4 m c]
  unfold layer1 nbrK degK
  rw [Spec.toMat_ofMat]
  exact layerOut_eq _ _ _ _ _ _

/-- The rows the second region's tiles compute are the second layer's. -/
theorem second_layer : h2 (E3 m) c = layer2 m c := by
  have e : h2 (E3 m) c = Spec.ofMat (layerOut (E3 m c main_v33) (E3 m c main_v9) (E3 m c main_v23) (E3 m c main_v36) (E3 m c main_arg7)) := rfl
  rw [e, E3_v33 m c, E3_v9 m c, E3_v23 m c, E3_v36 m c, E3_arg7 m c, first_region m c, layerOut_eq]
  unfold layer2 nbrK degK
  rw [ofMat_toMat, ofMat_toMat]

/-- The graph id words the second region's tiles read are the ids argument's. -/
theorem graph_ids : ids (E3 m) c = fun n => (a2 m c) (ix1 n) := by
  funext n
  unfold ids
  rw [E3_v4 m c]
  exact col_apply (a2 m c) n

/-- THE KERNEL'S RESULT: after the second region the result array holds the whole network of the arguments. -/
theorem kernel_result :
    ((dat1 (F := Ideal) (E3 m) c).arrAt 10 cfg1.N : S64.Idx → EReal)
      = Spec.toVec (Spec.model (nbrK m c) (degK m c) (Spec.ofMat (a0 m c))
          (Spec.ofMat (a3 m c)) (Spec.ofMat (a5 m c)) (Spec.ofVec (a4 m c)) (Spec.ofMat (a6 m c)) (Spec.ofMat (a8 m c)) (Spec.ofVec (a7 m c))
          (fun n => ((a2 m c) (ix1 n)).toInt) (Spec.ofMat (a9 m c)) (Spec.ofVec (a10 m c)) (fun k => (a11 m c) (ix2 (0 : Fin 1) k)) ((a12 m c) (ix1 (0 : Fin 1)))) := by
  rw [region1_value (E3 m) c, second_layer m c, graph_ids m c, Spec.accSum_last, Spec.accCount_last,
    E3_v37 m c, E3_arg10 m c, E3_v38 m c, E3_arg12 m c]
  unfold Spec.model
  refine congrArg Spec.toVec ?_
  have hW1 : (fun k j => (transpose S128x128 [1, 0] (a9 m c) transposes_S128x128_S128x128_1_0) (ix2 j k)) = Spec.ofMat (a9 m c) :=
    funext fun k => funext fun j => transpose_sq_apply (a9 m c) j k
  have hW2 : (fun k => (transpose S128x1 [1, 0] (a11 m c) transposes_S1x128_S128x1_1_0) (ix2 k (0 : Fin 1))) = fun k => (a11 m c) (ix2 (0 : Fin 1) k) :=
    funext fun k => transpose_row_apply (a11 m c) k
  rw [hW1, hW2]
  rfl

end Cert.Proof.Bridge

end
-- ==== Proof.lean ====
/-
  The certificate's claims.

  The three frames: the word-level program and its idealization are each two kernel regions among host operations;
  their frame is the run of the four segments from the launch memory, read at the argument buffers at the end. The
  reference is a host program: its run with the result dropped.

  The ideal pass rewrote nothing, so the idealization claim has no conjunct.

  The two idealized programs compute one function of the arguments: a two-layer mean-aggregating graph network, a mean
  pool per graph and a two-layer head. They differ in three arrangements, none of which changes a sum of extended
  reals: each layer's two contractions over 128 features and its bias, against one contraction over the 256 stacked
  features with the bias added last (commutativity and associativity of +); the pooled sum of a graph's rows as one
  scatter-add over the graph ids, against ten tile sums of rows weighted by the one-hot of their id and accumulated
  from zero (1 · x = x and 0 · x = 0 for every extended real; an id outside [0, 64) matches no column and is dropped by
  the scatter alike); and the second layer's rows computed tile by tile without being stored. The gather and
  scatter-add along the edge list are the same operations in both programs and are never opened. No finiteness of the
  inputs is needed.
-/
import proofs.«409417_j75368086110725_2_alg».proof.Defs
import proofs.«409417_j75368086110725_2_alg».proof.Proof.Gen.Kernel
import proofs.«409417_j75368086110725_2_alg».proof.Proof.Gen.KernelIdeal
import proofs.«409417_j75368086110725_2_alg».proof.Proof.Gen.ReferenceIdeal
import proofs.«409417_j75368086110725_2_alg».proof.Proof.Gen.Pre_finite_inputs
import proofs.«409417_j75368086110725_2_alg».proof.Proof.Gen.ReferenceIdeal.Run
import proofs.«409417_j75368086110725_2_alg».proof.Proof.RunBits
import proofs.«409417_j75368086110725_2_alg».proof.Proof.Run
import proofs.«409417_j75368086110725_2_alg».proof.Proof.Bridge
import Idealize.ShloMosaic.Adequacy
import Idealize.ShloMosaic.Init

noncomputable section

namespace Cert.Proof

open Idealize.ShloMosaic Idealize.SL.Sem

/-- The word-level program runs and leaves its arguments as launched. -/
theorem frame_kernel : Cert.frame_Kernel (hKernel := Cert.Kernel.Gen.facts) (hPre_finite_inputs := Cert.Pre_finite_inputs.Gen.facts) :=
  fun m ρ _ => Cert.Kernel.Frame.frame (F := Bits) m ρ

/-- Its idealization runs and leaves its arguments as launched. -/
theorem frame_kernelIdeal : Cert.frame_KernelIdeal (hKernelIdeal := Cert.KernelIdeal.Gen.facts) (hPre_finite_inputs := Cert.Pre_finite_inputs.Gen.facts) :=
  fun m ρ _ => Cert.KernelIdeal.Frame.frame (F := Ideal) m ρ

/-- The reference runs and leaves its arguments as launched: its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both idealized programs end with the whole network of the arguments in their
    result buffers: the kernel's by its run and `Bridge.kernel_result`, the reference's by its run read operation by
    operation; the two neighbour sums and in-degrees are the same gather and scatter-add. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => (Cert.KernelIdeal.Frame.dat1 (F := Ideal) (Cert.KernelIdeal.Frame.E3 m) c).arrAt 10 Cert.KernelIdeal.cfg1.N,
    Cert.KernelIdeal.Frame.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  refine (Cert.ReferenceIdeal.RefValue.run_result_eq m' c).trans ?_
  refine Eq.trans ?_ (Bridge.kernel_result m c).symm
  rw [h0, h1, h2, h3, h4, h5, h6, h7, h8, h9, h10, h11, h12]
  unfold Bridge.nbrK Bridge.degK
  simp only [EdgeChain.nbrSum_eq, EdgeChain.inDeg_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
